-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S128x258 : Shape := ⟨2, ![128, 258]⟩
abbrev S258 : Shape := ⟨1, ![258]⟩
abbrev S258x1 : Shape := ⟨2, ![258, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_
  bcast_S_S128x258 : S_.BroadcastsInDim S128x258 (![] : Fin 0 → Fin S128x258.rank)
  reducesTo_S128x258_S_d0_1 : S128x258.ReducesTo [0, 1] S_
  bcast_S_S258 : S_.BroadcastsInDim S258 (![] : Fin 0 → Fin S258.rank)
  reducesTo_S258_S_d0 : S258.ReducesTo [0] S_
  bcast_S_S258x1 : S_.BroadcastsInDim S258x1 (![] : Fin 0 → Fin S258x1.rank)
  reducesTo_S258x1_S_d0_1 : S258x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S128x258 .f32) (main_arg17 : FVec F S258 .f32) (main_arg18 : FVec F S258x1 .f32) (main_arg19 : FVec F S1 .f32) (main_v63 : IVec S_ 1) (main_v67 : IVec S_ 1) : IVec S_ 1 :=
  let main_v68 : IVec S_ 1 := andi main_v63 main_v67
  let main_v69 : FVec F S128x258 .f32 := Host.absf main_arg16
  let main_cst_26 : FVec F S_ .f32 := constant S_ .f32 0x7F800000#32
  let main_v70 : FVec F S128x258 .f32 := broadcastInDim S128x258 ![] bcast_S_S128x258 main_cst_26
  let main_v71 : IVec S128x258 1 := cmpf .olt main_v69 main_v70
  let main_c_27 : IVec S_ 1 := constantI S_ 1 1#1
  let main_v72 : IVec S_ 1 := (fun x v => Host.reduce IntOp.andi x v reducesTo_S128x258_S_d0_1 h_S_) main_v71 main_c_27
  let main_v73 : IVec S_ 1 := andi main_v68 main_v72
  let main_v74 : FVec F S258 .f32 := Host.absf main_arg17
  let main_cst_28 : FVec F S_ .f32 := constant S_ .f32 0x7F800000#32
  let main_v75 : FVec F S258 .f32 := broadcastInDim S258 ![] bcast_S_S258 main_cst_28
  let main_v76 : IVec S258 1 := cmpf .olt main_v74 main_v75
  let main_c_29 : IVec S_ 1 := constantI S_ 1 1#1
  let main_v77 : IVec S_ 1 := (fun x v => Host.reduce IntOp.andi x v reducesTo_S258_S_d0 h_S_) main_v76 main_c_29
  let main_v78 : IVec S_ 1 := andi main_v73 main_v77
  let main_v79 : FVec F S258x1 .f32 := Host.absf main_arg18
  let main_cst_30 : FVec F S_ .f32 := constant S_ .f32 0x7F800000#32
  let main_v80 : FVec F S258x1 .f32 := broadcastInDim S258x1 ![] bcast_S_S258x1 main_cst_30
  let main_v81 : IVec S258x1 1 := cmpf .olt main_v79 main_v80
  let main_c_31 : IVec S_ 1 := constantI S_ 1 1#1
  let main_v82 : IVec S_ 1 := (fun x v => Host.reduce IntOp.andi x v reducesTo_S258x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S128x258 .f32) (main_arg17 : FVec F S258 .f32) (main_arg18 : FVec F S258x1 .f32) (main_arg19 : FVec F S1 .f32) (main_v48 : IVec S_ 1) (main_v49 : FVec F S192x128 .f32) (main_v50 : FVec F S192x128 .f32) : IVec S_ 1 :=
  let main_v51 : IVec S192x128 1 := cmpf .olt main_v49 main_v50
  let main_c_19 : IVec S_ 1 := constantI S_ 1 1#1
  let main_v52 : IVec S_ 1 := (fun x v => Host.reduce IntOp.andi x v reducesTo_S192x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128x128 .f32) (main_arg10 : FVec F S192x128 .f32) (main_arg11 : FVec F S128 .f32) (main_arg12 : FVec F S192x128 .f32) (main_arg13 : FVec F S128 .f32) (main_arg14 : FVec F S128x128 .f32) (main_arg15 : FVec F S128 .f32) (main_arg16 : FVec F S128x258 .f32) (main_arg17 : FVec F S258 .f32) (main_arg18 : FVec F S258x1 .f32) (main_arg19 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S192x128 .f32 := Host.absf main_arg10
  let main_cst_14 : FVec F S_ .f32 := constant S_ .f32 0x7F800000#32
  let main_v40 : FVec F S192x128 .f32 := broadcastInDim S192x128 ![] bcast_S_S192x128 main_cst_14
  let main_v41 : IVec S192x128 1 := cmpf .olt main_v39 main_v40
  let main_c_15 : IVec S_ 1 := constantI S_ 1 1#1
  let main_v42 : IVec S_ 1 := (fun x v => Host.reduce IntOp.andi x v reducesTo_S192x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S192x128 .f32 := Host.absf main_arg12
  let main_cst_18 : FVec F S_ .f32 := constant S_ .f32 0x7F800000#32
  let main_v50 : FVec F S192x128 .f32 := broadcastInDim S192x128 ![] bcast_S_S192x128 main_cst_18
  fn_part3 (F := F) main_arg13 main_arg14 main_arg15 main_arg16 main_arg17 main_arg18 main_arg19 main_v48 main_v49 main_v50

def fn_part1 {F : FTy → Type} [FloatOps F] (main_arg6 : FVec F S64x128 .f32) (main_arg7 : FVec F S128x128 .f32) (main_arg8 : FVec F S128 .f32) (main_arg9 : FVec F S128x128 .f32) (main_arg10 : FVec F S192x128 .f32) (main_arg11 : FVec F S128 .f32) (main_arg12 : FVec F S192x128 .f32) (main_arg13 : FVec F S128 .f32) (main_arg14 : FVec F S128x128 .f32) (main_arg15 : FVec F S128 .f32) (main_arg16 : FVec F S128x258 .f32) (main_arg17 : FVec F S258 .f32) (main_arg18 : FVec F S258x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S2x1600000 32) (main_arg2 : IVec S100000 32) (main_arg3 : FVec F S1600000 .f32) (main_arg4 : FVec F S64x128 .f32) (main_arg5 : FVec F S128 .f32) (main_arg6 : FVec F S64x128 .f32) (main_arg7 : FVec F S128x128 .f32) (main_arg8 : FVec F S128 .f32) (main_arg9 : FVec F S128x128 .f32) (main_arg10 : FVec F S192x128 .f32) (main_arg11 : FVec F S128 .f32) (main_arg12 : FVec F S192x128 .f32) (main_arg13 : FVec F S128 .f32) (main_arg14 : FVec F S128x128 .f32) (main_arg15 : FVec F S128 .f32) (main_arg16 : FVec F S128x258 .f32) (main_arg17 : FVec F S258 .f32) (main_arg18 : FVec F S258x1 .f32) (main_arg19 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S128x258 : Shape := ⟨2, ![128, 258]⟩
abbrev S258 : Shape := ⟨1, ![258]⟩
abbrev S258x1 : Shape := ⟨2, ![258, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S4000x64 : Shape := ⟨2, ![4000, 64]⟩
abbrev S4000x128 : Shape := ⟨2, ![4000, 128]⟩
abbrev S1600000x128 : Shape := ⟨2, ![1600000, 128]⟩
abbrev S100000x1 : Shape := ⟨2, ![100000, 1]⟩
abbrev S256x128 : Shape := ⟨2, ![256, 128]⟩
abbrev S2000x128 : Shape := ⟨2, ![2000, 128]⟩
abbrev S2000x64 : Shape := ⟨2, ![2000, 64]⟩
abbrev S2000x1 : Shape := ⟨2, ![2000, 1]⟩
abbrev S2000x256 : Shape := ⟨2, ![2000, 256]⟩
abbrev S1x258 : Shape := ⟨2, ![1, 258]⟩
abbrev S1x1 : Shape := ⟨2, ![1, 1]⟩
abbrev S256x1 : Shape := ⟨2, ![256, 1]⟩
abbrev S256x258 : Shape := ⟨2, ![256, 258]⟩

abbrev nBuf : Space → Nat
  | .hbm => 74
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S1600000, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S192x128, .f32⟩
  | .hbm, ⟨11, _⟩ => ⟨S128, .f32⟩
  | .hbm, ⟨12, _⟩ => ⟨S192x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x258, .f32⟩
  | .hbm, ⟨17, _⟩ => ⟨S258, .f32⟩
  | .hbm, ⟨18, _⟩ => ⟨S258x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S100000x64, .bf16⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .bf16⟩
  | .hbm, ⟨34, _⟩ => ⟨S1600000x1, .f32⟩
  | .hbm, ⟨35, _⟩ => ⟨S1600000x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S1x128, .f32⟩
  | .hbm, ⟨43, _⟩ => ⟨S100000x128, .bf16⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .bf16⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .i32⟩
  | .hbm, ⟨62, _⟩ => ⟨S128x128, .f32⟩
  | .hbm, ⟨63, _⟩ => ⟨S64x128, .f32⟩
  | .hbm, ⟨64, _⟩ => ⟨S128x128, .f32⟩
  | .hbm, ⟨65, _⟩ => ⟨S64x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S256x128, .f32⟩
  | .hbm, ⟨70, _⟩ => ⟨S1x128, .f32⟩
  | .hbm, ⟨71, _⟩ => ⟨S1x258, .f32⟩
  | .hbm, ⟨72, _⟩ => ⟨S1x1, .f32⟩
  | .hbm, ⟨73, _⟩ => ⟨S256x1, .f32⟩
  | .local _ .vmem, ⟨0, _⟩ => ⟨S4000x64, .f32⟩
  | .local _ .vmem, ⟨1, _⟩ => ⟨S4000x64, .f32⟩
  | .local _ .vmem, ⟨2, _⟩ => ⟨S4000x64, .bf16⟩
  | .local _ .vmem, ⟨3, _⟩ => ⟨S4000x64, .bf16⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S4000x128, .bf16⟩
  | .local _ .vmem, ⟨8, _⟩ => ⟨S4000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x64, .bf16⟩
  | .local _ .vmem, ⟨14, _⟩ => ⟨S2000x64, .bf16⟩
  | .local _ .vmem, ⟨15, _⟩ => ⟨S2000x1, .i32⟩
  | .local _ .vmem, ⟨16, _⟩ => ⟨S2000x1, .i32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S64x128, .f32⟩
  | .local _ .vmem, ⟨22, _⟩ => ⟨S1x128, .f32⟩
  | .local _ .vmem, ⟨23, _⟩ => ⟨S128x128, .f32⟩
  | .local _ .vmem, ⟨24, _⟩ => ⟨S64x128, .f32⟩
  | .local _ .vmem, ⟨25, _⟩ => ⟨S1x128, .f32⟩
  | .local _ .vmem, ⟨26, _⟩ => ⟨S256x128, .f32⟩
  | .local _ .vmem, ⟨27, _⟩ => ⟨S256x128, .f32⟩
  | .local _ .vmem, ⟨28, _⟩ => ⟨S128x128, .f32⟩
  | .local _ .vmem, ⟨29, _⟩ => ⟨S1x128, .f32⟩
  | .local _ .vmem, ⟨30, _⟩ => ⟨S128x258, .f32⟩
  | .local _ .vmem, ⟨31, _⟩ => ⟨S1x258, .f32⟩
  | .local _ .vmem, ⟨32, _⟩ => ⟨S258x1, .f32⟩
  | .local _ .vmem, ⟨33, _⟩ => ⟨S1x1, .f32⟩
  | .local _ .vmem, ⟨34, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_c_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc2_sem0_0 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x258 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x258 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S258x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  slices_S192x128_S128x128_0_0 : S192x128.Slices ![0, 0] S128x128
  slices_S192x128_S64x128_128_0 : S192x128.Slices ![128, 0] S64x128
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S128x128_S128x128_0_0 : ∀ a, (![0, 0] : Fin 2 → Nat) a + S128x128.size a ≤ S128x128.size a
  h_S128x128 : 0 < S128x128.numel
  broadcasts_S1x128_S2000x128 : S1x128.Broadcasts S2000x128
  shapeCasts_S128x128_S128x128 : S128x128.ShapeCasts S128x128
  shapeCasts_S64x128_S64x128 : S64x128.ShapeCasts S64x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  shapeCasts_S256x128_S256x128 : S256x128.ShapeCasts S256x128
  shapeCasts_S258_S1x258 : S258.ShapeCasts S1x258
  shapeCasts_S1_S1x1 : S1.ShapeCasts S1x1
  broadcasts_S1x128_S256x128 : S1x128.Broadcasts S256x128
  inb_S128x258_S128x258_0_0 : ∀ a, (![0, 0] : Fin 2 → Nat) a + S128x258.size a ≤ S128x258.size a
  h_S128x258 : 0 < S128x258.numel
  inb_S1x258_S1x258_0_0 : ∀ a, (![0, 0] : Fin 2 → Nat) a + S1x258.size a ≤ S1x258.size a
  h_S1x258 : 0 < S1x258.numel
  shapeCasts_S1x258_S1x258 : S1x258.ShapeCasts S1x258
  broadcasts_S1x258_S256x258 : S1x258.Broadcasts S256x258
  inb_S258x1_S258x1_0_0 : ∀ a, (![0, 0] : Fin 2 → Nat) a + S258x1.size a ≤ S258x1.size a
  h_S258x1 : 0 < S258x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  dot_S2000x256_S2000x128_S256x128_0_0_1_1_n_n_wf : DotDims.WF S2000x256 S2000x128 S256x128 [0] [0] [1] [1] [] []
  dot_S256x128_S128x128_S256x128_1_0_0_1_n_n_wf : DotDims.WF S256x128 S128x128 S256x128 [1] [0] [0] [1] [] []
  dot_S256x128_S128x258_S256x258_1_0_0_1_n_n_wf : DotDims.WF S256x128 S128x258 S256x258 [1] [0] [0] [1] [] []
  dot_S256x258_S258x1_S256x1_1_0_0_1_n_n_wf : DotDims.WF S256x258 S258x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .bf16 = 32 ∨ (Rect.block (s := S100000x64) S4000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .bf16 = 32 ∨ (Rect.block (s := S100000x64) S2000x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .i32 = 32 ∨ (Rect.block (s := S100000x1) S2000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x128.size a ≤ S64x128.size a
  hwx1_8 : ∀ i : grid1.Coords, EltTy.bits .f32 = 32 ∨ (Rect.block (s := S64x128) S64x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x128.size a ≤ S64x128.size a
  hwx1_11 : ∀ i : grid1.Coords, EltTy.bits .f32 = 32 ∨ (Rect.block (s := S64x128) S64x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x128.size a ≤ S256x128.size a
  hwx1_13 : ∀ i : grid1.Coords, EltTy.bits .f32 = 32 ∨ (Rect.block (s := S256x128) S256x128.size (cc1_transform_13 i) (hinb1_13 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x258.size a ≤ S128x258.size a
  hwx2_3 : ∀ i : grid2.Coords, EltTy.bits .f32 = 32 ∨ (Rect.block (s := S128x258) S128x258.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x258.size a ≤ S1x258.size a
  hwx2_4 : ∀ i : grid2.Coords, EltTy.bits .f32 = 32 ∨ (Rect.block (s := S1x258) S1x258.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S258x1.size a ≤ S258x1.size a
  hwx2_5 : ∀ i : grid2.Coords, EltTy.bits .f32 = 32 ∨ (Rect.block (s := S258x1) S258x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S256x1.size a
  hwx2_7 : ∀ i : grid2.Coords, EltTy.bits .f32 = 32 ∨ (Rect.block (s := S256x1) S256x1.size (cc2_transform_7 i) (hinb2_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x258_S256x258_1_0_0_1_n_n : DotDims S256x128 S128x258 S256x258 where
  lhsContracting := [1]
  rhsContracting := [0]
  lhsNonContracting := [0]
  rhsNonContracting := [1]
  lhsBatch := []
  rhsBatch := []
  wf := dot_S256x128_S128x258_S256x258_1_0_0_1_n_n_wf
def dot_S256x258_S258x1_S256x1_1_0_0_1_n_n : DotDims S256x258 S258x1 S256x1 where
  lhsContracting := [1]
  rhsContracting := [0]
  lhsNonContracting := [0]
  rhsNonContracting := [1]
  lhsBatch := []
  rhsBatch := []
  wf := dot_S256x258_S258x1_S256x1_1_0_0_1_n_n_wf

abbrev win0_0 : Pipeline.Window sig grid0 :=
  Pipeline.Window.ofSpec (Memref.whole main_v18) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S64x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v41) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v39) S64x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v42) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v43) S256x128.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v43) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128x258.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x258.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S258x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S256x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S128x258 : Shape := ⟨2, ![128, 258]⟩
abbrev S258 : Shape := ⟨1, ![258]⟩
abbrev S258x1 : Shape := ⟨2, ![258, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x192 : Shape := ⟨2, ![100000, 192]⟩
abbrev S256x128 : Shape := ⟨2, ![256, 128]⟩
abbrev S100000x1 : Shape := ⟨2, ![100000, 1]⟩
abbrev S256x258 : Shape := ⟨2, ![256, 258]⟩
abbrev S1x258 : Shape := ⟨2, ![1, 258]⟩
abbrev S256x1 : Shape := ⟨2, ![256, 1]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S1600000, .f32⟩
  | 4 => ⟨S64x128, .f32⟩
  | 5 => ⟨S128, .f32⟩
  | 6 => ⟨S64x128, .f32⟩
  | 7 => ⟨S128x128, .f32⟩
  | 8 => ⟨S128, .f32⟩
  | 9 => ⟨S128x128, .f32⟩
  | 10 => ⟨S192x128, .f32⟩
  | 11 => ⟨S128, .f32⟩
  | 12 => ⟨S192x128, .f32⟩
  | 13 => ⟨S128, .f32⟩
  | 14 => ⟨S128x128, .f32⟩
  | 15 => ⟨S128, .f32⟩
  | 16 => ⟨S128x258, .f32⟩
  | 17 => ⟨S258, .f32⟩
  | 18 => ⟨S258x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x1, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .i1⟩
  | 49 => ⟨S_, .f32⟩
  | 50 => ⟨S100000x128, .f32⟩
  | 51 => ⟨S100000x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x1, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S100000x128, .f32⟩
  | 74 => ⟨S100000x128, .f32⟩
  | 75 => ⟨S_, .f32⟩
  | 76 => ⟨S100000x128, .f32⟩
  | 77 => ⟨S100000x128, .i1⟩
  | 78 => ⟨S_, .f32⟩
  | 79 => ⟨S100000x128, .f32⟩
  | 80 => ⟨S100000x128, .f32⟩
  | 81 => ⟨S100000x128, .f32⟩
  | 82 => ⟨S100000x192, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S_, .f32⟩
  | 89 => ⟨S_, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S100000x128, .f32⟩
  | 109 => ⟨S100000x128, .f32⟩
  | 110 => ⟨S_, .f32⟩
  | 111 => ⟨S256x128, .f32⟩
  | 112 => ⟨S100000x1, .i32⟩
  | 113 => ⟨S256x128, .f32⟩
  | 114 => ⟨S256x128, .f32⟩
  | 115 => ⟨S1x128, .f32⟩
  | 116 => ⟨S256x128, .f32⟩
  | 117 => ⟨S256x128, .f32⟩
  | 118 => ⟨S_, .f32⟩
  | 119 => ⟨S256x128, .f32⟩
  | 120 => ⟨S256x128, .i1⟩
  | 121 => ⟨S_, .f32⟩
  | 122 => ⟨S256x128, .f32⟩
  | 123 => ⟨S256x128, .f32⟩
  | 124 => ⟨S256x128, .f32⟩
  | 125 => ⟨S256x258, .f32⟩
  | 126 => ⟨S1x258, .f32⟩
  | 127 => ⟨S256x258, .f32⟩
  | _ => ⟨S100000x64, .f32⟩

abbrev hbmTy0_1 (i : Nat) : BufTy := match i % 128 with
  | 0 => ⟨S256x258, .f32⟩
  | 1 => ⟨S_, .f32⟩
  | 2 => ⟨S256x258, .f32⟩
  | 3 => ⟨S256x258, .i1⟩
  | 4 => ⟨S_, .f32⟩
  | 5 => ⟨S256x258, .f32⟩
  | 6 => ⟨S256x258, .f32⟩
  | 7 => ⟨S256x258, .f32⟩
  | 8 => ⟨S256x1, .f32⟩
  | 9 => ⟨S1x1, .f32⟩
  | 10 => ⟨S256x1, .f32⟩
  | 11 => ⟨S256x1, .f32⟩
  | 12 => ⟨S256x1, .f32⟩
  | 13 => ⟨S256x1, .f32⟩
  | 14 => ⟨S_, .f32⟩
  | 15 => ⟨S256x1, .f32⟩
  | 16 => ⟨S256x1, .f32⟩
  | 17 => ⟨S_, .f32⟩
  | 18 => ⟨S256x1, .f32⟩
  | 19 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_3 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_cst_9 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_10 : Ref sig .tc := ⟨.hbm, 98, rfl⟩
abbrev main_v61 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_13 : Ref sig .tc := ⟨.hbm, 118, rfl⟩
abbrev main_v78 : Ref sig .tc := ⟨.hbm, 119, rfl⟩
abbrev main_v79 : Ref sig .tc := ⟨.hbm, 120, rfl⟩
abbrev main_cst_14 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_15 : Ref sig .tc := ⟨.hbm, 129, rfl⟩
abbrev main_v87 : Ref sig .tc := ⟨.hbm, 130, rfl⟩
abbrev main_v88 : Ref sig .tc := ⟨.hbm, 131, rfl⟩
abbrev main_cst_16 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_17 : Ref sig .tc := ⟨.hbm, 142, rfl⟩
abbrev main_v98 : Ref sig .tc := ⟨.hbm, 143, rfl⟩
abbrev main_v99 : Ref sig .tc := ⟨.hbm, 144, rfl⟩
abbrev main_cst_18 : Ref sig .tc := ⟨.hbm, 145, rfl⟩
abbrev main_v100 : Ref sig .tc := ⟨.hbm, 146, rfl⟩
abbrev main_v101 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  concatenates_S100000x128_S100000x64_S100000x192_d1 : Shape.Concatenates [S100000x128, S100000x64] S100000x192 1
  bcast_S_S256x128 : S_.BroadcastsInDim S256x128 (![] : Fin 0 → Fin S256x128.rank)
  bcast_S100000_S100000x1_0 : S100000.BroadcastsInDim S100000x1 (![0] : Fin 1 → Fin S100000x1.rank)
  bcast_S1x128_S256x128_0_1 : S1x128.BroadcastsInDim S256x128 (![0, 1] : Fin 2 → Fin S256x128.rank)
  bcast_S258_S1x258_1 : S258.BroadcastsInDim S1x258 (![1] : Fin 1 → Fin S1x258.rank)
  bcast_S1x258_S256x258_0_1 : S1x258.BroadcastsInDim S256x258 (![0, 1] : Fin 2 → Fin S256x258.rank)
  bcast_S_S256x258 : S_.BroadcastsInDim S256x258 (![] : Fin 0 → Fin S256x258.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x192_S192x128_S100000x128_1_0_0_1_n_n_wf : DotDims.WF S100000x192 S192x128 S100000x128 [1] [0] [0] [1] [] []
  scatter_S256x128_S100000x1_S100000x128_1_0_0_1_wf : ScatterDims.WF S256x128 S100000x1 S100000x128 [1] [0] [0] 1
  dot_S256x128_S128x128_S256x128_1_0_0_1_n_n_wf : DotDims.WF S256x128 S128x128 S256x128 [1] [0] [0] [1] [] []
  dot_S256x128_S128x258_S256x258_1_0_0_1_n_n_wf : DotDims.WF S256x128 S128x258 S256x258 [1] [0] [0] [1] [] []
  dot_S256x258_S258x1_S256x1_1_0_0_1_n_n_wf : DotDims.WF S256x258 S258x1 S256x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x258_S256x258_1_0_0_1_n_n : DotDims S256x128 S128x258 S256x258 where
  lhsContracting := [1]
  rhsContracting := [0]
  lhsNonContracting := [0]
  rhsNonContracting := [1]
  lhsBatch := []
  rhsBatch := []
  wf := dot_S256x128_S128x258_S256x258_1_0_0_1_n_n_wf
def dot_S256x258_S258x1_S256x1_1_0_0_1_n_n : DotDims S256x258 S258x1 S256x1 where
  lhsContracting := [1]
  rhsContracting := [0]
  lhsNonContracting := [0]
  rhsNonContracting := [1]
  lhsBatch := []
  rhsBatch := []
  wf := dot_S256x258_S258x1_S256x1_1_0_0_1_n_n_wf

class Facts : Prop extends Facts₀ where

variable [Facts]
-- ==== Proof.Spec.lean ====
/-
  The network both programs compute, read index by index on the extended reals.

  A graph convolution layer sends row `n` of the aggregated messages `agg` and of the node features `x` to
  `leaky (agg[n,:]·Wrel + b + x[n,:]·Wroot)`.  The gate multiplies a logistic of the negated, clipped first
  projection by the hyperbolic tangent of the second, each projection the sum of a part read off the hidden row
  and a part read off the input row.  Pooling adds the gate rows of the nodes whose graph id is `g` (ids outside
  `0 … 255` belong to no graph).  The head is two leaky dense layers and a logistic one.

  Float literals stay the exact values of their binary words.  Nothing here assumes an entry finite: only
  commutativity and associativity of `+` are ever used to match a program against these formulas.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal

/-- The word `0.0`. -/
abbrev zeroW : EReal := Ideal.ofBits .f32 0x00000000#32
/-- The word of the leaky slope, the float nearest `0.05`. -/
abbrev slopeW : EReal := Ideal.ofBits .f32 0x3D4CCCCD#32
/-- The clip bounds `-30` and `30`. -/
abbrev loW : EReal := Ideal.ofBits .f32 0xC1F00000#32
abbrev hiW : EReal := Ideal.ofBits .f32 0x41F00000#32

/-- `v` where `v > 0`, the slope times `v` elsewhere. -/
def leaky (v : EReal) : EReal := Scalar.select (Ideal.cmp .ogt v zeroW) v (slopeW * v)

/-- One entry of a dense layer: row `n` of `p` against column `q` of `w`, plus the bias. -/
def dense {a b r : ℕ} (p : Mat r a) (w : Mat a b) (bias : Fin b → EReal) (n : Fin r) (q : Fin b) : EReal :=
  (∑ k : Fin a, p (ix2 n k) * w (ix2 k q)) + bias q

/-- One entry of a graph convolution layer followed by the leaky unit. -/
def convAt {d : ℕ} (agg x : Mat 100000 d) (wrel wroot : Mat d 128) (b : Fin 128 → EReal) (n : Fin 100000) (q : Fin 128) : EReal :=
  leaky (((∑ k : Fin d, agg (ix2 n k) * wrel (ix2 k q)) + b q) + ∑ k : Fin d, x (ix2 n k) * wroot (ix2 k q))

def conv {d : ℕ} (agg x : Mat 100000 d) (wrel wroot : Mat d 128) (b : Fin 128 → EReal) : Mat 100000 128 :=
  fun i => convAt agg x wrel wroot b (i 0) (i 1)

/-- One projection of the gate: the hidden row against `wh` plus the input row against `wx`, plus the bias. -/
def proj (h : Mat 100000 128) (x : Mat 100000 64) (wh : Mat 128 128) (wx : Mat 64 128) (b : Fin 128 → EReal)
    (n : Fin 100000) (q : Fin 128) : EReal :=
  ((∑ k : Fin 128, h (ix2 n k) * wh (ix2 k q)) + ∑ k : Fin 64, x (ix2 n k) * wx (ix2 k q)) + b q

/-- One entry of the gate. -/
def gateAt (h : Mat 100000 128) (x : Mat 100000 64) (wsh : Mat 128 128) (wsx : Mat 64 128) (wth : Mat 128 128) (wtx : Mat 64 128)
    (bs bt : Fin 128 → EReal) (n : Fin 100000) (q : Fin 128) : EReal :=
  Ideal.logistic (-(min hiW (max loW (proj h x wsh wsx bs n q)))) * Ideal.tanh (proj h x wth wtx bt n q)

def gate (h : Mat 100000 128) (x : Mat 100000 64) (wsh : Mat 128 128) (wsx : Mat 64 128) (wth : Mat 128 128) (wtx : Mat 64 128)
    (bs bt : Fin 128 → EReal) : Mat 100000 128 :=
  fun i => gateAt h x wsh wsx wth wtx bs bt (i 0) (i 1)

/-- One entry of the pooled matrix: the sum over the nodes of graph `g`. -/
def poolAt (batch : Fin 100000 → BitVec 32) (G : Mat 100000 128) (g : Fin 256) (q : Fin 128) : EReal :=
  ∑ n ∈ Finset.univ.filter (fun n : Fin 100000 => (batch n).toInt = (g.val : ℤ)), G (ix2 n q)

def pool (batch : Fin 100000 → BitVec 32) (G : Mat 100000 128) : Mat 256 128 :=
  fun i => poolAt batch G (i 0) (i 1)

/-- One entry of the head. -/
def mlpAt (p : Mat 256 128) (wf1 : Mat 128 128) (bf1 : Fin 128 → EReal) (wf2 : Mat 128 258) (bf2 : Fin 258 → EReal)
    (wout : Mat 258 1) (bout : Fin 1 → EReal) (g : Fin 256) (o : Fin 1) : EReal :=
  Ideal.logistic (dense (r := 256) (fun i : (⟨2, ![256, 258]⟩ : Shape).Idx =>
      leaky (dense (r := 256) (fun j : (⟨2, ![256, 128]⟩ : Shape).Idx => leaky (dense p wf1 bf1 (j 0) (j 1))) wf2 bf2 (i 0) (i 1)))
    wout bout g o)

def mlp (p : Mat 256 128) (wf1 : Mat 128 128) (bf1 : Fin 128 → EReal) (wf2 : Mat 128 258) (bf2 : Fin 258 → EReal)
    (wout : Mat 258 1) (bout : Fin 1 → EReal) : Mat 256 1 :=
  fun i => mlpAt p wf1 bf1 wf2 bf2 wout bout (i 0) (i 1)

/-- The first 128 rows of a 192-row weight matrix: the part that meets the hidden row. -/
def topRows (w : Mat 192 128) : Mat 128 128 :=
  fun i => w (ix2 (⟨(i 0).val, by have := idx2_lt0 i; omega⟩ : Fin 192) (⟨(i 1).val, idx2_lt1 i⟩ : Fin 128))

/-- Its last 64 rows: the part that meets the input row. -/
def botRows (w : Mat 192 128) : Mat 64 128 :=
  fun i => w (ix2 (⟨128 + (i 0).val, by have := idx2_lt0 i; omega⟩ : Fin 192) (⟨(i 1).val, idx2_lt1 i⟩ : Fin 128))

/-- The whole network, from the first layer's aggregated messages `agg1` and the map `agg2` that aggregates the
    second layer's messages out of the first hidden layer. -/
def net (agg1 : Mat 100000 64) (agg2 : Mat 100000 128 → Mat 100000 128) (x : Mat 100000 64) (batch : Fin 100000 → BitVec 32)
    (wrel1 wroot1 : Mat 64 128) (brel1 : Fin 128 → EReal) (wrel2 wroot2 : Mat 128 128) (brel2 : Fin 128 → EReal)
    (wsig wtanh : Mat 192 128) (bsig btanh : Fin 128 → EReal)
    (wf1 : Mat 128 128) (bf1 : Fin 128 → EReal) (wf2 : Mat 128 258) (bf2 : Fin 258 → EReal) (wout : Mat 258 1) (bout : Fin 1 → EReal) : Mat 256 1 :=
  mlp (pool batch (gate (conv (agg2 (conv agg1 x wrel1 wroot1 brel1)) (conv agg1 x wrel1 wroot1 brel1) wrel2 wroot2 brel2) x
    (topRows wsig) (botRows wsig) (topRows wtanh) (botRows wtanh) bsig btanh)) wf1 bf1 wf2 bf2 wout bout

theorem conv_ix2 {d : ℕ} (agg x : Mat 100000 d) (wrel wroot : Mat d 128) (b : Fin 128 → EReal) (n : Fin 100000) (q : Fin 128) :
    conv agg x wrel wroot b (ix2 n q) = convAt agg x wrel wroot b n q := rfl

theorem gate_ix2 (h : Mat 100000 128) (x : Mat 100000 64) (wsh : Mat 128 128) (wsx : Mat 64 128) (wth : Mat 128 128) (wtx : Mat 64 128)
    (bs bt : Fin 128 → EReal) (n : Fin 100000) (q : Fin 128) :
    gate h x wsh wsx wth wtx bs bt (ix2 n q) = gateAt h x wsh wsx wth wtx bs bt n q := rfl

theorem pool_ix2 (batch : Fin 100000 → BitVec 32) (G : Mat 100000 128) (g : Fin 256) (q : Fin 128) :
    pool batch G (ix2 g q) = poolAt batch G g q := rfl

theorem mlp_ix2 (p : Mat 256 128) (wf1 : Mat 128 128) (bf1 : Fin 128 → EReal) (wf2 : Mat 128 258) (bf2 : Fin 258 → EReal)
    (wout : Mat 258 1) (bout : Fin 1 → EReal) (g : Fin 256) (o : Fin 1) :
    mlp p wf1 bf1 wf2 bf2 wout bout (ix2 g o) = mlpAt p wf1 bf1 wf2 bf2 wout bout g o := rfl

end Cert.Spec

end
-- ==== Proof.KAgg.lean ====
/-
  The message aggregation of one graph convolution layer as the kernel program's host operations compute it: the
  source row of every edge is gathered (a negative source id first wrapped by the node count), scaled by the
  edge's weight, and added into the row of the edge's destination.
-/
import proofs.«401727_j32504312496833_2_alg».proof.KernelIdeal
import proofs.«401727_j32504312496833_2_alg».proof.Proof.Gen.KernelIdeal

noncomputable section

namespace Cert.Proof.KAgg

open Cert.KernelIdeal Cert.KernelIdeal.Facts₀ Idealize.ShloMosaic Idealize.ShloMosaic.TcCoe

variable {F : FTy → Type} [FloatOps F]

/-- The edges' source ids: row 0 of the edge list. -/
def src (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- The edges' destination ids: row 1 of the edge list. -/
def dst (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- The source ids as a column, a negative id wrapped by the node count. -/
def srcCol (x1 : (⟨S2x1600000, .i32⟩ : BufTy).Contents (Elt F)) : (⟨S1600000x1, .i32⟩ : BufTy).Contents (Elt F) :=
  broadcastInDim S1600000x1 ![0] bcast_S1600000_S1600000x1_0
    (select (cmpi .slt (src (F := F) x1) (broadcastInDim S1600000 ![] bcast_S_S1600000 (constantI S_ 32 0#32)))
      (addi (src (F := F) x1) (broadcastInDim S1600000 ![] bcast_S_S1600000 (constantI S_ 32 100000#32))) (src (F := F) x1))

/-- The destination ids as a column. -/
def dstCol (x1 : (⟨S2x1600000, .i32⟩ : BufTy).Contents (Elt F)) : (⟨S1600000x1, .i32⟩ : BufTy).Contents (Elt F) :=
  broadcastInDim S1600000x1 ![0] bcast_S1600000_S1600000x1_0 (dst (F := F) x1)

/-- The first layer's aggregated messages, from the node features, the edge list and the edge weights. -/
def agg1 (x0 : (⟨S100000x64, .f32⟩ : BufTy).Contents (Elt F)) (x1 : (⟨S2x1600000, .i32⟩ : BufTy).Contents (Elt F))
    (x3 : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstCol (F := F) x1)
    (mulf (extf .f32 (Host.gather gather_S100000x64_S1600000x1_S1600000x64_1_0_n_n_0_1_164 (truncf .bf16 x0 bitsLt_bf16_f32) (srcCol (F := F) x1)) bitsLt_bf16_f32)
      (broadcastInDim S1600000x64 ![0, 1] bcast_S1600000x1_S1600000x64_0_1 (broadcastInDim S1600000x1 ![0] bcast_S1600000_S1600000x1_0 x3)))

/-- The second layer's aggregated messages, from the first hidden layer, the edge list and the edge weights. -/
def agg2 (h : (⟨S100000x128, .bf16⟩ : BufTy).Contents (Elt F)) (x1 : (⟨S2x1600000, .i32⟩ : BufTy).Contents (Elt F))
    (x3 : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstCol (F := F) x1)
    (mulf (extf .f32 (Host.gather gather_S100000x128_S1600000x1_S1600000x128_1_0_n_n_0_1_1128 h (srcCol (F := F) x1)) bitsLt_bf16_f32)
      (broadcastInDim S1600000x128 ![0, 1] bcast_S1600000x1_S1600000x128_0_1 (broadcastInDim S1600000x1 ![0] bcast_S1600000_S1600000x1_0 x3)))

end Cert.Proof.KAgg

end
-- ==== Proof.Region0.lean ====
/-
  The first graph convolution layer, block of rows by block of rows: the array the first kernel region leaves.

  The region visits 25 points.  At point `t` it reads rows `4000·t … 4000·t + 3999` of the aggregated messages and of
  the node features, both weight matrices and the bias row whole, and writes the same rows of its output.  One entry
  of the block it writes is the leaky unit of (messages row · Wrel + features row · Wroot) + bias; the specification
  adds the bias before the second product, and the two agree by commutativity and associativity of `+`.  Every row
  `r` of the output lies in the block of point `r / 4000`, so after the last point the whole array holds the layer.
-/
import proofs.«401727_j32504312496833_2_alg».proof.Proof.Gen.KernelIdeal.Frame
import proofs.«401727_j32504312496833_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Proof.Region0

open Cert.KernelIdeal Cert.KernelIdeal.Gen Idealize.ShloMosaic Idealize.ShloMosaic.ValueIdx Idealize.ShloMosaic.TcCoe

/-! ## One entry of the block the body stores -/

/-- The rows-against-columns product of the body: an output entry's row coordinate is the left factor's. -/
theorem lhsAxis0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
/-- The left factor's column coordinate is the summation index. -/
theorem lhsAxis1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
/-- The right factor's row coordinate is the summation index. -/
theorem rhsAxis0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
/-- The right factor's column coordinate is the output entry's. -/
theorem rhsAxis1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- A product into the zero accumulator, at row `p` and column `q`: row `p` of the left factor against column `q` of
    the right one. -/
theorem matmulZero_apply {φ₁ φ₂ : FTy} (l : FVec Ideal S4000x64 φ₁) (r : FVec Ideal S64x128 φ₂) (p : Fin 4000) (q : Fin 128) :
    matmul dot_S4000x64_S64x128_S4000x128_1_0_0_1_n_n none l r (constant (F := Ideal) S4000x128 .f32 0x00000000#32) (ix2 p q)
      = ∑ k : Fin 64, l (ix2 p k) * r (ix2 k q) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k := funext fun a => Fin.ext (by
    match a with
    | ⟨0, _⟩ => exact lhsAxis0 _ _
    | ⟨1, _⟩ => exact (lhsAxis1 _ _).trans hk)
  have er : dot_S4000x64_S64x128_S4000x128_1_0_0_1_n_n.rhsIdx (ix2 p q) ((contrEquiv1 dot_S4000x64_S64x128_S4000x128_1_0_0_1_n_n 64 rfl rfl).symm k) = ix2 k q := funext fun a => Fin.ext (by
    match a with
    | ⟨0, _⟩ => exact (rhsAxis0 _ _).trans hk
    | ⟨1, _⟩ => exact rhsAxis1 _ _)
  rw [el, er]

/-- One entry of the block the body stores, from the blocks it loads: the leaky unit of the two products' sum plus the
    bias row (the changes of float format are the identity on the extended reals). -/
theorem pay_apply (x0 : Vec Ideal S4000x64 .f32) (x1 : Vec Ideal S4000x64 .bf16) (x2 : Vec Ideal S64x128 .f32)
    (x4 : Vec Ideal S64x128 .f32) (x3 : Vec Ideal S1x128 .f32) (p : Fin 4000) (q : Fin 128) :
    k0_pay1 (F := Ideal) x0 x1 x2 x4 x3 (ix2 p q)
      = Spec.leaky (((∑ k : Fin 64, x0 (ix2 p k) * x2 (ix2 k q)) + ∑ k : Fin 64, x1 (ix2 p k) * x4 (ix2 k q))
          + x3 (ix2 (0 : Fin 1) q)) := by
  unfold k0_pay1
  simp only [truncf_apply, select_apply, cmpf_apply, mulf_apply, addf_apply, broadcast_apply, shapeCast_self, matmulZero_apply, broadcastTo_1b_ab_apply]
  rfl

/-! ## The blocks the points read and write -/

variable (V : (c : Dev nD) → (b : Ref sig .tc) → Buf (Elt Ideal) ((c : Thread nD τ).loc b))

theorem zeroOff : (![0, 0] : Fin 2 → Nat) = fun _ => 0 := funext fun a => match a with | ⟨0, _⟩ => rfl | ⟨1, _⟩ => rfl

/-- The index maps over the grid: the two row-blocked inputs and the output sit at row block `t`, the weights and the
    bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block of point `t` is a row of the array. -/
theorem row_lt (t : Fin cfg0.N) (p : Fin 4000) : 4000 * t.val + p.val < 100000 := by
  have hN : grid0.N = 25 := N_0
  have ht : t.val < grid0.N := t.isLt
  have hp := p.isLt
  omega

/-- The block of aggregated messages at point `t`: rows `4000·t …` of the array. -/
theorem aggBlk_apply (c : Dev nD) (t : Fin cfg0.N) (p : Fin 4000) (k : Fin 64) :
    (iblk0 V c 0 t : Vec Ideal S4000x64 .f32) (ix2 p k)
      = (V c main_v18 : Spec.Mat 100000 64) (ix2 ⟨4000 * t.val + p.val, row_lt t p⟩ k) := by
  obtain ⟨e0, e1, -⟩ := idx_facts t
  show V c main_v18 (((cfg0.win 0).blk t).view.emb (ix2 p k)) = _
  refine congrArg (V c main_v18) (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 64 + 1 * k.val = k.val; rw [e1]; omega

/-- The block of node features at point `t`: the same rows of their array. -/
theorem featBlk_apply (c : Dev nD) (t : Fin cfg0.N) (p : Fin 4000) (k : Fin 64) :
    (iblk0 V c 1 t : Vec Ideal S4000x64 .bf16) (ix2 p k)
      = (V c main_v4 : Spec.Mat 100000 64) (ix2 ⟨4000 * t.val + p.val, row_lt t p⟩ k) := by
  obtain ⟨-, -, e0, e1, -⟩ := idx_facts t
  show V c main_v4 (((cfg0.win 1).blk t).view.emb (ix2 p k)) = _
  refine congrArg (V c main_v4) (funext fun a => Fin.ext ?_)
  match a with
  | ⟨0, _⟩ => show win0_1.index t (0 : Fin 2) * 4000 + 1 * p.val = 4000 * t.val + p.val; rw [e0]; omega
  | ⟨1, _⟩ => show win0_1.index t (1 : Fin 2) * 64 + 1 * k.val = k.val; rw [e1]; omega

/-- The first weight matrix is read whole at every point. -/
theorem wrelBlk_apply (c : Dev nD) (t : Fin cfg0.N) (k : Fin 64) (q : Fin 128) :
    (iblk0 V c 2 t : Vec Ideal S64x128 .f32) (ix2 k q) = (V c main_arg4 : Spec.Mat 64 128) (ix2 k q) := by
  obtain ⟨-, -, -, -, e0, e1, -⟩ := idx_facts t
  show V c main_arg4 (((cfg0.win 2).blk t).view.emb (ix2 k q)) = _
  refine congrArg (V c main_arg4) (funext fun a => Fin.ext ?_)
  match a with
  | ⟨0, _⟩ => show win0_2.index t (0 : Fin 2) * 64 + 1 * k.val = k.val; rw [e0]; omega
  | ⟨1, _⟩ => show win0_2.index t (1 : Fin 2) * 128 + 1 * q.val = q.val; rw [e1]; omega

/-- So is the bias row. -/
theorem biasBlk_apply (c : Dev nD) (t : Fin cfg0.N) (q : Fin 128) :
    (iblk0 V c 3 t : Vec Ideal S1x128 .f32) (ix2 (0 : Fin 1) q) = (V c main_v19 : Spec.Mat 1 128) (ix2 (0 : Fin 1) q) := by
  obtain ⟨-, -, -, -, -, -, e0, e1, -⟩ := idx_facts t
  show V c main_v19 (((cfg0.win 3).blk t).view.emb (ix2 (0 : Fin 1) q)) = _
  refine congrArg (V c main_v19) (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- And the second weight matrix. -/
theorem wrootBlk_apply (c : Dev nD) (t : Fin cfg0.N) (k : Fin 64) (q : Fin 128) :
    (iblk0 V c 4 t : Vec Ideal S64x128 .f32) (ix2 k q) = (V c main_arg6 : Spec.Mat 64 128) (ix2 k q) := by
  obtain ⟨-, -, -, -, -, -, -, -, e0, e1, -⟩ := idx_facts t
  show V c main_arg6 (((cfg0.win 4).blk t).view.emb (ix2 k q)) = _
  refine congrArg (V c main_arg6) (funext fun a => Fin.ext ?_)
  match a with
  | ⟨0, _⟩ => show win0_4.index t (0 : Fin 2) * 64 + 1 * k.val = k.val; rw [e0]; omega
  | ⟨1, _⟩ => show win0_4.index t (1 : Fin 2) * 128 + 1 * q.val = q.val; rw [e1]; omega

/-! ## What a point writes back, and the whole array -/

/-- The layer, as one function of the arrays the region is entered with. -/
abbrev layer (c : Dev nD) : Spec.Mat 100000 128 :=
  Spec.conv (V c main_v18) (V c main_v4) (V c main_arg4) (V c main_arg6) (fun q => V c main_v19 (ix2 0 q))

/-- Point `t` writes back the rows `4000·t …` of the layer. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 (F := Ideal) V c).after 5 t) = _
  rw [after0_5]
  unfold out0_5
  rw [View.canon_unit_zero zeroOff]
  simp only [View.ld_unit_zero (S := S4000x64) zeroOff, View.ld_unit_zero (S := S64x128) zeroOff, View.ld_unit_zero (S := S1x128) zeroOff]
  funext j
  have hp : (j 0).val < 4000 := (j 0).isLt
  have hq : (j 1).val < 128 := (j 1).isLt
  obtain ⟨-, -, -, -, -, -, -, -, -, -, e0, e1⟩ := idx_facts t
  have hemb : ((cfg0.win 5).blk t).view.emb j
      = ix2 (⟨4000 * t.val + (j 0).val, row_lt t ⟨(j 0).val, hp⟩⟩ : Fin 100000) (⟨(j 1).val, hq⟩ : Fin 128) := by
    funext a; apply Fin.ext
    match a with
    | ⟨0, _⟩ => show win0_5.index t (0 : Fin 2) * 4000 + 1 * (j 0).val = 4000 * t.val + (j 0).val; rw [e0]; omega
    | ⟨1, _⟩ => show win0_5.index t (1 : Fin 2) * 128 + 1 * (j 1).val = (j 1).val; rw [e1]; omega
  have hx : (cfg0.win 5).xinj (grid0.coords t) j = ix2 (⟨(j 0).val, hp⟩ : Fin 4000) (⟨(j 1).val, hq⟩ : Fin 128) := by
    funext a; apply Fin.ext
    match a with
    | ⟨0, _⟩ => rfl
    | ⟨1, _⟩ => rfl
  refine (congrArg (k0_pay1 (F := Ideal) (iblk0 V c 0 t) (iblk0 V c 1 t) (iblk0 V c 2 t) (iblk0 V c 4 t) (iblk0 V c 3 t)) hx).trans ?_
  refine (pay_apply (iblk0 V c 0 t) (iblk0 V c 1 t) (iblk0 V c 2 t) (iblk0 V c 4 t) (iblk0 V c 3 t) ⟨(j 0).val, hp⟩ ⟨(j 1).val, hq⟩).trans ?_
  refine Eq.trans ?_ (congrArg (layer V c) hemb).symm
  show _ = Spec.convAt (V c main_v18) (V c main_v4) (V c main_arg4) (V c main_arg6) (fun q => V c main_v19 (ix2 0 q))
    (⟨4000 * t.val + (j 0).val, row_lt t ⟨(j 0).val, hp⟩⟩ : Fin 100000) (⟨(j 1).val, hq⟩ : Fin 128)
  unfold Spec.convAt
  simp only [aggBlk_apply, featBlk_apply, wrelBlk_apply, biasBlk_apply, wrootBlk_apply]
  rw [add_right_comm]

/-- An index of the output array is in point `t`'s block iff each coordinate is in the block's range on its axis. -/
theorem mem_outBlk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v20).slice (win0_5.rect t)).set ↔ _
  rw [View.set_slice_whole, Rect.mem_set_unit]
  exact Iff.rfl

/-- Every row `r` of the output is written back by point `r / 4000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 25 := N_0
  have ht : (i 0).val / 4000 < grid0.N := by rw [hN]; omega
  obtain ⟨-, -, -, -, -, -, -, -, -, -, e0, e1⟩ := idx_facts ⟨(i 0).val / 4000, ht⟩
  refine ⟨⟨(i 0).val / 4000, ht⟩, flush0_5 _, ?_⟩
  rw [mem_outBlk]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    rw [e1]; omega

/-- After the 25 grid points of the first region its output array is the first layer of the network, read off the
    arrays the region was entered with. -/
theorem region0_value (c : Dev nD) :
    (dat0 (F := Ideal) V c).arrAt 5 cfg0.N
      = Spec.conv (V c main_v18) (V c main_v4) (V c main_arg4) (V c main_arg6) (fun q => V c main_v19 (ix2 0 q)) :=
  (dat0 (F := Ideal) V c).arrAt_eq_of_cover 5 (layer V c) (fun t _ => flushed_eq V c t) covered

end Cert.Proof.Region0

end
-- ==== Proof.Region1Pay.lean ====
/-
  The arithmetic of one tile of the second region, read entry by entry on the extended reals: the second
  convolution layer's rows of the tile, the gate on them, and what the accumulating step adds to the pooled sums.
-/
import proofs.«401727_j32504312496833_2_alg».proof.Proof.Gen.KernelIdeal.Skeleton
import proofs.«401727_j32504312496833_2_alg».proof.Proof.Spec
import Idealize.ShloMosaic.Lib.Pipeline.Value
import Idealize.ShloMosaic.Lib.ValueIdx
import Idealize.ShloMosaic.PureOps.Ideal.Laws

noncomputable section

namespace Cert.Proof.Region1Pay

open Cert.KernelIdeal Cert.KernelIdeal.Gen Idealize.ShloMosaic Idealize.ShloMosaic.ValueIdx

/-! ## The three contractions at an entry

Each product contracts one axis of each operand, so its contraction index is one coordinate `k`; the operands'
indices at output entry `(p, q)` are read axis by axis. -/

/-! ### Rows of a 2000 × 128 tile against a 128 × 128 matrix: `(p, k)` and `(k, q)` -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A row of the tile against a column of a 128 × 128 matrix, into the zero accumulator. -/
theorem matmulA_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### Rows of a 2000 × 64 tile against a 64 × 128 matrix: `(p, k)` and `(k, q)` -/

theorem lhsB_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhsB_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhsB_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhsB_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A row of the tile against a column of a 64 × 128 matrix, into the zero accumulator. -/
theorem matmulB_apply (l : FVec Ideal S2000x64 .bf16) (r : FVec Ideal S64x128 .bf16) (p : Fin 2000) (q : Fin 128) :
    matmul dot_S2000x64_S64x128_S2000x128_1_0_0_1_n_n none l r (constant (F := Ideal) S2000x128 .f32 0x00000000#32) (ix2 p q)
      = ∑ k : Fin 64, l (ix2 p k) * r (ix2 k q) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhsB_0 _ _
    | ⟨1, _⟩ => exact (lhsB_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ### The pooling product: the tile's 2000 rows are the contracted axis of both operands, `(k, g)` and `(k, q)` -/

theorem lhsC_0 (i : S256x128.Idx) (q : dot_S2000x256_S2000x128_S256x128_0_0_1_1_n_n.contr.Idx) :
    (dot_S2000x256_S2000x128_S256x128_0_0_1_1_n_n.lhsIdx i q 0).val = (q ⟨0, by decide⟩).val :=
  dot_S2000x256_S2000x128_S256x128_0_0_1_1_n_n.lhsIdx_val_of_single rfl i q
theorem lhsC_1 (i : S256x128.Idx) (q : dot_S2000x256_S2000x128_S256x128_0_0_1_1_n_n.contr.Idx) :
    (dot_S2000x256_S2000x128_S256x128_0_0_1_1_n_n.lhsIdx i q 1).val = (i 0).val := by
  unfold DotDims.lhsIdx
  rw [dif_neg (show ¬(1 : Fin S2000x256.rank) ∈ dot_S2000x256_S2000x128_S256x128_0_0_1_1_n_n.lhsBatch by decide), dif_pos (show (1 : Fin S2000x256.rank) ∈ dot_S2000x256_S2000x128_S256x128_0_0_1_1_n_n.lhsNonContracting by decide)]
  rfl
theorem rhsC_0 (i : S256x128.Idx) (q : dot_S2000x256_S2000x128_S256x128_0_0_1_1_n_n.contr.Idx) :
    (dot_S2000x256_S2000x128_S256x128_0_0_1_1_n_n.rhsIdx i q 0).val = (q ⟨0, by decide⟩).val :=
  dot_S2000x256_S2000x128_S256x128_0_0_1_1_n_n.rhsIdx_val_of_single rfl i q
theorem rhsC_1 (i : S256x128.Idx) (q : dot_S2000x256_S2000x128_S256x128_0_0_1_1_n_n.contr.Idx) :
    (dot_S2000x256_S2000x128_S256x128_0_0_1_1_n_n.rhsIdx i q 1).val = (i 1).val := by
  unfold DotDims.rhsIdx
  rw [dif_neg (show ¬(1 : Fin S2000x128.rank) ∈ dot_S2000x256_S2000x128_S256x128_0_0_1_1_n_n.rhsBatch by decide), dif_pos (show (1 : Fin S2000x128.rank) ∈ dot_S2000x256_S2000x128_S256x128_0_0_1_1_n_n.rhsNonContracting by decide)]
  rfl

/-- The pooling product at an entry: over the tile's 2000 rows, column `g` of the left operand against
    column `q` of the right one, into the zero accumulator. -/
theorem matmulC_apply (l : FVec Ideal S2000x256 .bf16) (r : FVec Ideal S2000x128 .bf16) (g : Fin 256) (q : Fin 128) :
    matmul dot_S2000x256_S2000x128_S256x128_0_0_1_1_n_n none l r (constant (F := Ideal) S256x128 .f32 0x00000000#32) (ix2 g q)
      = ∑ k : Fin 2000, l (ix2 k g) * r (ix2 k q) := by
  simp only [matmul]
  rw [Ideal.matmul_constant_zero_apply, ← Equiv.sum_comp (contrEquiv1 dot_S2000x256_S2000x128_S256x128_0_0_1_1_n_n 2000 rfl rfl).symm]
  refine Finset.sum_congr rfl fun k _ => ?_
  have hk := contrEquiv1_symm_val dot_S2000x256_S2000x128_S256x128_0_0_1_1_n_n 2000 rfl rfl k
  have el : dot_S2000x256_S2000x128_S256x128_0_0_1_1_n_n.lhsIdx (ix2 g q) ((contrEquiv1 dot_S2000x256_S2000x128_S256x128_0_0_1_1_n_n 2000 rfl rfl).symm k) = ix2 k g := funext fun a => Fin.ext (by
    match a with
    | ⟨0, _⟩ => exact (lhsC_0 _ _).trans hk
    | ⟨1, _⟩ => exact lhsC_1 _ _)
  have er : dot_S2000x256_S2000x128_S256x128_0_0_1_1_n_n.rhsIdx (ix2 g q) ((contrEquiv1 dot_S2000x256_S2000x128_S256x128_0_0_1_1_n_n 2000 rfl rfl).symm k) = ix2 k q := funext fun a => Fin.ext (by
    match a with
    | ⟨0, _⟩ => exact (rhsC_0 _ _).trans hk
    | ⟨1, _⟩ => exact rhsC_1 _ _)
  rw [el, er]

/-! ## The layout operations at an entry -/

/-- A 1 × 128 row broadcast over the tile's rows reads the row. -/
theorem rowBcast_apply {α : Type} (v : S1x128.Idx → α) (h : S1x128.Broadcasts S2000x128) (r : Fin 2000) (q : Fin 128) :
    broadcastTo S2000x128 v h (ix2 r q) = v (ix2 0 q) :=
  broadcastTo_apply v h (ix2 r q) (ix2 0 q) (fun a => match a with
    | ⟨0, _⟩ => by show (0 : ℕ) = if (1 : ℕ) = 1 then 0 else r.val; rw [if_pos rfl]
    | ⟨1, _⟩ => by show q.val = if (128 : ℕ) = 1 then 0 else q.val; rw [if_neg (by decide)])

/-- A 2000 × 1 column broadcast over 256 lanes reads the column. -/
theorem colBcast_apply {α : Type} (v : S2000x1.Idx → α) (h : S2000x1.Broadcasts S2000x256) (r : Fin 2000) (g : Fin 256) :
    broadcastTo S2000x256 v h (ix2 r g) = v (ix2 r 0) :=
  broadcastTo_apply v h (ix2 r g) (ix2 r 0) (fun a => match a with
    | ⟨0, _⟩ => by show r.val = if (2000 : ℕ) = 1 then 0 else r.val; rw [if_neg (by decide)]
    | ⟨1, _⟩ => by show (0 : ℕ) = if (1 : ℕ) = 1 then 0 else g.val; rw [if_pos rfl])

/-- The lane counter along the second axis reads the lane. -/
theorem laneIota_apply (h : S2000x256.Iotas .tc 32 [1]) (r : Fin 2000) (g : Fin 256) :
    iota .tc S2000x256 32 [1] h (ix2 r g) = BitVec.ofNat 32 g.val :=
  iota_single_apply .tc S2000x256 32 1 h (ix2 r g)

/-! ## The one-hot factor -/

/-- One where the graph id word `b` is `g`, zero elsewhere. -/
def onehot (b : BitVec 32) (g : Fin 256) : EReal := if b.toInt = (g.val : ℤ) then 1 else 0

/-- The word of a graph id below 256 is that number, read signed. -/
theorem ofNat_toInt (g : Fin 256) : (BitVec.ofNat 32 g.val).toInt = (g.val : ℤ) := by
  have hg := g.isLt
  have hn : (BitVec.ofNat 32 g.val).toNat = g.val := by rw [BitVec.toNat_ofNat]; omega
  rw [BitVec.toInt_eq_toNat_of_lt (by rw [hn]; omega), hn]

/-- The kernel's factor — the comparison bit of the two words, widened and converted — is the one-hot factor:
    two 32-bit words are equal exactly when their signed readings are. -/
theorem onehot_word (b : BitVec 32) (g : Fin 256) :
    FloatOps.sitofp (F := Ideal) .f32 ((IntOp.cmpi .eq b (BitVec.ofNat 32 g.val)).setWidth 32) = onehot b g := by
  have hg := ofNat_toInt g
  show (((BitVec.setWidth 32 (IntOp.cmpi .eq b (BitVec.ofNat 32 g.val))).toInt : ℝ) : EReal) = onehot b g
  unfold onehot IntOp.cmpi
  by_cases h : b = BitVec.ofNat 32 g.val
  · rw [if_pos (by rw [h]; exact hg)]
    have e : (b == BitVec.ofNat 32 g.val) = true := by simpa using h
    rw [e]
    show ((((BitVec.setWidth 32 1#1).toInt : ℤ) : ℝ) : EReal) = 1
    rw [show (BitVec.setWidth 32 1#1).toInt = 1 by decide]
    simp
  · have hne : ¬ b.toInt = (g.val : ℤ) := fun e => h (BitVec.toInt_inj.mp (e.trans hg.symm))
    rw [if_neg hne]
    have e : (b == BitVec.ofNat 32 g.val) = false := by simpa using h
    rw [e]
    show ((((BitVec.setWidth 32 0#1).toInt : ℤ) : ℝ) : EReal) = 0
    rw [show (BitVec.setWidth 32 0#1).toInt = 0 by decide]
    simp

/-! ## Three more pointwise operations at an index -/

theorem cmpi_at {s : Shape} {w : ℕ} (p : CmpIPredicate) (a b : IVec s w) (i : s.Idx) : cmpi p a b i = IntOp.cmpi p (a i) (b i) := rfl
theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-! ## The tile's second convolution layer -/

/-- Entry `(r, q)` of the tile's hidden rows: the leaky unit of the aggregated row against `wrel` plus the
    first layer's row against `wroot`, plus the bias. -/
def tileConv (agg h1 : S2000x128.Idx → EReal) (wrel wroot : S128x128.Idx → EReal) (b : S1x128.Idx → EReal)
    (r : Fin 2000) (q : Fin 128) : EReal :=
  Spec.leaky (((∑ k : Fin 128, agg (ix2 r k) * wrel (ix2 k q)) + ∑ k : Fin 128, h1 (ix2 r k) * wroot (ix2 k q)) + b (ix2 0 q))

theorem pay3_apply (v3 : Vec Ideal S2000x128 .f32) (v6 : Vec Ideal S2000x128 .bf16) (v10 v12 : Vec Ideal S128x128 .f32)
    (v17 : Vec Ideal S1x128 .f32) (r : Fin 2000) (q : Fin 128) :
    k1_pay3 (F := Ideal) v3 v6 v10 v12 v17 (ix2 r q) = tileConv v3 v6 v10 v12 v17 r q := by
  unfold k1_pay3 tileConv
  simp only [truncf_apply, select_apply, cmpf_apply, mulf_apply, addf_apply, broadcast_apply, shapeCast_self, matmulA_apply,
    rowBcast_apply]
  rfl

/-- The tile's hidden rows as a matrix. -/
def tileConvM (agg h1 : S2000x128.Idx → EReal) (wrel wroot : S128x128.Idx → EReal) (b : S1x128.Idx → EReal) :
    S2000x128.Idx → EReal := fun i => tileConv agg h1 wrel wroot b (i 0) (i 1)

theorem pay3_eq (v3 : Vec Ideal S2000x128 .f32) (v6 : Vec Ideal S2000x128 .bf16) (v10 v12 : Vec Ideal S128x128 .f32)
    (v17 : Vec Ideal S1x128 .f32) : k1_pay3 (F := Ideal) v3 v6 v10 v12 v17 = tileConvM v3 v6 v10 v12 v17 := by
  funext i
  obtain ⟨r, q, rfl⟩ : ∃ (r : Fin 2000) (q : Fin 128), i = ix2 r q := ⟨i 0, i 1, eq_ix2 i⟩
  exact pay3_apply v3 v6 v10 v12 v17 r q

/-- The format changes and same-shape casts on the way into the products change nothing. -/
theorem pay2_eq (v8 : Vec Ideal S2000x64 .bf16) : k1_pay2 (F := Ideal) v8 = v8 := by
  unfold k1_pay2; exact shapeCast_self _ _
theorem pay4_eq (v27 : Vec Ideal S128x128 .f32) : k1_pay4 (F := Ideal) v27 = v27 := by
  unfold k1_pay4; funext i; simp only [truncf_apply, shapeCast_self]
theorem pay5_eq (v30 : Vec Ideal S64x128 .f32) : k1_pay5 (F := Ideal) v30 = v30 := by
  unfold k1_pay5; funext i; simp only [truncf_apply, shapeCast_self]

/-- The block the reset stores is zero everywhere. -/
theorem pay1_apply (i : S256x128.Idx) : (k1_pay1 (F := Ideal)) i = 0 := by
  unfold k1_pay1
  exact Ideal.ofBits_zero_f32

/-! ## The tile's gate and its contribution to the pooled sums -/

/-- One projection of the gate on the tile: the hidden row against `wh` plus the input row against `wx`, plus the bias. -/
def tileProj (h : S2000x128.Idx → EReal) (x : S2000x64.Idx → EReal) (wh : S128x128.Idx → EReal) (wx : S64x128.Idx → EReal)
    (b : S1x128.Idx → EReal) (r : Fin 2000) (q : Fin 128) : EReal :=
  ((∑ k : Fin 128, h (ix2 r k) * wh (ix2 k q)) + ∑ k : Fin 64, x (ix2 r k) * wx (ix2 k q)) + b (ix2 0 q)

/-- Entry `(r, q)` of the tile's gate. -/
def tileGate (h : S2000x128.Idx → EReal) (x : S2000x64.Idx → EReal) (wsh : S128x128.Idx → EReal) (wsx : S64x128.Idx → EReal)
    (wth : S128x128.Idx → EReal) (wtx : S64x128.Idx → EReal) (bs bt : S1x128.Idx → EReal) (r : Fin 2000) (q : Fin 128) : EReal :=
  Ideal.logistic (-(min Spec.hiW (max Spec.loW (tileProj h x wsh wsx bs r q)))) * Ideal.tanh (tileProj h x wth wtx bt r q)

/-- The accumulating payload at an entry: what the buffer held plus, over the tile's rows, the one-hot factor
    of the row's graph id times the row's gate entry. The kernel's `0 - s` is `-s`. -/
theorem pay6_apply (v9 : FVec Ideal S2000x64 .bf16) (v26 : FVec Ideal S2000x128 .bf16) (v29 : FVec Ideal S128x128 .bf16)
    (v32 : FVec Ideal S64x128 .bf16) (v33 : Vec Ideal S128x128 .f32) (v36 : Vec Ideal S64x128 .f32) (v42 v53 : Vec Ideal S1x128 .f32)
    (v63 : Vec Ideal S2000x1 .i32) (v72 : Vec Ideal S256x128 .f32) (g : Fin 256) (q : Fin 128) :
    k1_pay6 (F := Ideal) v9 v26 v29 v32 v33 v36 v42 v53 v63 v72 (ix2 g q)
      = v72 (ix2 g q) + ∑ r : Fin 2000, onehot (v63 (ix2 r 0)) g * tileGate v26 v9 v29 v32 v33 v36 v42 v53 r q := by
  unfold k1_pay6
  simp only [addf_apply, shapeCast_self, matmulC_apply, truncf_apply, sitofp_apply, extui_apply, cmpi_at, colBcast_apply,
    mulf_apply, logistic_at, tanh_at, subf_apply, broadcast_apply, minimumf_apply, maximumf_apply,
    matmulA_apply, matmulB_apply, rowBcast_apply]
  refine congrArg (v72 (ix2 g q) + ·) (Finset.sum_congr rfl fun r _ => ?_)
  rw [laneIota_apply]
  refine congrArg₂ (· * ·) (onehot_word (v63 (ix2 r 0)) g) ?_
  unfold tileGate tileProj
  simp only [Ideal.ofBits_def, Ideal.ofBits_zero_f32, zero_sub]

/-- One grid point's step at an entry, over the blocks the point reads: the buffer's entry plus the tile's
    contribution, the hidden rows being the tile's second convolution layer. -/
theorem step_apply (x0 : Vec Ideal S2000x128 .f32) (x1 : Vec Ideal S2000x128 .bf16) (x2 : Vec Ideal S2000x64 .bf16)
    (x3 : Vec Ideal S2000x1 .i32) (x4 : Vec Ideal S128x128 .f32) (x5 : Vec Ideal S1x128 .f32) (x6 x7 : Vec Ideal S128x128 .f32)
    (x8 : Vec Ideal S64x128 .f32) (x9 : Vec Ideal S1x128 .f32) (x10 : Vec Ideal S128x128 .f32) (x11 : Vec Ideal S64x128 .f32)
    (x12 : Vec Ideal S1x128 .f32) (acc : Vec Ideal S256x128 .f32) (g : Fin 256) (q : Fin 128) :
    k1_pay6 (F := Ideal) (k1_pay2 x2) (k1_pay3 x0 x1 x4 x6 x5) (k1_pay4 x7) (k1_pay5 x8) x10 x11 x9 x12 x3 acc (ix2 g q)
      = acc (ix2 g q) + ∑ r : Fin 2000, onehot (x3 (ix2 r 0)) g * tileGate (tileConvM x0 x1 x4 x6 x5) x2 x7 x8 x10 x11 x9 x12 r q :=
  (pay6_apply (k1_pay2 x2) (k1_pay3 x0 x1 x4 x6 x5) (k1_pay4 x7) (k1_pay5 x8) x10 x11 x9 x12 x3 acc g q).trans
    (by rw [pay2_eq, pay3_eq, pay4_eq, pay5_eq])

end Cert.Proof.Region1Pay

end
-- ==== Proof.Region1Acc.lean ====
/-
  What one grid point of the second region leaves in its output buffer, and the buffer after every point.
-/
import proofs.«401727_j32504312496833_2_alg».proof.Proof.Gen.KernelIdeal.Frame
import proofs.«401727_j32504312496833_2_alg».proof.Proof.Region1Pay
import Idealize.ShloMosaic.Lib.Pipeline.Value
import Idealize.ShloMosaic.Lib.Tactic

noncomputable section

namespace Cert.Proof.Region1Acc

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## What each control case leaves in the output buffer

The body loads every input block whole, so each load reads the block; the last store covers the buffer, so the
buffer ends at that store's payload. At the first point the payload's accumulator operand is the zero block just
stored; at every other point it is what the buffer held. -/

theorem out_B (c : Dev nD) (i : grid1.Coords) (arg1 : Memref sig .tc .vmem S2000x128 .f32) (harg1 : arg1.IsWhole) (arg2 : Memref sig .tc .vmem S2000x128 .bf16) (harg2 : arg2.IsWhole) (arg3 : Memref sig .tc .vmem S2000x64 .bf16) (harg3 : arg3.IsWhole) (arg4 : Memref sig .tc .vmem S2000x1 .i32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S64x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S64x128 .f32) (harg12 : arg12.IsWhole) (arg13 : Memref sig .tc .vmem S1x128 .f32) (harg13 : arg13.IsWhole) (arg14 : Memref sig .tc .vmem S256x128 .f32) (harg14 : arg14.IsWhole) (hc0 : ¬cond1_0 i)
    (x0 : Vec F S2000x128 .f32) (x1 : Vec F S2000x128 .bf16) (x2 : Vec F S2000x64 .bf16) (x3 : Vec F S2000x1 .i32) (x4 : Vec F S128x128 .f32) (x5 : Vec F S1x128 .f32) (x6 : Vec F S128x128 .f32) (x7 : Vec F S128x128 .f32) (x8 : Vec F S64x128 .f32) (x9 : Vec F S1x128 .f32) (x10 : Vec F S128x128 .f32) (x11 : Vec F S64x128 .f32) (x12 : Vec F S1x128 .f32) (xo13 : Vec F S256x128 .f32) :
    out1_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 x12 xo13
      = k1_pay6 (k1_pay2 x2) (k1_pay3 x0 x1 x4 x6 x5) (k1_pay4 x7) (k1_pay5 x8) x10 x11 x9 x12 x3 xo13 := by
  unfold out1_B_13
  rw [View.read_writes_eq_canon _ _ _ (cover1_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 x12 xo13)]
  unfold kernelRun1_B
  dsimp only
  sl_unfold_words
  rw [View.canon_unit_zero (S := S256x128) hz]
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread, View.ld_unit_zero (S := S2000x128) hz, View.ld_unit_zero (S := S2000x64) hz,
    View.ld_unit_zero (S := S2000x1) hz, View.ld_unit_zero (S := S128x128) hz, View.ld_unit_zero (S := S64x128) hz,
    View.ld_unit_zero (S := S1x128) hz, View.ld_unit_zero (S := S256x128) hz]

theorem out_A (c : Dev nD) (i : grid1.Coords) (arg1 : Memref sig .tc .vmem S2000x128 .f32) (harg1 : arg1.IsWhole) (arg2 : Memref sig .tc .vmem S2000x128 .bf16) (harg2 : arg2.IsWhole) (arg3 : Memref sig .tc .vmem S2000x64 .bf16) (harg3 : arg3.IsWhole) (arg4 : Memref sig .tc .vmem S2000x1 .i32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S64x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S64x128 .f32) (harg12 : arg12.IsWhole) (arg13 : Memref sig .tc .vmem S1x128 .f32) (harg13 : arg13.IsWhole) (arg14 : Memref sig .tc .vmem S256x128 .f32) (harg14 : arg14.IsWhole) (hc0 : cond1_0 i)
    (x0 : Vec F S2000x128 .f32) (x1 : Vec F S2000x128 .bf16) (x2 : Vec F S2000x64 .bf16) (x3 : Vec F S2000x1 .i32) (x4 : Vec F S128x128 .f32) (x5 : Vec F S1x128 .f32) (x6 : Vec F S128x128 .f32) (x7 : Vec F S128x128 .f32) (x8 : Vec F S64x128 .f32) (x9 : Vec F S1x128 .f32) (x10 : Vec F S128x128 .f32) (x11 : Vec F S64x128 .f32) (x12 : Vec F S1x128 .f32) :
    out1_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 x12
      = k1_pay6 (k1_pay2 x2) (k1_pay3 x0 x1 x4 x6 x5) (k1_pay4 x7) (k1_pay5 x8) x10 x11 x9 x12 x3 (k1_pay1 (F := F)) := by
  unfold out1_A_13
  rw [View.read_writes_eq_canon _ _ _ (cover1_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 x12)]
  unfold kernelRun1_A
  dsimp only
  sl_unfold_words
  rw [View.canon_cons_unit_zero (S := S256x128) hz, View.readCov_unit_zero (S := S256x128) _ hz]
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread, View.ld_unit_zero (S := S2000x128) hz, View.ld_unit_zero (S := S2000x64) hz,
    View.ld_unit_zero (S := S2000x1) hz, View.ld_unit_zero (S := S128x128) hz, View.ld_unit_zero (S := S64x128) hz,
    View.ld_unit_zero (S := S1x128) hz, View.ld_unit_zero (S := S256x128) hz]

/-! ## The buffer after every point, at the ideal values -/

section AtIdeal

open Cert.Proof.Region1Pay Idealize.ShloMosaic.ValueIdx

variable (V : (c : Dev nD) → (b : Ref sig .tc) → Buf (Elt Ideal) ((c : Thread nD τ).loc b))

/-- The blocks point `t` reads, each at its literal shape. -/
abbrev b0 (c : Dev nD) (t : Fin cfg1.N) : Vec Ideal S2000x128 .f32 := iblk1 V c 0 t
abbrev b1 (c : Dev nD) (t : Fin cfg1.N) : Vec Ideal S2000x128 .bf16 := iblk1 V c 1 t
abbrev b2 (c : Dev nD) (t : Fin cfg1.N) : Vec Ideal S2000x64 .bf16 := iblk1 V c 2 t
abbrev b3 (c : Dev nD) (t : Fin cfg1.N) : Vec Ideal S2000x1 .i32 := iblk1 V c 3 t
abbrev b4 (c : Dev nD) (t : Fin cfg1.N) : Vec Ideal S128x128 .f32 := iblk1 V c 4 t
abbrev b5 (c : Dev nD) (t : Fin cfg1.N) : Vec Ideal S1x128 .f32 := iblk1 V c 5 t
abbrev b6 (c : Dev nD) (t : Fin cfg1.N) : Vec Ideal S128x128 .f32 := iblk1 V c 6 t
abbrev b7 (c : Dev nD) (t : Fin cfg1.N) : Vec Ideal S128x128 .f32 := iblk1 V c 7 t
abbrev b8 (c : Dev nD) (t : Fin cfg1.N) : Vec Ideal S64x128 .f32 := iblk1 V c 8 t
abbrev b9 (c : Dev nD) (t : Fin cfg1.N) : Vec Ideal S1x128 .f32 := iblk1 V c 9 t
abbrev b10 (c : Dev nD) (t : Fin cfg1.N) : Vec Ideal S128x128 .f32 := iblk1 V c 10 t
abbrev b11 (c : Dev nD) (t : Fin cfg1.N) : Vec Ideal S64x128 .f32 := iblk1 V c 11 t
abbrev b12 (c : Dev nD) (t : Fin cfg1.N) : Vec Ideal S1x128 .f32 := iblk1 V c 12 t

/-- What point `t` adds to entry `(g, q)` of the buffer: over the tile's rows, the one-hot factor of the row's graph
    id times the row's gate entry. -/
def contrib (c : Dev nD) (t : Fin cfg1.N) (g : Fin 256) (q : Fin 128) : EReal :=
  ∑ r : Fin 2000, onehot (b3 V c t (ix2 r 0)) g
    * tileGate (tileConvM (b0 V c t) (b1 V c t) (b4 V c t) (b6 V c t) (b5 V c t)) (b2 V c t) (b7 V c t) (b8 V c t)
        (b10 V c t) (b11 V c t) (b9 V c t) (b12 V c t) r q

/-- The first point stores zeros and adds its tile's contribution. -/
theorem outs_zero (c : Dev nD) (h : 0 < cfg1.N) (g : Fin 256) (q : Fin 128) :
    outsAt1 V c 0 h (ix2 g q) = contrib V c ⟨0, h⟩ g q := by
  refine (congrFun (outsAt1_A V c ⟨0, h⟩ rfl) (ix2 g q)).trans ?_
  refine (congrFun (out_A (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) (ms1_11 ⟨0, h⟩) (hs1_11 ⟨0, h⟩) (ms1_12 ⟨0, h⟩) (hs1_12 ⟨0, h⟩) (ms1_13 ⟨0, h⟩) (hs1_13 ⟨0, h⟩)
    ((hcond1_0 ⟨0, h⟩).mpr rfl) (b0 V c ⟨0, h⟩) (b1 V c ⟨0, h⟩) (b2 V c ⟨0, h⟩) (b3 V c ⟨0, h⟩) (b4 V c ⟨0, h⟩) (b5 V c ⟨0, h⟩) (b6 V c ⟨0, h⟩) (b7 V c ⟨0, h⟩) (b8 V c ⟨0, h⟩) (b9 V c ⟨0, h⟩) (b10 V c ⟨0, h⟩) (b11 V c ⟨0, h⟩) (b12 V c ⟨0, h⟩)) (ix2 g q)).trans ?_
  refine (step_apply (b0 V c ⟨0, h⟩) (b1 V c ⟨0, h⟩) (b2 V c ⟨0, h⟩) (b3 V c ⟨0, h⟩) (b4 V c ⟨0, h⟩) (b5 V c ⟨0, h⟩) (b6 V c ⟨0, h⟩) (b7 V c ⟨0, h⟩) (b8 V c ⟨0, h⟩) (b9 V c ⟨0, h⟩) (b10 V c ⟨0, h⟩) (b11 V c ⟨0, h⟩) (b12 V c ⟨0, h⟩) (k1_pay1 (F := Ideal)) g q).trans ?_
  rw [pay1_apply, zero_add]
  rfl

/-- Every later point adds its tile's contribution to what the point before left. -/
theorem outs_succ (c : Dev nD) (n : ℕ) (h : n + 1 < cfg1.N) (g : Fin 256) (q : Fin 128) :
    outsAt1 V c (n + 1) h (ix2 g q) = outsAt1 V c n (Nat.lt_of_succ_lt h) (ix2 g q) + contrib V c ⟨n + 1, h⟩ g q := by
  have hN : cfg1.N = 50 := N_1
  have hB : ¬(⟨n + 1, h⟩ : Fin cfg1.N).val % 50 = 0 := by dsimp only; omega
  refine (congrFun (outsAt1_B V c ⟨n + 1, h⟩ hB) (ix2 g q)).trans ?_
  refine (congrFun (out_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (ms1_11 ⟨n + 1, h⟩) (hs1_11 ⟨n + 1, h⟩) (ms1_12 ⟨n + 1, h⟩) (hs1_12 ⟨n + 1, h⟩) (ms1_13 ⟨n + 1, h⟩) (hs1_13 ⟨n + 1, h⟩)
    (fun h' => hB ((hcond1_0 ⟨n + 1, h⟩).mp h')) (b0 V c ⟨n + 1, h⟩) (b1 V c ⟨n + 1, h⟩) (b2 V c ⟨n + 1, h⟩) (b3 V c ⟨n + 1, h⟩) (b4 V c ⟨n + 1, h⟩) (b5 V c ⟨n + 1, h⟩) (b6 V c ⟨n + 1, h⟩) (b7 V c ⟨n + 1, h⟩) (b8 V c ⟨n + 1, h⟩) (b9 V c ⟨n + 1, h⟩) (b10 V c ⟨n + 1, h⟩) (b11 V c ⟨n + 1, h⟩) (b12 V c ⟨n + 1, h⟩)
    (outsAt1 V c ((⟨n + 1, h⟩ : Fin cfg1.N).val - 1) (Nat.lt_of_le_of_lt (Nat.sub_le _ _) (⟨n + 1, h⟩ : Fin cfg1.N).isLt))) (ix2 g q)).trans ?_
  exact step_apply (b0 V c ⟨n + 1, h⟩) (b1 V c ⟨n + 1, h⟩) (b2 V c ⟨n + 1, h⟩) (b3 V c ⟨n + 1, h⟩) (b4 V c ⟨n + 1, h⟩) (b5 V c ⟨n + 1, h⟩) (b6 V c ⟨n + 1, h⟩) (b7 V c ⟨n + 1, h⟩) (b8 V c ⟨n + 1, h⟩) (b9 V c ⟨n + 1, h⟩) (b10 V c ⟨n + 1, h⟩) (b11 V c ⟨n + 1, h⟩) (b12 V c ⟨n + 1, h⟩)
    (outsAt1 V c ((⟨n + 1, h⟩ : Fin cfg1.N).val - 1) (Nat.lt_of_le_of_lt (Nat.sub_le _ _) (⟨n + 1, h⟩ : Fin cfg1.N).isLt)) g q

/-- Point `n`'s contribution as a function of every natural (zero past the grid). -/
def contribN (c : Dev nD) (g : Fin 256) (q : Fin 128) (n : ℕ) : EReal :=
  if h : n < cfg1.N then contrib V c ⟨n, h⟩ g q else 0

/-- After point `n` an entry of the buffer is the sum of the contributions of the points `0 … n`. -/
theorem outs_eq (c : Dev nD) (g : Fin 256) (q : Fin 128) :
    ∀ (n : ℕ) (h : n < cfg1.N), outsAt1 V c n h (ix2 g q) = ∑ i ∈ Finset.range (n + 1), contribN V c g q i
  | 0, h => by
    rw [outs_zero V c h g q, Finset.sum_range_one]
    unfold contribN
    rw [dif_pos h]
  | n + 1, h => by
    rw [outs_succ V c n h g q, outs_eq c g q n (Nat.lt_of_succ_lt h), Finset.sum_range_succ _ (n + 1)]
    congr 1
    unfold contribN
    rw [dif_pos h]

end AtIdeal

end Cert.Proof.Region1Acc

end
-- ==== Proof.Region1Blk.lean ====
/-
  Each input window's block of the second region, read at an index: the four row-blocked windows read their
  array at row 2000·t + r, and the nine whole-array windows are the arrays themselves.
-/
import proofs.«401727_j32504312496833_2_alg».proof.Proof.Gen.KernelIdeal.Frame
import proofs.«401727_j32504312496833_2_alg».proof.Proof.Spec
import Idealize.ShloMosaic.Lib.Pipeline.Value
import Idealize.ShloMosaic.Lib.ValueIdx
import Idealize.ShloMosaic.PureOps.Ideal.Laws

noncomputable section

namespace Cert.Proof.Region1Blk

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- Row `r` of block `t` of a 100000-row array cut in blocks of 2000 rows. -/
def row (t : Fin cfg1.N) (r : Fin 2000) : Fin 100000 :=
  ⟨t.val * 2000 + r.val, by have := lt_of_lt_of_eq t.isLt (show cfg1.N = 50 from N_1); have := r.isLt; omega⟩

/-! ## The index maps, decided once over the 50 grid points

The four row-blocked windows sit at block row `t`, block column 0; the nine whole-array windows at block (0, 0). -/

theorem idx0 : ∀ t : Fin cfg1.N, win1_0.index t 0 = t.val ∧ win1_0.index t 1 = 0 :=
  (by decide +kernel : ∀ t : Fin grid1.N, win1_0.index t 0 = t.val ∧ win1_0.index t 1 = 0)

theorem idx1 : ∀ t : Fin cfg1.N, win1_1.index t 0 = t.val ∧ win1_1.index t 1 = 0 :=
  (by decide +kernel : ∀ t : Fin grid1.N, win1_1.index t 0 = t.val ∧ win1_1.index t 1 = 0)

theorem idx2 : ∀ t : Fin cfg1.N, win1_2.index t 0 = t.val ∧ win1_2.index t 1 = 0 :=
  (by decide +kernel : ∀ t : Fin grid1.N, win1_2.index t 0 = t.val ∧ win1_2.index t 1 = 0)

theorem idx3 : ∀ t : Fin cfg1.N, win1_3.index t 0 = t.val ∧ win1_3.index t 1 = 0 :=
  (by decide +kernel : ∀ t : Fin grid1.N, win1_3.index t 0 = t.val ∧ win1_3.index t 1 = 0)

theorem idx4 : ∀ t : Fin cfg1.N, win1_4.index t 0 = 0 ∧ win1_4.index t 1 = 0 :=
  (by decide +kernel : ∀ t : Fin grid1.N, win1_4.index t 0 = 0 ∧ win1_4.index t 1 = 0)

theorem idx5 : ∀ t : Fin cfg1.N, win1_5.index t 0 = 0 ∧ win1_5.index t 1 = 0 :=
  (by decide +kernel : ∀ t : Fin grid1.N, win1_5.index t 0 = 0 ∧ win1_5.index t 1 = 0)

theorem idx6 : ∀ t : Fin cfg1.N, win1_6.index t 0 = 0 ∧ win1_6.index t 1 = 0 :=
  (by decide +kernel : ∀ t : Fin grid1.N, win1_6.index t 0 = 0 ∧ win1_6.index t 1 = 0)

theorem idx7 : ∀ t : Fin cfg1.N, win1_7.index t 0 = 0 ∧ win1_7.index t 1 = 0 :=
  (by decide +kernel : ∀ t : Fin grid1.N, win1_7.index t 0 = 0 ∧ win1_7.index t 1 = 0)

theorem idx8 : ∀ t : Fin cfg1.N, win1_8.index t 0 = 0 ∧ win1_8.index t 1 = 0 :=
  (by decide +kernel : ∀ t : Fin grid1.N, win1_8.index t 0 = 0 ∧ win1_8.index t 1 = 0)

theorem idx9 : ∀ t : Fin cfg1.N, win1_9.index t 0 = 0 ∧ win1_9.index t 1 = 0 :=
  (by decide +kernel : ∀ t : Fin grid1.N, win1_9.index t 0 = 0 ∧ win1_9.index t 1 = 0)

theorem idx10 : ∀ t : Fin cfg1.N, win1_10.index t 0 = 0 ∧ win1_10.index t 1 = 0 :=
  (by decide +kernel : ∀ t : Fin grid1.N, win1_10.index t 0 = 0 ∧ win1_10.index t 1 = 0)

theorem idx11 : ∀ t : Fin cfg1.N, win1_11.index t 0 = 0 ∧ win1_11.index t 1 = 0 :=
  (by decide +kernel : ∀ t : Fin grid1.N, win1_11.index t 0 = 0 ∧ win1_11.index t 1 = 0)

theorem idx12 : ∀ t : Fin cfg1.N, win1_12.index t 0 = 0 ∧ win1_12.index t 1 = 0 :=
  (by decide +kernel : ∀ t : Fin grid1.N, win1_12.index t 0 = 0 ∧ win1_12.index t 1 = 0)

/-! ## The row-blocked windows

A block's coordinate along an axis is (block index) × (block size) + 1 × (coordinate inside the block): along the
rows `t * 2000 + r`, along the columns `0 * width + k`. -/

theorem blk0 (c : Dev nD) (t : Fin cfg1.N) (r : Fin 2000) (k : Fin 128) :
    (iblk1 (F := Ideal) V c 0 t : Vec Ideal S2000x128 .f32) (ix2 r k) = V c main_v34 (ix2 (row t r) k) := by
  unfold iblk1
  rw [View.read_apply]
  show V c main_v34 _ = V c main_v34 _
  congr 1
  funext a
  apply Fin.ext
  match a with
  | ⟨0, _⟩ => show win1_0.index t 0 * 2000 + 1 * r.val = t.val * 2000 + r.val; rw [(idx0 t).1]; omega
  | ⟨1, _⟩ => show win1_0.index t 1 * 128 + 1 * k.val = k.val; rw [(idx0 t).2]; omega

theorem blk1 (c : Dev nD) (t : Fin cfg1.N) (r : Fin 2000) (k : Fin 128) :
    (iblk1 (F := Ideal) V c 1 t : Vec Ideal S2000x128 .bf16) (ix2 r k) = V c main_v20 (ix2 (row t r) k) := by
  unfold iblk1
  rw [View.read_apply]
  show V c main_v20 _ = V c main_v20 _
  congr 1
  funext a
  apply Fin.ext
  match a with
  | ⟨0, _⟩ => show win1_1.index t 0 * 2000 + 1 * r.val = t.val * 2000 + r.val; rw [(idx1 t).1]; omega
  | ⟨1, _⟩ => show win1_1.index t 1 * 128 + 1 * k.val = k.val; rw [(idx1 t).2]; omega

theorem blk2 (c : Dev nD) (t : Fin cfg1.N) (r : Fin 2000) (k : Fin 64) :
    (iblk1 (F := Ideal) V c 2 t : Vec Ideal S2000x64 .bf16) (ix2 r k) = V c main_v4 (ix2 (row t r) k) := by
  unfold iblk1
  rw [View.read_apply]
  show V c main_v4 _ = V c main_v4 _
  congr 1
  funext a
  apply Fin.ext
  match a with
  | ⟨0, _⟩ => show win1_2.index t 0 * 2000 + 1 * r.val = t.val * 2000 + r.val; rw [(idx2 t).1]; omega
  | ⟨1, _⟩ => show win1_2.index t 1 * 64 + 1 * k.val = k.val; rw [(idx2 t).2]; omega

theorem blk3 (c : Dev nD) (t : Fin cfg1.N) (r : Fin 2000) :
    (iblk1 (F := Ideal) V c 3 t : Vec Ideal S2000x1 .i32) (ix2 r 0) = V c main_v35 (ix2 (row t r) 0) := by
  unfold iblk1
  rw [View.read_apply]
  show V c main_v35 _ = V c main_v35 _
  congr 1
  funext a
  apply Fin.ext
  match a with
  | ⟨0, _⟩ => show win1_3.index t 0 * 2000 + 1 * r.val = t.val * 2000 + r.val; rw [(idx3 t).1]; omega
  | ⟨1, _⟩ => show win1_3.index t 1 * 1 + 1 * (0 : Fin 1).val = (0 : Fin 1).val; rw [(idx3 t).2]; omega

/-! ## The whole-array windows

Their one block sits at (0, 0) and has the array's extents, so reading the block at `j` reads the array at `j`. -/

theorem blk4 (c : Dev nD) (t : Fin cfg1.N) : (iblk1 (F := Ideal) V c 4 t : Vec Ideal S128x128 .f32) = V c main_arg7 := by
  funext j
  unfold iblk1
  rw [View.read_apply]
  show V c main_arg7 _ = V c main_arg7 _
  congr 1
  funext a
  apply Fin.ext
  match a with
  | ⟨0, _⟩ => show win1_4.index t 0 * 128 + 1 * (j 0).val = (j 0).val; rw [(idx4 t).1]; omega
  | ⟨1, _⟩ => show win1_4.index t 1 * 128 + 1 * (j 1).val = (j 1).val; rw [(idx4 t).2]; omega

theorem blk5 (c : Dev nD) (t : Fin cfg1.N) : (iblk1 (F := Ideal) V c 5 t : Vec Ideal S1x128 .f32) = V c main_v40 := by
  funext j
  unfold iblk1
  rw [View.read_apply]
  show V c main_v40 _ = V c main_v40 _
  congr 1
  funext a
  apply Fin.ext
  match a with
  | ⟨0, _⟩ => show win1_5.index t 0 * 1 + 1 * (j 0).val = (j 0).val; rw [(idx5 t).1]; omega
  | ⟨1, _⟩ => show win1_5.index t 1 * 128 + 1 * (j 1).val = (j 1).val; rw [(idx5 t).2]; omega

theorem blk6 (c : Dev nD) (t : Fin cfg1.N) : (iblk1 (F := Ideal) V c 6 t : Vec Ideal S128x128 .f32) = V c main_arg9 := by
  funext j
  unfold iblk1
  rw [View.read_apply]
  show V c main_arg9 _ = V c main_arg9 _
  congr 1
  funext a
  apply Fin.ext
  match a with
  | ⟨0, _⟩ => show win1_6.index t 0 * 128 + 1 * (j 0).val = (j 0).val; rw [(idx6 t).1]; omega
  | ⟨1, _⟩ => show win1_6.index t 1 * 128 + 1 * (j 1).val = (j 1).val; rw [(idx6 t).2]; omega

theorem blk7 (c : Dev nD) (t : Fin cfg1.N) : (iblk1 (F := Ideal) V c 7 t : Vec Ideal S128x128 .f32) = V c main_v36 := by
  funext j
  unfold iblk1
  rw [View.read_apply]
  show V c main_v36 _ = V c main_v36 _
  congr 1
  funext a
  apply Fin.ext
  match a with
  | ⟨0, _⟩ => show win1_7.index t 0 * 128 + 1 * (j 0).val = (j 0).val; rw [(idx7 t).1]; omega
  | ⟨1, _⟩ => show win1_7.index t 1 * 128 + 1 * (j 1).val = (j 1).val; rw [(idx7 t).2]; omega

theorem blk8 (c : Dev nD) (t : Fin cfg1.N) : (iblk1 (F := Ideal) V c 8 t : Vec Ideal S64x128 .f32) = V c main_v37 := by
  funext j
  unfold iblk1
  rw [View.read_apply]
  show V c main_v37 _ = V c main_v37 _
  congr 1
  funext a
  apply Fin.ext
  match a with
  | ⟨0, _⟩ => show win1_8.index t 0 * 64 + 1 * (j 0).val = (j 0).val; rw [(idx8 t).1]; omega
  | ⟨1, _⟩ => show win1_8.index t 1 * 128 + 1 * (j 1).val = (j 1).val; rw [(idx8 t).2]; omega

theorem blk9 (c : Dev nD) (t : Fin cfg1.N) : (iblk1 (F := Ideal) V c 9 t : Vec Ideal S1x128 .f32) = V c main_v41 := by
  funext j
  unfold iblk1
  rw [View.read_apply]
  show V c main_v41 _ = V c main_v41 _
  congr 1
  funext a
  apply Fin.ext
  match a with
  | ⟨0, _⟩ => show win1_9.index t 0 * 1 + 1 * (j 0).val = (j 0).val; rw [(idx9 t).1]; omega
  | ⟨1, _⟩ => show win1_9.index t 1 * 128 + 1 * (j 1).val = (j 1).val; rw [(idx9 t).2]; omega

theorem blk10 (c : Dev nD) (t : Fin cfg1.N) : (iblk1 (F := Ideal) V c 10 t : Vec Ideal S128x128 .f32) = V c main_v38 := by
  funext j
  unfold iblk1
  rw [View.read_apply]
  show V c main_v38 _ = V c main_v38 _
  congr 1
  funext a
  apply Fin.ext
  match a with
  | ⟨0, _⟩ => show win1_10.index t 0 * 128 + 1 * (j 0).val = (j 0).val; rw [(idx10 t).1]; omega
  | ⟨1, _⟩ => show win1_10.index t 1 * 128 + 1 * (j 1).val = (j 1).val; rw [(idx10 t).2]; omega

theorem blk11 (c : Dev nD) (t : Fin cfg1.N) : (iblk1 (F := Ideal) V c 11 t : Vec Ideal S64x128 .f32) = V c main_v39 := by
  funext j
  unfold iblk1
  rw [View.read_apply]
  show V c main_v39 _ = V c main_v39 _
  congr 1
  funext a
  apply Fin.ext
  match a with
  | ⟨0, _⟩ => show win1_11.index t 0 * 64 + 1 * (j 0).val = (j 0).val; rw [(idx11 t).1]; omega
  | ⟨1, _⟩ => show win1_11.index t 1 * 128 + 1 * (j 1).val = (j 1).val; rw [(idx11 t).2]; omega

theorem blk12 (c : Dev nD) (t : Fin cfg1.N) : (iblk1 (F := Ideal) V c 12 t : Vec Ideal S1x128 .f32) = V c main_v42 := by
  funext j
  unfold iblk1
  rw [View.read_apply]
  show V c main_v42 _ = V c main_v42 _
  congr 1
  funext a
  apply Fin.ext
  match a with
  | ⟨0, _⟩ => show win1_12.index t 0 * 1 + 1 * (j 0).val = (j 0).val; rw [(idx12 t).1]; omega
  | ⟨1, _⟩ => show win1_12.index t 1 * 128 + 1 * (j 1).val = (j 1).val; rw [(idx12 t).2]; omega

end Cert.Proof.Region1Blk

end
-- ==== Proof.Region1Last.lean ====
/-
  The second kernel region writes its output array back once, after its last grid point: the array the region
  leaves is what the output buffer holds after that point.
-/
import proofs.«401727_j32504312496833_2_alg».proof.Proof.Gen.KernelIdeal.Frame
import proofs.«401727_j32504312496833_2_alg».proof.Proof.Spec
import Idealize.ShloMosaic.Lib.Pipeline.Value
import Idealize.ShloMosaic.Lib.ValueIdx
import Idealize.ShloMosaic.PureOps.Ideal.Laws

noncomputable section

namespace Cert.Proof.Region1Last

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- The region's grid has 50 points. -/
theorem N50 : cfg1.N = 50 := N_1

/-- The last grid point. -/
abbrev tLast : Fin cfg1.N := ⟨49, by rw [N50]; decide⟩

/-- The output window's index map is constant zero: at every grid point its block starts at offset zero of the
    array on both axes. -/
theorem off_zero (t : Fin cfg1.N) :
    (fun a => win1_13.index t a * main_v43.ty.shape.size a) = fun _ => 0 := by
  funext a
  fin_cases a <;> rfl

/-- So at every point the block IS the array: read off any contents of the array, it gives them back. -/
theorem read_blk (t : Fin cfg1.N) (X : Vec Ideal S256x128 .f32) :
    ((cfg1.win 13).blk t).view.read (Elt Ideal) X = X :=
  Memref.read_access_unit_zero (Elt Ideal) main_v43 (off_zero t)
    (fun a => by rw [congrFun (off_zero t) a, Nat.zero_add]) X

/-- and every index of the array lies in the block. -/
theorem mem_blk (t : Fin cfg1.N) (i : main_v43.ty.shape.Idx) :
    i ∈ ((cfg1.win 13).blk t).view.set := by
  show i ∈ ((View.whole main_v43).slice (win1_13.rect t)).set
  rw [View.set_slice_whole]
  exact View.mem_set_unit_zero (off_zero t) _ i

/-- The output window is written back at the last point only. -/
theorem flush_iff (t : Fin cfg1.N) : (cfg1.win 13).flush t = true ↔ t = tLast := by
  rw [flush1_13 t]
  have hN := N50
  have ht := t.isLt
  constructor
  · intro h; exact Fin.ext (by show t.val = 49; omega)
  · rintro rfl; rfl

/-- What that one write-back writes is the whole of what the buffer holds after the last point (the transfer
    moves the uncut block), which is that array's own block. -/
theorem flushed_last (c : Dev nD) (t : Fin cfg1.N) (hf : (cfg1.win 13).flush t = true) :
    (dat1 (F := Ideal) V c).flushed 13 t
      = ((cfg1.win 13).blk t).view.read (Elt Ideal) (outsAt1 (F := Ideal) V c 49 tLast.isLt) := by
  obtain rfl := (flush_iff t).mp hf
  rw [read_blk]
  show (cfg1.win 13).cut (grid1.coords tLast) ((dat1 V c).after 13 tLast) = _
  rw [after1_13]
  rfl

/-- After the region its output array holds what the output buffer held after the last grid point. -/
theorem arrAt_last (c : Dev nD) :
    (dat1 (F := Ideal) V c).arrAt 13 cfg1.N
      = outsAt1 (F := Ideal) V c 49 (by rw [show cfg1.N = 50 from N_1]; decide) :=
  (dat1 (F := Ideal) V c).arrAt_eq_of_cover 13 (outsAt1 (F := Ideal) V c 49 tLast.isLt) (flushed_last V c)
    fun i => ⟨tLast, (flush_iff tLast).mpr rfl, mem_blk tLast i⟩

end Cert.Proof.Region1Last

end
-- ==== Proof.LibTileSum.lean ====
/-
  General facts about finite sums in a commutative additive monoid: a sum over `T·R` indices taken tile by tile, a
  sum of indicator-selected terms as a sum over the selected indices, and a running total unrolled.
-/
import Mathlib.Algebra.BigOperators.Fin
import Mathlib.Algebra.BigOperators.Intervals

namespace Cert.Lib.TileSum

open Finset

/-- A sum over `T·R` consecutive indices is the sum over the `T` tiles of the sums over each tile's `R` indices. -/
theorem sum_tiles {M : Type*} [AddCommMonoid M] (T R : ℕ) (f : ℕ → M) :
    ∑ t : Fin T, ∑ r : Fin R, f (t.val * R + r.val) = ∑ n : Fin (T * R), f n.val := by
  -- the double sum is a sum over pairs (tile, offset); pairs and flat indices correspond by (t, r) ↦ t·R + r
  rw [← Fintype.sum_prod_type' (f := fun (t : Fin T) (r : Fin R) => f (t.val * R + r.val))]
  refine Fintype.sum_equiv finProdFinEquiv _ _ (fun x => ?_)
  simp only [finProdFinEquiv_apply_val]
  rw [Nat.add_comm, Nat.mul_comm]

/-- Adding `f n` where `p n` holds and nothing elsewhere is adding `f` over the indices where `p` holds. -/
theorem sum_ite_eq_filter {M : Type*} [AddCommMonoid M] {ι : Type*} [Fintype ι] (p : ι → Prop) [DecidablePred p] (f : ι → M) :
    ∑ n, (if p n then f n else 0) = ∑ n ∈ univ.filter p, f n :=
  (Finset.sum_filter p f).symm

/-- A running total that starts at `z + c 0` and adds `c (n+1)` at step `n+1` is `z` plus the partial sum. -/
theorem running_total {M : Type*} [AddCommMonoid M] (N : ℕ) (a c : ℕ → M) (z : M) (h0 : a 0 = z + c 0)
    (hs : ∀ n, n + 1 < N → a (n + 1) = a n + c (n + 1)) (n : ℕ) (hn : n < N) :
    a n = z + ∑ i ∈ range (n + 1), c i := by
  induction n with
  | zero => simpa using h0
  | succ k ih =>
    rw [hs k hn, ih (Nat.lt_of_succ_lt hn), Finset.sum_range_succ _ (k + 1), add_assoc]

end Cert.Lib.TileSum
-- ==== Proof.Region1Sum.lean ====
/-
  The pooled entry as a sum over tiles. The 100000 nodes are read in 50 tiles of 2000 rows. Each row contributes
  its gate entry times a factor that is `1` when the row's graph id is `g` and `0` otherwise; added over all tiles
  and rows this is the sum of the gate entries of the nodes of graph `g`. Only `1·x = x`, `0·x = 0` and the
  regrouping of a finite sum are used: no entry is assumed finite.
-/
import proofs.«401727_j32504312496833_2_alg».proof.Proof.Spec
import proofs.«401727_j32504312496833_2_alg».proof.Proof.LibTileSum

noncomputable section

namespace Cert.Proof.Region1Sum

open Idealize.ShloMosaic Idealize.ShloMosaic.ValueIdx

theorem pool_tiles (batch : Fin 100000 → BitVec 32) (G : Cert.Spec.Mat 100000 128) (g : Fin 256) (q : Fin 128)
    (hb : ∀ (t : Fin 50) (r : Fin 2000), t.val * 2000 + r.val < 100000) :
    ∑ t : Fin 50, ∑ r : Fin 2000,
        (if (batch ⟨t.val * 2000 + r.val, hb t r⟩).toInt = (g.val : ℤ) then (1 : EReal) else 0)
          * G (ix2 (⟨t.val * 2000 + r.val, hb t r⟩ : Fin 100000) q)
      = Cert.Spec.poolAt batch G g q := by
  -- the contribution of node number `n`, as a function of the bare number (zero past the last node)
  let f : ℕ → EReal := fun n =>
    if h : n < 100000 then (if (batch ⟨n, h⟩).toInt = (g.val : ℤ) then G (ix2 (⟨n, h⟩ : Fin 100000) q) else 0) else 0
  -- a tile's row contributes `f` of its node number: the factor is `1` or `0`
  have h1 : ∀ (t : Fin 50) (r : Fin 2000),
      (if (batch ⟨t.val * 2000 + r.val, hb t r⟩).toInt = (g.val : ℤ) then (1 : EReal) else 0)
          * G (ix2 (⟨t.val * 2000 + r.val, hb t r⟩ : Fin 100000) q) = f (t.val * 2000 + r.val) := by
    intro t r
    show _ = dite _ _ _
    rw [dif_pos (hb t r), ite_mul, one_mul, zero_mul]
  -- and at a node it is the node's gate entry when the node belongs to graph `g`, zero otherwise
  have h2 : ∀ n : Fin 100000, f n.val = if (batch n).toInt = (g.val : ℤ) then G (ix2 n q) else 0 := by
    intro n
    show dite _ _ _ = _
    rw [dif_pos n.isLt]
  calc ∑ t : Fin 50, ∑ r : Fin 2000,
        (if (batch ⟨t.val * 2000 + r.val, hb t r⟩).toInt = (g.val : ℤ) then (1 : EReal) else 0)
          * G (ix2 (⟨t.val * 2000 + r.val, hb t r⟩ : Fin 100000) q)
      = ∑ t : Fin 50, ∑ r : Fin 2000, f (t.val * 2000 + r.val) :=
        Finset.sum_congr rfl (fun t _ => Finset.sum_congr rfl (fun r _ => h1 t r))
    _ = ∑ n : Fin (50 * 2000), f n.val := Cert.Lib.TileSum.sum_tiles 50 2000 f
    _ = ∑ n : Fin 100000, f n.val := rfl
    _ = ∑ n : Fin 100000, (if (batch n).toInt = (g.val : ℤ) then G (ix2 n q) else 0) :=
        Finset.sum_congr rfl (fun n _ => h2 n)
    _ = Cert.Spec.poolAt batch G g q := Cert.Lib.TileSum.sum_ite_eq_filter _ _

end Cert.Proof.Region1Sum

end
-- ==== Proof.Region1.lean ====
/-
  The second graph convolution layer, the gate and the pooling: the array the second kernel region leaves.
-/
import proofs.«401727_j32504312496833_2_alg».proof.Proof.Gen.KernelIdeal.Frame
import proofs.«401727_j32504312496833_2_alg».proof.Proof.Spec
import proofs.«401727_j32504312496833_2_alg».proof.Proof.Region1Pay
import proofs.«401727_j32504312496833_2_alg».proof.Proof.Region1Acc
import proofs.«401727_j32504312496833_2_alg».proof.Proof.Region1Blk
import proofs.«401727_j32504312496833_2_alg».proof.Proof.Region1Last
import proofs.«401727_j32504312496833_2_alg».proof.Proof.Region1Sum
import Idealize.ShloMosaic.Lib.Pipeline.Value
import Idealize.ShloMosaic.Lib.ValueIdx
import Idealize.ShloMosaic.PureOps.Ideal.Laws

noncomputable section

namespace Cert.Proof.Region1

open Cert.KernelIdeal Cert.KernelIdeal.Gen Idealize.ShloMosaic Idealize.ShloMosaic.ValueIdx Idealize.ShloMosaic.TcCoe
open Cert.Proof.Region1Pay Cert.Proof.Region1Acc Cert.Proof.Region1Blk

variable (V : (c : Dev nD) → (b : Ref sig .tc) → Buf (Elt Ideal) ((c : Thread nD τ).loc b))

/-- The second layer's hidden matrix, over the arrays the region was entered with. -/
abbrev hid (c : Dev nD) : Spec.Mat 100000 128 :=
  Spec.conv (V c main_v34) (V c main_v20) (V c main_arg7) (V c main_arg9) (fun q => V c main_v40 (ix2 0 q))

/-- The gate on it. -/
abbrev gat (c : Dev nD) : Spec.Mat 100000 128 :=
  Spec.gate (hid V c) (V c main_v4) (V c main_v36) (V c main_v37) (V c main_v38) (V c main_v39)
    (fun q => V c main_v41 (ix2 0 q)) (fun q => V c main_v42 (ix2 0 q))

/-- The tile's hidden rows are the rows `2000 t … 2000 t + 1999` of the hidden matrix: the row blocks read the arrays
    at those rows, the weights' blocks are the whole weights, and the bias moves across the second product by
    commutativity and associativity of the sum. -/
theorem conv_tile (c : Dev nD) (t : Fin cfg1.N) (r : Fin 2000) (k : Fin 128) :
    tileConvM (b0 V c t) (b1 V c t) (b4 V c t) (b6 V c t) (b5 V c t) (ix2 r k) = hid V c (ix2 (row t r) k) := by
  show tileConv (b0 V c t) (b1 V c t) (b4 V c t) (b6 V c t) (b5 V c t) r k
    = Spec.convAt (V c main_v34) (V c main_v20) (V c main_arg7) (V c main_arg9) (fun q => V c main_v40 (ix2 0 q)) (row t r) k
  unfold tileConv Spec.convAt
  have e0 : ∀ j, b0 V c t (ix2 r j) = V c main_v34 (ix2 (row t r) j) := fun j => blk0 V c t r j
  have e1 : ∀ j, b1 V c t (ix2 r j) = V c main_v20 (ix2 (row t r) j) := fun j => blk1 V c t r j
  have e4 : b4 V c t = V c main_arg7 := blk4 V c t
  have e5 : b5 V c t = V c main_v40 := blk5 V c t
  have e6 : b6 V c t = V c main_arg9 := blk6 V c t
  simp only [e0, e1]
  rw [e4, e5, e6, add_right_comm]

/-- The tile's gate entries are those rows of the gate. -/
theorem gate_tile (c : Dev nD) (t : Fin cfg1.N) (r : Fin 2000) (q : Fin 128) :
    tileGate (tileConvM (b0 V c t) (b1 V c t) (b4 V c t) (b6 V c t) (b5 V c t)) (b2 V c t) (b7 V c t) (b8 V c t)
        (b10 V c t) (b11 V c t) (b9 V c t) (b12 V c t) r q
      = gat V c (ix2 (row t r) q) := by
  show _ = Spec.gateAt (hid V c) (V c main_v4) (V c main_v36) (V c main_v37) (V c main_v38) (V c main_v39)
    (fun q => V c main_v41 (ix2 0 q)) (fun q => V c main_v42 (ix2 0 q)) (row t r) q
  unfold tileGate tileProj Spec.gateAt Spec.proj
  have e2 : ∀ j, b2 V c t (ix2 r j) = V c main_v4 (ix2 (row t r) j) := fun j => blk2 V c t r j
  have e7 : b7 V c t = V c main_v36 := blk7 V c t
  have e8 : b8 V c t = V c main_v37 := blk8 V c t
  have e9 : b9 V c t = V c main_v41 := blk9 V c t
  have e10 : b10 V c t = V c main_v38 := blk10 V c t
  have e11 : b11 V c t = V c main_v39 := blk11 V c t
  have e12 : b12 V c t = V c main_v42 := blk12 V c t
  simp only [conv_tile V c t r, e2]
  rw [e7, e8, e9, e10, e11, e12]

/-- What a point adds to an entry, over the arrays: the tile's rows of the gate, each times the one-hot factor of
    its graph id. -/
theorem contrib_eq (c : Dev nD) (t : Fin cfg1.N) (g : Fin 256) (q : Fin 128) :
    contrib V c t g q
      = ∑ r : Fin 2000, (if (V c main_v35 (ix2 (row t r) 0)).toInt = (g.val : ℤ) then (1 : EReal) else 0)
          * gat V c (ix2 (row t r) q) := by
  unfold contrib
  refine Finset.sum_congr rfl fun r _ => ?_
  refine congrArg₂ (· * ·) ?_ (gate_tile V c t r q)
  unfold onehot
  rw [show b3 V c t (ix2 r 0) = V c main_v35 (ix2 (row t r) 0) from blk3 V c t r]

/-- After the 50 grid points of the second region its output array is the pooled gate of the second layer, read off
    the arrays the region was entered with. -/
theorem region1_value (c : Dev nD) :
    (dat1 (F := Ideal) V c).arrAt 13 cfg1.N
      = Spec.pool (fun n => V c main_v35 (ix2 n 0))
          (Spec.gate (Spec.conv (V c main_v34) (V c main_v20) (V c main_arg7) (V c main_arg9) (fun q => V c main_v40 (ix2 0 q)))
            (V c main_v4) (V c main_v36) (V c main_v37) (V c main_v38) (V c main_v39)
            (fun q => V c main_v41 (ix2 0 q)) (fun q => V c main_v42 (ix2 0 q))) := by
  have hN : cfg1.N = 50 := N_1
  refine (Cert.Proof.Region1Last.arrAt_last V c).trans (funext fun i => ?_)
  obtain ⟨g, q, rfl⟩ : ∃ (g : Fin 256) (q : Fin 128), i = ix2 g q := ⟨i 0, i 1, eq_ix2 i⟩
  refine (outs_eq V c g q 49 (by rw [hN]; decide)).trans ?_
  show ∑ n ∈ Finset.range 50, contribN V c g q n = Spec.poolAt (fun n => V c main_v35 (ix2 n 0)) (gat V c) g q
  rw [Finset.sum_range, ← Cert.Proof.Region1Sum.pool_tiles (fun n => V c main_v35 (ix2 n 0)) (gat V c) g q
    (fun t r => by have := t.isLt; have := r.isLt; omega)]
  refine Finset.sum_congr rfl fun t _ => ?_
  unfold contribN
  rw [dif_pos (lt_of_lt_of_eq t.isLt hN.symm)]
  exact contrib_eq V c ⟨t.val, lt_of_lt_of_eq t.isLt hN.symm⟩ g q

end Cert.Proof.Region1

end
-- ==== Proof.Region2.lean ====
/-
  The head of the network: the array the third kernel region leaves.

  The region has one grid point and every window's block is its whole array, so the body's one store, the head of
  the network computed from the loaded blocks, is what the output array ends holding.  The arithmetic is three
  matrix products into zero accumulators, each followed by a bias row, the first two by the leaky unit and the last
  by the logistic function; the format changes between them are the identity on the extended reals.
-/
import proofs.«401727_j32504312496833_2_alg».proof.Proof.Gen.KernelIdeal.Frame
import proofs.«401727_j32504312496833_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Proof.Region2

open Cert.KernelIdeal Cert.KernelIdeal.Gen Idealize.ShloMosaic Idealize.ShloMosaic.ValueIdx Idealize.ShloMosaic.TcCoe

/-! ## The three matrix products, entry by entry

Each product contracts the left operand's second axis with the right operand's first and starts from a zero
accumulator, so entry `(g, q)` is the plain sum over the contracted coordinate. -/

theorem lhsA_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhsA_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhsA_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhsA_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- A `[256,128]·[128,128]` product into zeros, at `(g, q)`. -/
theorem prodA_apply {φ₁ φ₂ : FTy} (l : FVec Ideal S256x128 φ₁) (r : FVec Ideal S128x128 φ₂) (g : Fin 256) (q : Fin 128) :
    matmul dot_S256x128_S128x128_S256x128_1_0_0_1_n_n none l r (constant (F := Ideal) S256x128 .f32 0x00000000#32) (ix2 g q)
      = ∑ k : Fin 128, l (ix2 g k) * r (ix2 k q) := by
  refine (Ideal.matmul_constant_zero_apply dot_S256x128_S128x128_S256x128_1_0_0_1_n_n none l r (ix2 g q)).trans ?_
  rw [← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 g q) ((contrEquiv1 dot_S256x128_S128x128_S256x128_1_0_0_1_n_n 128 rfl rfl).symm k) = ix2 g k := funext fun a => Fin.ext (by
    match a with
    | ⟨0, _⟩ => exact lhsA_0 _ _
    | ⟨1, _⟩ => exact (lhsA_1 _ _).trans hk)
  have er : dot_S256x128_S128x128_S256x128_1_0_0_1_n_n.rhsIdx (ix2 g q) ((contrEquiv1 dot_S256x128_S128x128_S256x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

theorem lhsB_0 (i : S256x258.Idx) (q : dot_S256x128_S128x258_S256x258_1_0_0_1_n_n.contr.Idx) :
    (dot_S256x128_S128x258_S256x258_1_0_0_1_n_n.lhsIdx i q 0).val = (i 0).val := by
  unfold DotDims.lhsIdx
  rw [dif_neg (show ¬(0 : Fin S256x128.rank) ∈ dot_S256x128_S128x258_S256x258_1_0_0_1_n_n.lhsBatch by decide), dif_pos (show (0 : Fin S256x128.rank) ∈ dot_S256x128_S128x258_S256x258_1_0_0_1_n_n.lhsNonContracting by decide)]
  rfl
theorem lhsB_1 (i : S256x258.Idx) (q : dot_S256x128_S128x258_S256x258_1_0_0_1_n_n.contr.Idx) :
    (dot_S256x128_S128x258_S256x258_1_0_0_1_n_n.lhsIdx i q 1).val = (q ⟨0, by decide⟩).val :=
  dot_S256x128_S128x258_S256x258_1_0_0_1_n_n.lhsIdx_val_of_single rfl i q
theorem rhsB_0 (i : S256x258.Idx) (q : dot_S256x128_S128x258_S256x258_1_0_0_1_n_n.contr.Idx) :
    (dot_S256x128_S128x258_S256x258_1_0_0_1_n_n.rhsIdx i q 0).val = (q ⟨0, by decide⟩).val :=
  dot_S256x128_S128x258_S256x258_1_0_0_1_n_n.rhsIdx_val_of_single rfl i q
theorem rhsB_1 (i : S256x258.Idx) (q : dot_S256x128_S128x258_S256x258_1_0_0_1_n_n.contr.Idx) :
    (dot_S256x128_S128x258_S256x258_1_0_0_1_n_n.rhsIdx i q 1).val = (i 1).val := by
  unfold DotDims.rhsIdx
  rw [dif_neg (show ¬(1 : Fin S128x258.rank) ∈ dot_S256x128_S128x258_S256x258_1_0_0_1_n_n.rhsBatch by decide), dif_pos (show (1 : Fin S128x258.rank) ∈ dot_S256x128_S128x258_S256x258_1_0_0_1_n_n.rhsNonContracting by decide)]
  rfl

/-- A `[256,128]·[128,258]` product into zeros, at `(g, q)`. -/
theorem prodB_apply {φ₁ φ₂ : FTy} (l : FVec Ideal S256x128 φ₁) (r : FVec Ideal S128x258 φ₂) (g : Fin 256) (q : Fin 258) :
    matmul dot_S256x128_S128x258_S256x258_1_0_0_1_n_n none l r (constant (F := Ideal) S256x258 .f32 0x00000000#32) (ix2 g q)
      = ∑ k : Fin 128, l (ix2 g k) * r (ix2 k q) := by
  refine (Ideal.matmul_constant_zero_apply dot_S256x128_S128x258_S256x258_1_0_0_1_n_n none l r (ix2 g q)).trans ?_
  rw [← Equiv.sum_comp (contrEquiv1 dot_S256x128_S128x258_S256x258_1_0_0_1_n_n 128 rfl rfl).symm]
  refine Finset.sum_congr rfl fun k _ => ?_
  have hk := contrEquiv1_symm_val dot_S256x128_S128x258_S256x258_1_0_0_1_n_n 128 rfl rfl k
  have el : dot_S256x128_S128x258_S256x258_1_0_0_1_n_n.lhsIdx (ix2 g q) ((contrEquiv1 dot_S256x128_S128x258_S256x258_1_0_0_1_n_n 128 rfl rfl).symm k) = ix2 g k := funext fun a => Fin.ext (by
    match a with
    | ⟨0, _⟩ => exact lhsB_0 _ _
    | ⟨1, _⟩ => exact (lhsB_1 _ _).trans hk)
  have er : dot_S256x128_S128x258_S256x258_1_0_0_1_n_n.rhsIdx (ix2 g q) ((contrEquiv1 dot_S256x128_S128x258_S256x258_1_0_0_1_n_n 128 rfl rfl).symm k) = ix2 k q := funext fun a => Fin.ext (by
    match a with
    | ⟨0, _⟩ => exact (rhsB_0 _ _).trans hk
    | ⟨1, _⟩ => exact rhsB_1 _ _)
  rw [el, er]

theorem lhsC_0 (i : S256x1.Idx) (q : dot_S256x258_S258x1_S256x1_1_0_0_1_n_n.contr.Idx) :
    (dot_S256x258_S258x1_S256x1_1_0_0_1_n_n.lhsIdx i q 0).val = (i 0).val := by
  unfold DotDims.lhsIdx
  rw [dif_neg (show ¬(0 : Fin S256x258.rank) ∈ dot_S256x258_S258x1_S256x1_1_0_0_1_n_n.lhsBatch by decide), dif_pos (show (0 : Fin S256x258.rank) ∈ dot_S256x258_S258x1_S256x1_1_0_0_1_n_n.lhsNonContracting by decide)]
  rfl
theorem lhsC_1 (i : S256x1.Idx) (q : dot_S256x258_S258x1_S256x1_1_0_0_1_n_n.contr.Idx) :
    (dot_S256x258_S258x1_S256x1_1_0_0_1_n_n.lhsIdx i q 1).val = (q ⟨0, by decide⟩).val :=
  dot_S256x258_S258x1_S256x1_1_0_0_1_n_n.lhsIdx_val_of_single rfl i q
theorem rhsC_0 (i : S256x1.Idx) (q : dot_S256x258_S258x1_S256x1_1_0_0_1_n_n.contr.Idx) :
    (dot_S256x258_S258x1_S256x1_1_0_0_1_n_n.rhsIdx i q 0).val = (q ⟨0, by decide⟩).val :=
  dot_S256x258_S258x1_S256x1_1_0_0_1_n_n.rhsIdx_val_of_single rfl i q
theorem rhsC_1 (i : S256x1.Idx) (q : dot_S256x258_S258x1_S256x1_1_0_0_1_n_n.contr.Idx) :
    (dot_S256x258_S258x1_S256x1_1_0_0_1_n_n.rhsIdx i q 1).val = (i 1).val := by
  unfold DotDims.rhsIdx
  rw [dif_neg (show ¬(1 : Fin S258x1.rank) ∈ dot_S256x258_S258x1_S256x1_1_0_0_1_n_n.rhsBatch by decide), dif_pos (show (1 : Fin S258x1.rank) ∈ dot_S256x258_S258x1_S256x1_1_0_0_1_n_n.rhsNonContracting by decide)]
  rfl

/-- A `[256,258]·[258,1]` product into zeros, at `(g, q)`. -/
theorem prodC_apply {φ₁ φ₂ : FTy} (l : FVec Ideal S256x258 φ₁) (r : FVec Ideal S258x1 φ₂) (g : Fin 256) (q : Fin 1) :
    matmul dot_S256x258_S258x1_S256x1_1_0_0_1_n_n none l r (constant (F := Ideal) S256x1 .f32 0x00000000#32) (ix2 g q)
      = ∑ k : Fin 258, l (ix2 g k) * r (ix2 k q) := by
  refine (Ideal.matmul_constant_zero_apply dot_S256x258_S258x1_S256x1_1_0_0_1_n_n none l r (ix2 g q)).trans ?_
  rw [← Equiv.sum_comp (contrEquiv1 dot_S256x258_S258x1_S256x1_1_0_0_1_n_n 258 rfl rfl).symm]
  refine Finset.sum_congr rfl fun k _ => ?_
  have hk := contrEquiv1_symm_val dot_S256x258_S258x1_S256x1_1_0_0_1_n_n 258 rfl rfl k
  have el : dot_S256x258_S258x1_S256x1_1_0_0_1_n_n.lhsIdx (ix2 g q) ((contrEquiv1 dot_S256x258_S258x1_S256x1_1_0_0_1_n_n 258 rfl rfl).symm k) = ix2 g k := funext fun a => Fin.ext (by
    match a with
    | ⟨0, _⟩ => exact lhsC_0 _ _
    | ⟨1, _⟩ => exact (lhsC_1 _ _).trans hk)
  have er : dot_S256x258_S258x1_S256x1_1_0_0_1_n_n.rhsIdx (ix2 g q) ((contrEquiv1 dot_S256x258_S258x1_S256x1_1_0_0_1_n_n 258 rfl rfl).symm k) = ix2 k q := funext fun a => Fin.ext (by
    match a with
    | ⟨0, _⟩ => exact (rhsC_0 _ _).trans hk
    | ⟨1, _⟩ => exact rhsC_1 _ _)
  rw [el, er]

/-! ## The layers of the head -/

/-- The leaky unit on every entry of a vector: the entry where it is positive, the slope word times it elsewhere. -/
def leakyV {s : Shape} (v : FVec Ideal s .f32) : FVec Ideal s .f32 :=
  select (cmpf .ogt v (broadcast s (Scalar.ofBits (F := Ideal) .f32 0x00000000#32))) v
    (mulf (broadcast s (Scalar.ofBits (F := Ideal) .f32 0x3D4CCCCD#32)) v)

theorem leakyV_apply {s : Shape} (v : FVec Ideal s .f32) (i : s.Idx) : leakyV v i = Spec.leaky (v i) := rfl

/-- The first hidden layer as the body computes it. -/
def layer1 (x0 : Vec Ideal S256x128 .f32) (x1 : Vec Ideal S128x128 .f32) (x2 : Vec Ideal S1x128 .f32) : FVec Ideal S256x128 .f32 :=
  leakyV (addf (matmul dot_S256x128_S128x128_S256x128_1_0_0_1_n_n none
      (truncf .bf16 (shapeCast S256x128 x0 shapeCasts_S256x128_S256x128) bitsLt_bf16_f32) (truncf .bf16 x1 bitsLt_bf16_f32)
      (constant (F := Ideal) S256x128 .f32 0x00000000#32))
    (broadcastTo S256x128 (shapeCast S1x128 x2 shapeCasts_S1x128_S1x128) broadcasts_S1x128_S256x128))

/-- The second hidden layer, of any first one. -/
def layer2 (h : FVec Ideal S256x128 .f32) (x3 : Vec Ideal S128x258 .f32) (x4 : Vec Ideal S1x258 .f32) : FVec Ideal S256x258 .f32 :=
  leakyV (addf (matmul dot_S256x128_S128x258_S256x258_1_0_0_1_n_n none
      (truncf .bf16 h bitsLt_bf16_f32) (truncf .bf16 x3 bitsLt_bf16_f32)
      (constant (F := Ideal) S256x258 .f32 0x00000000#32))
    (broadcastTo S256x258 (shapeCast S1x258 x4 shapeCasts_S1x258_S1x258) broadcasts_S1x258_S256x258))

/-- The output layer, of any second one. -/
def layer3 (h : FVec Ideal S256x258 .f32) (x5 : Vec Ideal S258x1 .f32) (x6 : Vec Ideal S1x1 .f32) : FVec Ideal S256x1 .f32 :=
  logistic (addf (matmul dot_S256x258_S258x1_S256x1_1_0_0_1_n_n none
      (truncf .bf16 h bitsLt_bf16_f32) (truncf .bf16 x5 bitsLt_bf16_f32)
      (constant (F := Ideal) S256x1 .f32 0x00000000#32))
    (broadcastTo S256x1 (shapeCast S1x1 x6 shapeCasts_S1x1_S1x1) broadcasts_S1x1_S256x1))

/-- The body's arithmetic is the three layers composed. -/
theorem pay_eq_layers (x0 : Vec Ideal S256x128 .f32) (x1 : Vec Ideal S128x128 .f32) (x2 : Vec Ideal S1x128 .f32)
    (x3 : Vec Ideal S128x258 .f32) (x4 : Vec Ideal S1x258 .f32) (x5 : Vec Ideal S258x1 .f32) (x6 : Vec Ideal S1x1 .f32) :
    k2_pay1 (F := Ideal) x0 x1 x2 x3 x4 x5 x6 = layer3 (layer2 (layer1 x0 x1 x2) x3 x4) x5 x6 := rfl

/-- An entry of the first layer is the leaky unit of the dense formula. -/
theorem layer1_apply (x0 : Vec Ideal S256x128 .f32) (x1 : Vec Ideal S128x128 .f32) (x2 : Vec Ideal S1x128 .f32) (g : Fin 256) (q : Fin 128) :
    layer1 x0 x1 x2 (ix2 g q) = Spec.leaky (Spec.dense x0 x1 (fun q => x2 (ix2 0 q)) g q) := by
  unfold layer1
  rw [leakyV_apply, addf_apply, prodA_apply, broadcastTo_1b_ab_apply, shapeCast_self, shapeCast_self]
  rfl

theorem layer2_apply (h : FVec Ideal S256x128 .f32) (x3 : Vec Ideal S128x258 .f32) (x4 : Vec Ideal S1x258 .f32) (g : Fin 256) (q : Fin 258) :
    layer2 h x3 x4 (ix2 g q) = Spec.leaky (Spec.dense h x3 (fun q => x4 (ix2 0 q)) g q) := by
  unfold layer2
  rw [leakyV_apply, addf_apply, prodB_apply, broadcastTo_1b_ab_apply, shapeCast_self]
  rfl

theorem layer3_apply (h : FVec Ideal S256x258 .f32) (x5 : Vec Ideal S258x1 .f32) (x6 : Vec Ideal S1x1 .f32) (g : Fin 256) (o : Fin 1) :
    layer3 h x5 x6 (ix2 g o) = Ideal.logistic (Spec.dense h x5 (fun q => x6 (ix2 0 q)) g o) := by
  unfold layer3
  show Ideal.logistic _ = _
  rw [addf_apply, prodC_apply, broadcastTo_1b_ab_apply, shapeCast_self]
  rfl

theorem layer1_eq (x0 : Vec Ideal S256x128 .f32) (x1 : Vec Ideal S128x128 .f32) (x2 : Vec Ideal S1x128 .f32) :
    layer1 x0 x1 x2 = fun j : (⟨2, ![256, 128]⟩ : Shape).Idx => Spec.leaky (Spec.dense x0 x1 (fun q => x2 (ix2 0 q)) (j 0) (j 1)) := by
  funext j
  obtain ⟨p, q, rfl⟩ : ∃ (p : Fin 256) (q : Fin 128), j = ix2 p q := ⟨j 0, j 1, eq_ix2 j⟩
  exact layer1_apply x0 x1 x2 p q

theorem layer2_eq (h : FVec Ideal S256x128 .f32) (x3 : Vec Ideal S128x258 .f32) (x4 : Vec Ideal S1x258 .f32) :
    layer2 h x3 x4 = fun j : (⟨2, ![256, 258]⟩ : Shape).Idx => Spec.leaky (Spec.dense h x3 (fun q => x4 (ix2 0 q)) (j 0) (j 1)) := by
  funext j
  obtain ⟨p, q, rfl⟩ : ∃ (p : Fin 256) (q : Fin 258), j = ix2 p q := ⟨j 0, j 1, eq_ix2 j⟩
  exact layer2_apply h x3 x4 p q

/-- THE BODY'S ARITHMETIC AT AN ENTRY is the head of the network there. -/
theorem pay_apply (x0 : Vec Ideal S256x128 .f32) (x1 : Vec Ideal S128x128 .f32) (x2 : Vec Ideal S1x128 .f32)
    (x3 : Vec Ideal S128x258 .f32) (x4 : Vec Ideal S1x258 .f32) (x5 : Vec Ideal S258x1 .f32) (x6 : Vec Ideal S1x1 .f32) (g : Fin 256) (o : Fin 1) :
    k2_pay1 (F := Ideal) x0 x1 x2 x3 x4 x5 x6 (ix2 g o)
      = Spec.mlpAt x0 x1 (fun q => x2 (ix2 0 q)) x3 (fun q => x4 (ix2 0 q)) x5 (fun q => x6 (ix2 0 q)) g o := by
  rw [pay_eq_layers, layer3_apply, layer2_eq, layer1_eq]
  rfl

/-! ## From the blocks to the array -/

variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- Every window's block index is zero on both axes at the region's one point. -/
theorem index_zero : ∀ t : Fin cfg2.N, win2_0.index t (0 : Fin 2) = 0
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

/-! Each input block is its whole array: an element of the block sits at block index × block size + its own
coordinate, and the block index is zero. -/

theorem block0_eq (c : Dev nD) (t : Fin cfg2.N) :
    (iblk2 V c 0 t : Vec Ideal S256x128 .f32) = (V c main_v43 : Vec Ideal S256x128 .f32) := by
  obtain ⟨e0, e1, -, -, -, -, -, -, -, -, -, -, -, -, -, -⟩ := index_zero t
  funext y
  show V c main_v43 (((cfg2.win 0).blk t).view.emb y) = V c main_v43 y
  refine congrArg (V c main_v43) (funext fun a => Fin.ext ?_)
  match a with
  | ⟨0, _⟩ => show win2_0.index t (0 : Fin 2) * 256 + 1 * (y 0).val = (y 0).val; omega
  | ⟨1, _⟩ => show win2_0.index t (1 : Fin 2) * 128 + 1 * (y 1).val = (y 1).val; omega

theorem block1_eq (c : Dev nD) (t : Fin cfg2.N) :
    (iblk2 V c 1 t : Vec Ideal S128x128 .f32) = (V c main_arg14 : Vec Ideal S128x128 .f32) := by
  obtain ⟨-, -, e0, e1, -, -, -, -, -, -, -, -, -, -, -, -⟩ := index_zero t
  funext y
  show V c main_arg14 (((cfg2.win 1).blk t).view.emb y) = V c main_arg14 y
  refine congrArg (V c main_arg14) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

theorem block2_eq (c : Dev nD) (t : Fin cfg2.N) :
    (iblk2 V c 2 t : Vec Ideal S1x128 .f32) = (V c main_v44 : Vec Ideal S1x128 .f32) := by
  obtain ⟨-, -, -, -, e0, e1, -, -, -, -, -, -, -, -, -, -⟩ := index_zero t
  funext y
  show V c main_v44 (((cfg2.win 2).blk t).view.emb y) = V c main_v44 y
  refine congrArg (V c main_v44) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem block3_eq (c : Dev nD) (t : Fin cfg2.N) :
    (iblk2 V c 3 t : Vec Ideal S128x258 .f32) = (V c main_arg16 : Vec Ideal S128x258 .f32) := by
  obtain ⟨-, -, -, -, -, -, e0, e1, -, -, -, -, -, -, -, -⟩ := index_zero t
  funext y
  show V c main_arg16 (((cfg2.win 3).blk t).view.emb y) = V c main_arg16 y
  refine congrArg (V c main_arg16) (funext fun a => Fin.ext ?_)
  match a with
  | ⟨0, _⟩ => show win2_3.index t (0 : Fin 2) * 128 + 1 * (y 0).val = (y 0).val; omega
  | ⟨1, _⟩ => show win2_3.index t (1 : Fin 2) * 258 + 1 * (y 1).val = (y 1).val; omega

theorem block4_eq (c : Dev nD) (t : Fin cfg2.N) :
    (iblk2 V c 4 t : Vec Ideal S1x258 .f32) = (V c main_v45 : Vec Ideal S1x258 .f32) := by
  obtain ⟨-, -, -, -, -, -, -, -, e0, e1, -, -, -, -, -, -⟩ := index_zero t
  funext y
  show V c main_v45 (((cfg2.win 4).blk t).view.emb y) = V c main_v45 y
  refine congrArg (V c main_v45) (funext fun a => Fin.ext ?_)
  match a with
  | ⟨0, _⟩ => show win2_4.index t (0 : Fin 2) * 1 + 1 * (y 0).val = (y 0).val; omega
  | ⟨1, _⟩ => show win2_4.index t (1 : Fin 2) * 258 + 1 * (y 1).val = (y 1).val; omega

theorem block5_eq (c : Dev nD) (t : Fin cfg2.N) :
    (iblk2 V c 5 t : Vec Ideal S258x1 .f32) = (V c main_arg18 : Vec Ideal S258x1 .f32) := by
  obtain ⟨-, -, -, -, -, -, -, -, -, -, e0, e1, -, -, -, -⟩ := index_zero t
  funext y
  show V c main_arg18 (((cfg2.win 5).blk t).view.emb y) = V c main_arg18 y
  refine congrArg (V c main_arg18) (funext fun a => Fin.ext ?_)
  match a with
  | ⟨0, _⟩ => show win2_5.index t (0 : Fin 2) * 258 + 1 * (y 0).val = (y 0).val; omega
  | ⟨1, _⟩ => show win2_5.index t (1 : Fin 2) * 1 + 1 * (y 1).val = (y 1).val; omega

theorem block6_eq (c : Dev nD) (t : Fin cfg2.N) :
    (iblk2 V c 6 t : Vec Ideal S1x1 .f32) = (V c main_v46 : Vec Ideal S1x1 .f32) := by
  obtain ⟨-, -, -, -, -, -, -, -, -, -, -, -, e0, e1, -, -⟩ := index_zero t
  funext y
  show V c main_v46 (((cfg2.win 6).blk t).view.emb y) = V c main_v46 y
  refine congrArg (V c main_v46) (funext fun a => Fin.ext ?_)
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- An index of the output block is the same index of the output array. -/
theorem out_emb (t : Fin cfg2.N) (g : Fin 256) (o : Fin 1) :
    ((cfg2.win 7).blk t).view.emb (ix2 g o) = ix2 g o := by
  obtain ⟨-, -, -, -, -, -, -, -, -, -, -, -, -, -, e0, e1⟩ := index_zero t
  refine funext fun a => Fin.ext ?_
  match a with
  | ⟨0, _⟩ => show win2_7.index t (0 : Fin 2) * 256 + 1 * g.val = g.val; omega
  | ⟨1, _⟩ => show win2_7.index t (1 : Fin 2) * 1 + 1 * o.val = o.val; omega

/-- WHAT THE POINT WRITES BACK is its block of the head of the network, read off the arrays the region was entered with. -/
theorem flushed_eq (c : Dev nD) (t : Fin cfg2.N) :
    (dat2 V c).flushed 7 t = ((cfg2.win 7).blk t).view.read (Elt Ideal)
      (Spec.mlp (V c main_v43) (V c main_arg14) (fun q => V c main_v44 (ix2 0 q)) (V c main_arg16) (fun q => V c main_v45 (ix2 0 q))
          (V c main_arg18) (fun q => V c main_v46 (ix2 0 q))) := by
  show (cfg2.win 7).cut (grid2.coords t) ((dat2 V c).after 7 t) = _
  rw [after2_7]
  unfold out2_7
  rw [View.canon_unit_zero zero_offsets]
  simp only [View.ld_unit_zero (S := S256x128) zero_offsets, View.ld_unit_zero (S := S128x128) zero_offsets,
    View.ld_unit_zero (S := S1x128) zero_offsets, View.ld_unit_zero (S := S128x258) zero_offsets,
    View.ld_unit_zero (S := S1x258) zero_offsets, View.ld_unit_zero (S := S258x1) zero_offsets,
    View.ld_unit_zero (S := S1x1) zero_offsets]
  funext j
  obtain ⟨g, o, rfl⟩ : ∃ (g : Fin 256) (o : Fin 1), j = ix2 g o := ⟨j 0, j 1, eq_ix2 j⟩
  show k2_pay1 (F := Ideal) (iblk2 V c 0 t) (iblk2 V c 1 t) (iblk2 V c 2 t) (iblk2 V c 3 t) (iblk2 V c 4 t) (iblk2 V c 5 t) (iblk2 V c 6 t) (ix2 g o)
    = Spec.mlp (V c main_v43) (V c main_arg14) (fun q => V c main_v44 (ix2 0 q)) (V c main_arg16) (fun q => V c main_v45 (ix2 0 q))
          (V c main_arg18) (fun q => V c main_v46 (ix2 0 q)) (((cfg2.win 7).blk t).view.emb (ix2 g o))
  rw [out_emb t g o]
  refine (pay_apply _ _ _ _ _ _ _ g o).trans ?_
  rw [block0_eq V c t, block1_eq V c t, block2_eq V c t, block3_eq V c t, block4_eq V c t, block5_eq V c t, block6_eq V c t]
  rfl

/-- The one point's block covers the output array. -/
theorem covered (i : S256x1.Idx) :
    ∃ t : Fin cfg2.N, (cfg2.win 7).flush t = true ∧ i ∈ ((cfg2.win 7).blk t).view.set := by
  have hN : 0 < cfg2.N := by decide
  refine ⟨⟨0, hN⟩, flush2_7 _, ?_⟩
  obtain ⟨-, -, -, -, -, -, -, -, -, -, -, -, -, -, e0, e1⟩ := index_zero ⟨0, hN⟩
  show i ∈ ((View.whole main_v47).slice (win2_7.rect ⟨0, hN⟩)).set
  rw [View.set_slice_whole, Rect.mem_set_unit]
  have h0 : (i 0).val < 256 := (i 0).isLt
  have h1 : (i 1).val < 1 := (i 1).isLt
  intro a
  match a with
  | ⟨0, _⟩ => show win2_7.index ⟨0, hN⟩ (0 : Fin 2) * 256 ≤ (i 0).val ∧ (i 0).val < win2_7.index ⟨0, hN⟩ (0 : Fin 2) * 256 + 256; omega
  | ⟨1, _⟩ => show win2_7.index ⟨0, hN⟩ (1 : Fin 2) * 1 ≤ (i 1).val ∧ (i 1).val < win2_7.index ⟨0, hN⟩ (1 : Fin 2) * 1 + 1; omega

/-- After its one grid point the third region's output array is the head of the network, read off the arrays the
    region was entered with. -/
theorem region2_value (c : Dev nD) :
    (dat2 (F := Ideal) V c).arrAt 7 cfg2.N
      = Spec.mlp (V c main_v43) (V c main_arg14) (fun q => V c main_v44 (ix2 0 q)) (V c main_arg16) (fun q => V c main_v45 (ix2 0 q))
          (V c main_arg18) (fun q => V c main_v46 (ix2 0 q)) :=
  (dat2 (F := Ideal) V c).arrAt_eq_of_cover 7 _ (fun t _ => flushed_eq V c t) (fun i => covered i)

end Cert.Proof.Region2

end
-- ==== Proof.KernelValueEntry.lean ====
/-
  What each kernel region is entered with, read back to the launch arguments: a buffer that no host operation and
  no region writes holds what was launched, a buffer a host operation wrote holds that operation's value, and a
  region's output array holds what the region left there.
-/
import proofs.«401727_j32504312496833_2_alg».proof.Proof.Gen.KernelIdeal.Frame
import proofs.«401727_j32504312496833_2_alg».proof.Proof.Spec
import proofs.«401727_j32504312496833_2_alg».proof.Proof.KAgg
import Idealize.ShloMosaic.Lib.Pipeline.Value
import Idealize.ShloMosaic.Lib.ValueIdx
import Idealize.ShloMosaic.Lib.ValueLayout
import Idealize.ShloMosaic.Lib.StableHlo.Run

noncomputable section

namespace Cert.Proof.KernelValue

open Cert.KernelIdeal Cert.KernelIdeal.Gen Idealize.ShloMosaic Idealize.ShloMosaic.ValueIdx Idealize.ShloMosaic.TcCoe

variable (m : (ℓ : Loc nD τ sig) → Buf (Elt Ideal) ℓ) (ρ : Dev nD → PrngReg)

/-! ## The references each line of host operations writes -/

/-- The references the first line of host operations writes. -/
def wr0 : List (Ref sig .tc) :=
  [main_v0, main_v1, main_v2, main_v3, main_v4, main_c, main_v5, main_v6, main_c_0, main_v7, main_v8, main_v9, main_v10,
   main_v11, main_v12, main_v13, main_v14, main_v15, main_cst, main_v16, main_v17, main_v18, main_v19]
/-- The references the second line writes. -/
def wr1 : List (Ref sig .tc) :=
  [main_c_1, main_v21, main_v22, main_c_2, main_v23, main_v24, main_v25, main_v26, main_v27, main_v28, main_v29, main_v30,
   main_v31, main_cst_3, main_v32, main_v33, main_v34, main_v35, main_v36, main_v37, main_v38, main_v39, main_v40, main_v41, main_v42]
/-- The references the third line writes. -/
def wr2 : List (Ref sig .tc) := [main_v44, main_v45, main_v46]

theorem hostOps0_writes : (hostOps0 (F := Ideal) : List (HloOp τ sig (Elt Ideal))).Forall
    fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem hostOps1_writes : (hostOps1 (F := Ideal) : List (HloOp τ sig (Elt Ideal))).Forall
    fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem hostOps2_writes : (hostOps2 (F := Ideal) : List (HloOp τ sig (Elt Ideal))).Forall
    fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## A buffer nothing writes keeps its contents through each boundary -/

theorem W1_keep (c : Dev nD) (r : Ref sig .tc) (h0 : r ∉ wr0) :
    W1 (F := Ideal) m ρ c (Proc.devRef .tc r) = W0 m ρ c (Proc.devRef .tc r) :=
  StableHlo.after_of_writes_sub hostOps0 _ hostOps0_writes h0

theorem W3_keep (c : Dev nD) (r : Ref sig .tc) (h1 : r ∉ wr1) :
    W3 (F := Ideal) m ρ c (Proc.devRef .tc r) = W2 m ρ c (Proc.devRef .tc r) :=
  StableHlo.after_of_writes_sub hostOps1 _ hostOps1_writes h1

theorem W5_keep (c : Dev nD) (r : Ref sig .tc) (h2 : r ∉ wr2) :
    W5 (F := Ideal) m ρ c (Proc.devRef .tc r) = W4 m ρ c (Proc.devRef .tc r) :=
  StableHlo.after_of_writes_sub hostOps2 _ hostOps2_writes h2

theorem W0_eq (c : Dev nD) (r : Ref sig .tc) : W0 (F := Ideal) m ρ c (Proc.devRef .tc r) = m ((c : Thread nD τ).loc r) := rfl

/-- A reference neither the first line nor the first region writes holds, at the first region's exit, what was launched. -/
theorem W2_launch (c : Dev nD) (r : Ref sig .tc) (h0 : r ∉ wr0) (a0 : ∀ w, Pipeline.arrRef spec0 w ≠ r) :
    W2 (F := Ideal) m ρ c (Proc.devRef .tc r) = m ((c : Thread nD τ).loc r) :=
  (W2_of_ne m ρ c r a0).trans (W1_keep m ρ c r h0)

theorem W3_launch (c : Dev nD) (r : Ref sig .tc) (h0 : r ∉ wr0) (a0 : ∀ w, Pipeline.arrRef spec0 w ≠ r) (h1 : r ∉ wr1) :
    W3 (F := Ideal) m ρ c (Proc.devRef .tc r) = m ((c : Thread nD τ).loc r) :=
  (W3_keep m ρ c r h1).trans (W2_launch m ρ c r h0 a0)

theorem W4_launch (c : Dev nD) (r : Ref sig .tc) (h0 : r ∉ wr0) (a0 : ∀ w, Pipeline.arrRef spec0 w ≠ r) (h1 : r ∉ wr1)
    (a1 : ∀ w, Pipeline.arrRef spec1 w ≠ r) :
    W4 (F := Ideal) m ρ c (Proc.devRef .tc r) = m ((c : Thread nD τ).loc r) :=
  (W4_of_ne m ρ c r a1).trans (W3_launch m ρ c r h0 a0 h1)

theorem W5_launch (c : Dev nD) (r : Ref sig .tc) (h0 : r ∉ wr0) (a0 : ∀ w, Pipeline.arrRef spec0 w ≠ r) (h1 : r ∉ wr1)
    (a1 : ∀ w, Pipeline.arrRef spec1 w ≠ r) (h2 : r ∉ wr2) :
    W5 (F := Ideal) m ρ c (Proc.devRef .tc r) = m ((c : Thread nD τ).loc r) :=
  (W5_keep m ρ c r h2).trans (W4_launch m ρ c r h0 a0 h1 a1)

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## What the first region is entered with -/

theorem V1_v18 (c : Dev nD) : V1 (F := Ideal) m ρ c main_v18
    = KAgg.agg1 (F := Ideal) (m ((c : Thread nD τ).loc main_arg0)) (m ((c : Thread nD τ).loc main_arg1)) (m ((c : Thread nD τ).loc main_arg3)) := by
  show StableHlo.after hostOps0 (W0 m ρ c) (Proc.devRef .tc main_v18) = _
  after_results
  rfl

theorem V1_v4 (c : Dev nD) : (V1 (F := Ideal) m ρ c main_v4 : Spec.Mat 100000 64) = m ((c : Thread nD τ).loc main_arg0) := by
  show StableHlo.after hostOps0 (W0 m ρ c) (Proc.devRef .tc main_v4) = _
  after_results
  rfl

theorem V1_v19 (c : Dev nD) (q : Fin 128) :
    V1 (F := Ideal) m ρ c main_v19 (ix2 (0 : Fin 1) q) = m ((c : Thread nD τ).loc main_arg5) (ix1 q) := by
  show StableHlo.after hostOps0 (W0 m ρ c) (Proc.devRef .tc main_v19) (ix2 (0 : Fin 1) q) = _
  after_results
  exact shapeCast_a_1a_apply _ _ 0 q

theorem V1_arg4 (c : Dev nD) : V1 (F := Ideal) m ρ c main_arg4 = m ((c : Thread nD τ).loc main_arg4) :=
  W1_keep m ρ c main_arg4 (by decide)
theorem V1_arg6 (c : Dev nD) : V1 (F := Ideal) m ρ c main_arg6 = m ((c : Thread nD τ).loc main_arg6) :=
  W1_keep m ρ c main_arg6 (by decide)

/-! ## What the second region is entered with -/

/- From here on the contents at a region's exit and the fold of a line of host operations are used through their
   lemmas only: two reads at different references are then told apart at once. -/
attribute [local irreducible] W2 W4 W6 StableHlo.after

theorem W2_v1 (c : Dev nD) : W2 (F := Ideal) m ρ c (Proc.devRef .tc main_v1) = KAgg.src (F := Ideal) (m ((c : Thread nD τ).loc main_arg1)) := by
  refine (W2_of_ne m ρ c main_v1 (by decide)).trans ?_
  show StableHlo.after hostOps0 (W0 m ρ c) (Proc.devRef .tc main_v1) = _
  after_results
  rfl

theorem W2_v3 (c : Dev nD) : W2 (F := Ideal) m ρ c (Proc.devRef .tc main_v3) = KAgg.dst (F := Ideal) (m ((c : Thread nD τ).loc main_arg1)) := by
  refine (W2_of_ne m ρ c main_v3 (by decide)).trans ?_
  show StableHlo.after hostOps0 (W0 m ρ c) (Proc.devRef .tc main_v3) = _
  after_results
  rfl

theorem W2_v4 (c : Dev nD) : (W2 (F := Ideal) m ρ c (Proc.devRef .tc main_v4) : Spec.Mat 100000 64) = m ((c : Thread nD τ).loc main_arg0) :=
  ((W2_arr m ρ c 1).trans (((dat0 (V1 m ρ) c).arrAt_in 1 rfl _).trans (A_eq0 (V1 m ρ) c 1))).trans (V1_v4 m ρ c)

theorem W2_v20 (c : Dev nD) : W2 (F := Ideal) m ρ c (Proc.devRef .tc main_v20) = (dat0 (V1 m ρ) c).arrAt 5 cfg0.N := W2_arr m ρ c 5

theorem W2_arg3 (c : Dev nD) : W2 (F := Ideal) m ρ c (Proc.devRef .tc main_arg3) = m ((c : Thread nD τ).loc main_arg3) :=
  W2_launch m ρ c main_arg3 (by decide) (by decide)

theorem V3_v34 (c : Dev nD) : V3 (F := Ideal) m ρ c main_v34
    = KAgg.agg2 (F := Ideal) ((dat0 (V1 m ρ) c).arrAt 5 cfg0.N) (m ((c : Thread nD τ).loc main_arg1)) (m ((c : Thread nD τ).loc main_arg3)) := by
  show StableHlo.after hostOps1 (W2 m ρ c) (Proc.devRef .tc main_v34) = _
  after_results_simp
  rw [W2_v1]
  rw [W2_v3]
  rw [W2_v20]
  rw [W2_arg3]
  rfl

theorem V3_v20 (c : Dev nD) : V3 (F := Ideal) m ρ c main_v20 = (dat0 (V1 m ρ) c).arrAt 5 cfg0.N :=
  (W3_keep m ρ c main_v20 (by decide)).trans (W2_arr m ρ c 5)

theorem V3_v4 (c : Dev nD) : (V3 (F := Ideal) m ρ c main_v4 : Spec.Mat 100000 64) = m ((c : Thread nD τ).loc main_arg0) :=
  (W3_keep m ρ c main_v4 (by decide)).trans (W2_v4 m ρ c)

theorem V3_arg7 (c : Dev nD) : V3 (F := Ideal) m ρ c main_arg7 = m ((c : Thread nD τ).loc main_arg7) :=
  W3_launch m ρ c main_arg7 (by decide) (by decide) (by decide)
theorem V3_arg9 (c : Dev nD) : V3 (F := Ideal) m ρ c main_arg9 = m ((c : Thread nD τ).loc main_arg9) :=
  W3_launch m ρ c main_arg9 (by decide) (by decide) (by decide)

theorem V3_v35 (c : Dev nD) (n : Fin 100000) :
    V3 (F := Ideal) m ρ c main_v35 (ix2 n (0 : Fin 1)) = m ((c : Thread nD τ).loc main_arg2) (ix1 n) := by
  show StableHlo.after hostOps1 (W2 m ρ c) (Proc.devRef .tc main_v35) (ix2 n (0 : Fin 1)) = _
  after_results_simp
  rw [W2_launch m ρ c main_arg2 (by decide) (by decide)]
  exact shapeCast_a_a1_apply _ _ n 0

theorem V3_v36 (c : Dev nD) : V3 (F := Ideal) m ρ c main_v36 = Spec.topRows (m ((c : Thread nD τ).loc main_arg10)) := by
  show StableHlo.after hostOps1 (W2 m ρ c) (Proc.devRef .tc main_v36) = _
  after_results_simp
  rw [W2_launch m ρ c main_arg10 (by decide) (by decide)]
  funext i
  obtain ⟨a, b, rfl⟩ : ∃ (a : Fin 128) (b : Fin 128), i = ix2 a b := ⟨i 0, i 1, eq_ix2 i⟩
  exact slice2_axis0_apply 0 _ _ a b _ (Nat.zero_add _).symm

theorem V3_v37 (c : Dev nD) : V3 (F := Ideal) m ρ c main_v37 = Spec.botRows (m ((c : Thread nD τ).loc main_arg10)) := by
  show StableHlo.after hostOps1 (W2 m ρ c) (Proc.devRef .tc main_v37) = _
  after_results_simp
  rw [W2_launch m ρ c main_arg10 (by decide) (by decide)]
  funext i
  obtain ⟨a, b, rfl⟩ : ∃ (a : Fin 64) (b : Fin 128), i = ix2 a b := ⟨i 0, i 1, eq_ix2 i⟩
  exact slice2_axis0_apply 128 _ _ a b _ rfl

theorem V3_v38 (c : Dev nD) : V3 (F := Ideal) m ρ c main_v38 = Spec.topRows (m ((c : Thread nD τ).loc main_arg12)) := by
  show StableHlo.after hostOps1 (W2 m ρ c) (Proc.devRef .tc main_v38) = _
  after_results_simp
  rw [W2_launch m ρ c main_arg12 (by decide) (by decide)]
  funext i
  obtain ⟨a, b, rfl⟩ : ∃ (a : Fin 128) (b : Fin 128), i = ix2 a b := ⟨i 0, i 1, eq_ix2 i⟩
  exact slice2_axis0_apply 0 _ _ a b _ (Nat.zero_add _).symm

theorem V3_v39 (c : Dev nD) : V3 (F := Ideal) m ρ c main_v39 = Spec.botRows (m ((c : Thread nD τ).loc main_arg12)) := by
  show StableHlo.after hostOps1 (W2 m ρ c) (Proc.devRef .tc main_v39) = _
  after_results_simp
  rw [W2_launch m ρ c main_arg12 (by decide) (by decide)]
  funext i
  obtain ⟨a, b, rfl⟩ : ∃ (a : Fin 64) (b : Fin 128), i = ix2 a b := ⟨i 0, i 1, eq_ix2 i⟩
  exact slice2_axis0_apply 128 _ _ a b _ rfl

theorem V3_v40 (c : Dev nD) (q : Fin 128) :
    V3 (F := Ideal) m ρ c main_v40 (ix2 (0 : Fin 1) q) = m ((c : Thread nD τ).loc main_arg8) (ix1 q) := by
  show StableHlo.after hostOps1 (W2 m ρ c) (Proc.devRef .tc main_v40) (ix2 (0 : Fin 1) q) = _
  after_results_simp
  rw [W2_launch m ρ c main_arg8 (by decide) (by decide)]
  exact shapeCast_a_1a_apply _ _ 0 q

theorem V3_v41 (c : Dev nD) (q : Fin 128) :
    V3 (F := Ideal) m ρ c main_v41 (ix2 (0 : Fin 1) q) = m ((c : Thread nD τ).loc main_arg11) (ix1 q) := by
  show StableHlo.after hostOps1 (W2 m ρ c) (Proc.devRef .tc main_v41) (ix2 (0 : Fin 1) q) = _
  after_results_simp
  rw [W2_launch m ρ c main_arg11 (by decide) (by decide)]
  exact shapeCast_a_1a_apply _ _ 0 q

theorem V3_v42 (c : Dev nD) (q : Fin 128) :
    V3 (F := Ideal) m ρ c main_v42 (ix2 (0 : Fin 1) q) = m ((c : Thread nD τ).loc main_arg13) (ix1 q) := by
  show StableHlo.after hostOps1 (W2 m ρ c) (Proc.devRef .tc main_v42) (ix2 (0 : Fin 1) q) = _
  after_results_simp
  rw [W2_launch m ρ c main_arg13 (by decide) (by decide)]
  exact shapeCast_a_1a_apply _ _ 0 q

/-! ## What the third region is entered with -/

theorem V5_v43 (c : Dev nD) : V5 (F := Ideal) m ρ c main_v43 = (dat1 (V3 m ρ) c).arrAt 13 cfg1.N :=
  (W5_keep m ρ c main_v43 (by decide)).trans (W4_arr m ρ c 13)

theorem V5_arg14 (c : Dev nD) : V5 (F := Ideal) m ρ c main_arg14 = m ((c : Thread nD τ).loc main_arg14) :=
  W5_launch m ρ c main_arg14 (by decide) (by decide) (by decide) (by decide) (by decide)
theorem V5_arg16 (c : Dev nD) : V5 (F := Ideal) m ρ c main_arg16 = m ((c : Thread nD τ).loc main_arg16) :=
  W5_launch m ρ c main_arg16 (by decide) (by decide) (by decide) (by decide) (by decide)
theorem V5_arg18 (c : Dev nD) : V5 (F := Ideal) m ρ c main_arg18 = m ((c : Thread nD τ).loc main_arg18) :=
  W5_launch m ρ c main_arg18 (by decide) (by decide) (by decide) (by decide) (by decide)

theorem V5_v44 (c : Dev nD) (q : Fin 128) :
    V5 (F := Ideal) m ρ c main_v44 (ix2 (0 : Fin 1) q) = m ((c : Thread nD τ).loc main_arg15) (ix1 q) := by
  show StableHlo.after hostOps2 (W4 m ρ c) (Proc.devRef .tc main_v44) (ix2 (0 : Fin 1) q) = _
  after_results_simp
  rw [W4_launch m ρ c main_arg15 (by decide) (by decide) (by decide) (by decide)]
  exact shapeCast_a_1a_apply _ _ 0 q

theorem V5_v45 (c : Dev nD) (q : Fin 258) :
    V5 (F := Ideal) m ρ c main_v45 (ix2 (0 : Fin 1) q) = m ((c : Thread nD τ).loc main_arg17) (ix1 q) := by
  show StableHlo.after hostOps2 (W4 m ρ c) (Proc.devRef .tc main_v45) (ix2 (0 : Fin 1) q) = _
  after_results_simp
  rw [W4_launch m ρ c main_arg17 (by decide) (by decide) (by decide) (by decide)]
  exact shapeCast_a_1a_apply _ _ 0 q

theorem V5_v46 (c : Dev nD) (q : Fin 1) :
    V5 (F := Ideal) m ρ c main_v46 (ix2 (0 : Fin 1) q) = m ((c : Thread nD τ).loc main_arg19) (ix1 q) := by
  show StableHlo.after hostOps2 (W4 m ρ c) (Proc.devRef .tc main_v46) (ix2 (0 : Fin 1) q) = _
  after_results_simp
  rw [W4_launch m ρ c main_arg19 (by decide) (by decide) (by decide) (by decide)]
  exact shapeCast_a_1a_apply _ _ 0 q

/-! ## The reshaped bias rows and graph ids as functions of one coordinate -/

theorem V1_v19f (c : Dev nD) : (fun q : Fin 128 => V1 (F := Ideal) m ρ c main_v19 (ix2 (0 : Fin 1) q)) = fun q => (m ((c : Thread nD τ).loc main_arg5)) (ix1 q) :=
  funext (V1_v19 m ρ c)
theorem V3_v35f (c : Dev nD) : (fun n : Fin 100000 => V3 (F := Ideal) m ρ c main_v35 (ix2 n (0 : Fin 1))) = fun n => (m ((c : Thread nD τ).loc main_arg2)) (ix1 n) :=
  funext (V3_v35 m ρ c)
theorem V3_v40f (c : Dev nD) : (fun q : Fin 128 => V3 (F := Ideal) m ρ c main_v40 (ix2 (0 : Fin 1) q)) = fun q => (m ((c : Thread nD τ).loc main_arg8)) (ix1 q) :=
  funext (V3_v40 m ρ c)
theorem V3_v41f (c : Dev nD) : (fun q : Fin 128 => V3 (F := Ideal) m ρ c main_v41 (ix2 (0 : Fin 1) q)) = fun q => (m ((c : Thread nD τ).loc main_arg11)) (ix1 q) :=
  funext (V3_v41 m ρ c)
theorem V3_v42f (c : Dev nD) : (fun q : Fin 128 => V3 (F := Ideal) m ρ c main_v42 (ix2 (0 : Fin 1) q)) = fun q => (m ((c : Thread nD τ).loc main_arg13)) (ix1 q) :=
  funext (V3_v42 m ρ c)
theorem V5_v44f (c : Dev nD) : (fun q : Fin 128 => V5 (F := Ideal) m ρ c main_v44 (ix2 (0 : Fin 1) q)) = fun q => (m ((c : Thread nD τ).loc main_arg15)) (ix1 q) :=
  funext (V5_v44 m ρ c)
theorem V5_v45f (c : Dev nD) : (fun q : Fin 258 => V5 (F := Ideal) m ρ c main_v45 (ix2 (0 : Fin 1) q)) = fun q => (m ((c : Thread nD τ).loc main_arg17)) (ix1 q) :=
  funext (V5_v45 m ρ c)
theorem V5_v46f (c : Dev nD) : (fun q : Fin 1 => V5 (F := Ideal) m ρ c main_v46 (ix2 (0 : Fin 1) q)) = fun q => (m ((c : Thread nD τ).loc main_arg19)) (ix1 q) :=
  funext (V5_v46 m ρ c)

end Cert.Proof.KernelValue

end
-- ==== Proof.KernelValue.lean ====
/-
  The kernel program's result array as the network of its arguments: the three regions' arrays chained through
  the host operations between them.
-/
import proofs.«401727_j32504312496833_2_alg».proof.Proof.Gen.KernelIdeal.Frame
import proofs.«401727_j32504312496833_2_alg».proof.Proof.Spec
import proofs.«401727_j32504312496833_2_alg».proof.Proof.KAgg
import proofs.«401727_j32504312496833_2_alg».proof.Proof.Region0
import proofs.«401727_j32504312496833_2_alg».proof.Proof.Region1
import proofs.«401727_j32504312496833_2_alg».proof.Proof.Region2
import proofs.«401727_j32504312496833_2_alg».proof.Proof.KernelValueEntry
import Idealize.ShloMosaic.Lib.Pipeline.Value
import Idealize.ShloMosaic.Lib.ValueIdx
import Idealize.ShloMosaic.Lib.StableHlo.Run

noncomputable section

namespace Cert.Proof.KernelValue

open Cert.KernelIdeal Cert.KernelIdeal.Gen Idealize.ShloMosaic Idealize.ShloMosaic.ValueIdx Idealize.ShloMosaic.TcCoe

variable (m : (ℓ : Loc nD τ sig) → Buf (Elt Ideal) ℓ) (ρ : Dev nD → PrngReg)

/- The contents at a region's exit and the fold of a line of host operations are used through their lemmas only:
   two reads at different references are then told apart at once. -/
attribute [local irreducible] W2 W4 W6 StableHlo.after

/-- The first hidden layer of the network, of the launch arguments. -/
def hid1 (c : Dev nD) : Spec.Mat 100000 128 :=
  Spec.conv (KAgg.agg1 (F := Ideal) (m ((c : Thread nD τ).loc main_arg0)) (m ((c : Thread nD τ).loc main_arg1)) (m ((c : Thread nD τ).loc main_arg3))) (m ((c : Thread nD τ).loc main_arg0)) (m ((c : Thread nD τ).loc main_arg4)) (m ((c : Thread nD τ).loc main_arg6)) (fun q => (m ((c : Thread nD τ).loc main_arg5)) (ix1 q))

/-- The pooled gate of the second hidden layer, of the launch arguments. -/
def pooled (c : Dev nD) : Spec.Mat 256 128 :=
  Spec.pool (fun n => (m ((c : Thread nD τ).loc main_arg2)) (ix1 n))
    (Spec.gate (Spec.conv (KAgg.agg2 (F := Ideal) (hid1 m c) (m ((c : Thread nD τ).loc main_arg1)) (m ((c : Thread nD τ).loc main_arg3))) (hid1 m c) (m ((c : Thread nD τ).loc main_arg7)) (m ((c : Thread nD τ).loc main_arg9)) (fun q => (m ((c : Thread nD τ).loc main_arg8)) (ix1 q)))
      (m ((c : Thread nD τ).loc main_arg0)) (Spec.topRows (m ((c : Thread nD τ).loc main_arg10))) (Spec.botRows (m ((c : Thread nD τ).loc main_arg10))) (Spec.topRows (m ((c : Thread nD τ).loc main_arg12))) (Spec.botRows (m ((c : Thread nD τ).loc main_arg12)))
      (fun q => (m ((c : Thread nD τ).loc main_arg11)) (ix1 q)) (fun q => (m ((c : Thread nD τ).loc main_arg13)) (ix1 q)))

/-- The first region leaves the first hidden layer. -/
theorem region0_launch (c : Dev nD) : (dat0 (F := Ideal) (V1 m ρ) c).arrAt 5 cfg0.N = hid1 m c := by
  have h := Region0.region0_value (V1 m ρ) c
  rw [V1_v18, V1_v4, V1_arg4, V1_arg6, V1_v19f] at h
  exact h

/-- The second region leaves the pooled gate. -/
theorem region1_launch (c : Dev nD) : (dat1 (F := Ideal) (V3 m ρ) c).arrAt 13 cfg1.N = pooled m c := by
  have h := Region1.region1_value (V3 m ρ) c
  rw [V3_v34, V3_v20, V3_v4, V3_arg7, V3_arg9, V3_v36, V3_v37, V3_v38, V3_v39, V3_v35f, V3_v40f, V3_v41f, V3_v42f, region0_launch] at h
  exact h

/-- The third region leaves the head of the network. -/
theorem region2_launch (c : Dev nD) : (dat2 (F := Ideal) (V5 m ρ) c).arrAt 7 cfg2.N
    = Spec.mlp (pooled m c) (m ((c : Thread nD τ).loc main_arg14)) (fun q => (m ((c : Thread nD τ).loc main_arg15)) (ix1 q)) (m ((c : Thread nD τ).loc main_arg16)) (fun q => (m ((c : Thread nD τ).loc main_arg17)) (ix1 q)) (m ((c : Thread nD τ).loc main_arg18)) (fun q => (m ((c : Thread nD τ).loc main_arg19)) (ix1 q)) := by
  have h := Region2.region2_value (V5 m ρ) c
  rw [V5_v43, V5_arg14, V5_arg16, V5_arg18, V5_v44f, V5_v45f, V5_v46f, region1_launch] at h
  exact h

/-- The network of the launch arguments, with the kernel program's own message aggregation. -/
def out (c : Dev nD) : Spec.Mat 256 1 :=
  Spec.net (KAgg.agg1 (F := Ideal) (m ((c.tc : Thread nD τ).loc main_arg0)) (m ((c.tc : Thread nD τ).loc main_arg1)) (m ((c.tc : Thread nD τ).loc main_arg3))) (fun h => KAgg.agg2 (F := Ideal) h (m ((c.tc : Thread nD τ).loc main_arg1)) (m ((c.tc : Thread nD τ).loc main_arg3)))
    (m ((c.tc : Thread nD τ).loc main_arg0)) (fun n => (m ((c.tc : Thread nD τ).loc main_arg2)) (ix1 n)) (m ((c.tc : Thread nD τ).loc main_arg4)) (m ((c.tc : Thread nD τ).loc main_arg6)) (fun q => (m ((c.tc : Thread nD τ).loc main_arg5)) (ix1 q)) (m ((c.tc : Thread nD τ).loc main_arg7)) (m ((c.tc : Thread nD τ).loc main_arg9)) (fun q => (m ((c.tc : Thread nD τ).loc main_arg8)) (ix1 q)) (m ((c.tc : Thread nD τ).loc main_arg10)) (m ((c.tc : Thread nD τ).loc main_arg12)) (fun q => (m ((c.tc : Thread nD τ).loc main_arg11)) (ix1 q)) (fun q => (m ((c.tc : Thread nD τ).loc main_arg13)) (ix1 q)) (m ((c.tc : Thread nD τ).loc main_arg14)) (fun q => (m ((c.tc : Thread nD τ).loc main_arg15)) (ix1 q)) (m ((c.tc : Thread nD τ).loc main_arg16)) (fun q => (m ((c.tc : Thread nD τ).loc main_arg17)) (ix1 q)) (m ((c.tc : Thread nD τ).loc main_arg18)) (fun q => (m ((c.tc : Thread nD τ).loc main_arg19)) (ix1 q))

/-- What the last region's write-backs leave in the result array is the network of the arguments. -/
theorem kernel_value (c : Dev nD) : W6 (F := Ideal) m ρ c (Proc.devRef .tc main_v47) = out m c := by
  refine (W6_arr m ρ c 7).trans ?_
  rw [region2_launch]
  rfl

end Cert.Proof.KernelValue

end
-- ==== Proof.RunP.lean ====
/-
  The reference program's run read back.  The generated run module states the result as one long literal term,
  which does not elaborate; here the result is stated as the last stage of the reading of @main one operation
  at a time, and it is read back segment by segment: the 128 operations are cut after the values that later
  operations read more than once, and each segment's results are stages of the values the segment found.  No
  operation writes an argument, so each argument's buffer ends as it started.
-/
import proofs.«401727_j32504312496833_2_alg».proof.Proof.RunPre
import proofs.«401727_j32504312496833_2_alg».proof.Proof.ReadP
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- main_v101's value: the last stage of the reading of @main one operation at a time, at the launch arguments. -/
def res_main_v101 (m : (ℓ : Loc nD τ sig) → Buf (Elt F) ℓ) (c : Dev nD) : Buf (Elt F) ((c.tc : Thread nD τ).loc main_v101) :=
  Cert.ReferenceIdeal.Read.val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

/-- res_main_v101 by its position among the values @main returns. -/
abbrev res_out0 (m : (ℓ : Loc nD τ sig) → Buf (Elt F) ℓ) (c : Dev nD) : Buf (Elt F) ((c.tc : Thread nD τ).loc main_v101) := res_main_v101 m c

/-- The result's name is the last stage at the launch arguments. -/
theorem _root_.Cert.ReferenceIdeal.Read.val_main_v101_eq (m : (ℓ : Loc nD τ sig) → Buf (Elt F) ℓ) (c : Dev nD) :
    res_main_v101 m c = Cert.ReferenceIdeal.Read.val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := rfl

/-! ## The operations in 8 segments -/

/-- Operations 0 to 25. -/
abbrev seg1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v11 (broadcastInDim S1600000x1 ![0] bcast_S1600000_S1600000x1_0 : (⟨S1600000, .f32⟩ : BufTy).Contents (Elt F) → (⟨S1600000x1, .f32⟩ : BufTy).Contents (Elt F)),
    unary main_v11 main_v12 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v12 main_v13 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v14 (broadcastInDim S100000x64 ![] bcast_S_S100000x64 : (⟨S_, .f32⟩ : BufTy).Contents (Elt F) → (⟨S100000x64, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v16 main_arg4 main_v17 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg5 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v17 main_v19 main_v20 (addf : (⟨S100000x128, .f32⟩ : BufTy).Contents (Elt F) → (⟨S100000x128, .f32⟩ : BufTy).Contents (Elt F) → (⟨S100000x128, .f32⟩ : BufTy).Contents (Elt F)),
    binary main_arg0 main_arg6 main_v21 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v20 main_v21 main_v22 (addf : (⟨S100000x128, .f32⟩ : BufTy).Contents (Elt F) → (⟨S100000x128, .f32⟩ : BufTy).Contents (Elt F) → (⟨S100000x128, .f32⟩ : BufTy).Contents (Elt F)) ]

/-- Operations 26 to 32. -/
abbrev seg2 : List (HloOp τ sig (Elt F)) :=
  [ nullary main_cst_1 (constant S_ .f32 0x00000000#32),
    unary main_cst_1 main_v23 (broadcastInDim S100000x128 ![] bcast_S_S100000x128 : (⟨S_, .f32⟩ : BufTy).Contents (Elt F) → (⟨S100000x128, .f32⟩ : BufTy).Contents (Elt F)),
    binary main_v22 main_v23 main_v24 (cmpf .ogt : (⟨S100000x128, .f32⟩ : BufTy).Contents (Elt F) → (⟨S100000x128, .f32⟩ : BufTy).Contents (Elt F) → (⟨S100000x128, .i1⟩ : BufTy).Contents (Elt F)),
    nullary main_cst_2 (constant S_ .f32 0x3D4CCCCD#32),
    unary main_cst_2 main_v25 (broadcastInDim S100000x128 ![] bcast_S_S100000x128 : (⟨S_, .f32⟩ : BufTy).Contents (Elt F) → (⟨S100000x128, .f32⟩ : BufTy).Contents (Elt F)),
    binary main_v25 main_v22 main_v26 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v24) (TRef.of (T := ⟨S100000x128, .f32⟩) main_v22) (TRef.of (T := ⟨S100000x128, .f32⟩) main_v26) (TRef.of (T := ⟨S100000x128, .f32⟩) main_v27) select ]

/-- Operations 33 to 54. -/
abbrev seg3 : List (HloOp τ sig (Elt F)) :=
  [ nullary main_c_3 (constantI S_ 32 0#32),
    unary main_c_3 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v27 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v35 (broadcastInDim S1600000x1 ![0] bcast_S1600000_S1600000x1_0 : (⟨S1600000, .f32⟩ : BufTy).Contents (Elt F) → (⟨S1600000x1, .f32⟩ : BufTy).Contents (Elt F)),
    unary main_v35 main_v36 (broadcastInDim S1600000x128 ![0, 1] bcast_S1600000x1_S1600000x128_0_1 : (⟨S1600000x1, .f32⟩ : BufTy).Contents (Elt F) → (⟨S1600000x128, .f32⟩ : BufTy).Contents (Elt F)),
    binary main_v34 main_v36 main_v37 (mulf : (⟨S1600000x128, .f32⟩ : BufTy).Contents (Elt F) → (⟨S1600000x128, .f32⟩ : BufTy).Contents (Elt F) → (⟨S1600000x128, .f32⟩ : BufTy).Contents (Elt F)),
    nullary main_cst_5 (constant S_ .f32 0x00000000#32),
    unary main_cst_5 main_v38 (broadcastInDim S100000x128 ![] bcast_S_S100000x128 : (⟨S_, .f32⟩ : BufTy).Contents (Elt F) → (⟨S100000x128, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v40 main_arg7 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (addf : (⟨S100000x128, .f32⟩ : BufTy).Contents (Elt F) → (⟨S100000x128, .f32⟩ : BufTy).Contents (Elt F) → (⟨S100000x128, .f32⟩ : BufTy).Contents (Elt F)),
    binary main_v27 main_arg9 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v44 main_v45 main_v46 (addf : (⟨S100000x128, .f32⟩ : BufTy).Contents (Elt F) → (⟨S100000x128, .f32⟩ : BufTy).Contents (Elt F) → (⟨S100000x128, .f32⟩ : BufTy).Contents (Elt F)) ]

/-- Operations 55 to 62. -/
abbrev seg4 : List (HloOp τ sig (Elt F)) :=
  [ nullary main_cst_6 (constant S_ .f32 0x00000000#32),
    unary main_cst_6 main_v47 (broadcastInDim S100000x128 ![] bcast_S_S100000x128 : (⟨S_, .f32⟩ : BufTy).Contents (Elt F) → (⟨S100000x128, .f32⟩ : BufTy).Contents (Elt F)),
    binary main_v46 main_v47 main_v48 (cmpf .ogt : (⟨S100000x128, .f32⟩ : BufTy).Contents (Elt F) → (⟨S100000x128, .f32⟩ : BufTy).Contents (Elt F) → (⟨S100000x128, .i1⟩ : BufTy).Contents (Elt F)),
    nullary main_cst_7 (constant S_ .f32 0x3D4CCCCD#32),
    unary main_cst_7 main_v49 (broadcastInDim S100000x128 ![] bcast_S_S100000x128 : (⟨S_, .f32⟩ : BufTy).Contents (Elt F) → (⟨S100000x128, .f32⟩ : BufTy).Contents (Elt F)),
    binary main_v49 main_v46 main_v50 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v48) (TRef.of (T := ⟨S100000x128, .f32⟩) main_v46) (TRef.of (T := ⟨S100000x128, .f32⟩) main_v50) (TRef.of (T := ⟨S100000x128, .f32⟩) main_v51) select,
    binary main_v51 main_arg0 main_v52 ((fun a b => concatenate S100000x192 1 [⟨S100000x128, a⟩, ⟨S100000x64, b⟩] concatenates_S100000x128_S100000x64_S100000x192_d1) : (⟨S100000x128, .f32⟩ : BufTy).Contents (Elt F) → (⟨S100000x64, .f32⟩ : BufTy).Contents (Elt F) → (⟨S100000x192, .f32⟩ : BufTy).Contents (Elt F)) ]

/-- Operations 63 to 89. -/
abbrev seg5 : List (HloOp τ sig (Elt F)) :=
  [ binary main_v52 main_arg10 main_v53 ((fun l r => Host.dotGeneral dot_S100000x192_S192x128_S100000x128_1_0_0_1_n_n none l r) : (⟨S100000x192, .f32⟩ : BufTy).Contents (Elt F) → (⟨S192x128, .f32⟩ : BufTy).Contents (Elt F) → (⟨S100000x128, .f32⟩ : BufTy).Contents (Elt F)),
    unary main_arg11 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v53 main_v55 main_v56 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0xC1F00000#32),
    nullary main_cst_9 (constant S_ .f32 0x41F00000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S100000x128, .f32⟩) main_call2_v1) (broadcastInDim S100000x128 ![] bcast_S_S100000x128),
    TRef.binary (TRef.of (T := ⟨S100000x128, .f32⟩) main_call2_v1) (TRef.of (T := ⟨S100000x128, .f32⟩) main_v56) (TRef.of (T := ⟨S100000x128, .f32⟩) main_call2_v2) maximumf,
    TRef.unary (TRef.of (T := ⟨S_, .f32⟩) main_cst_9) (TRef.of (T := ⟨S_, .f32⟩) main_call2_v3) id,
    TRef.unary (TRef.of (T := ⟨S_, .f32⟩) main_call2_v3) (TRef.of (T := ⟨S100000x128, .f32⟩) main_call2_v4) (broadcastInDim S100000x128 ![] bcast_S_S100000x128),
    TRef.binary (TRef.of (T := ⟨S100000x128, .f32⟩) main_call2_v4) (TRef.of (T := ⟨S100000x128, .f32⟩) main_call2_v2) (TRef.of (T := ⟨S100000x128, .f32⟩) main_v57) minimumf,
    unary main_v57 main_v58 (Host.negf : (⟨S100000x128, .f32⟩ : BufTy).Contents (Elt F) → (⟨S100000x128, .f32⟩ : BufTy).Contents (Elt F)),
    unary main_v58 main_v59 (Host.negf : (⟨S100000x128, .f32⟩ : BufTy).Contents (Elt F) → (⟨S100000x128, .f32⟩ : BufTy).Contents (Elt F)),
    unary main_v59 main_v60 (Host.exp : (⟨S100000x128, .f32⟩ : BufTy).Contents (Elt F) → (⟨S100000x128, .f32⟩ : BufTy).Contents (Elt F)),
    nullary main_cst_10 (constant S_ .f32 0x3F800000#32),
    unary main_cst_10 main_v61 (broadcastInDim S100000x128 ![] bcast_S_S100000x128 : (⟨S_, .f32⟩ : BufTy).Contents (Elt F) → (⟨S100000x128, .f32⟩ : BufTy).Contents (Elt F)),
    binary main_v61 main_v60 main_v62 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3F800000#32),
    unary main_cst_11 main_v63 (broadcastInDim S100000x128 ![] bcast_S_S100000x128 : (⟨S_, .f32⟩ : BufTy).Contents (Elt F) → (⟨S100000x128, .f32⟩ : BufTy).Contents (Elt F)),
    binary main_v63 main_v62 main_v64 (Host.divf : (⟨S100000x128, .f32⟩ : BufTy).Contents (Elt F) → (⟨S100000x128, .f32⟩ : BufTy).Contents (Elt F) → (⟨S100000x128, .f32⟩ : BufTy).Contents (Elt F)),
    binary main_v52 main_arg12 main_v65 ((fun l r => Host.dotGeneral dot_S100000x192_S192x128_S100000x128_1_0_0_1_n_n none l r) : (⟨S100000x192, .f32⟩ : BufTy).Contents (Elt F) → (⟨S192x128, .f32⟩ : BufTy).Contents (Elt F) → (⟨S100000x128, .f32⟩ : BufTy).Contents (Elt F)),
    unary main_arg13 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    unary main_v68 main_v69 (Host.tanh : (⟨S100000x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)) ]

/-- Operations 90 to 97. -/
abbrev seg6 : List (HloOp τ sig (Elt F)) :=
  [ nullary main_cst_12 (constant S_ .f32 0x00000000#32),
    unary main_cst_12 main_v71 (broadcastInDim S256x128 ![] bcast_S_S256x128 : (⟨S_, .f32⟩ : BufTy).Contents (Elt F) → (⟨S256x128, .f32⟩ : BufTy).Contents (Elt F)),
    unary main_arg2 main_v72 (broadcastInDim S100000x1 ![0] bcast_S100000_S100000x1_0 : (⟨S100000, .i32⟩ : BufTy).Contents (Elt F) → (⟨S100000x1, .i32⟩ : BufTy).Contents (Elt F)),
    ternary main_v71 main_v72 main_v70 main_v73 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    binary main_v73 main_arg14 main_v74 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg15 main_v75 (broadcastInDim S1x128 ![1] bcast_S128_S1x128_1 : (⟨S128, .f32⟩ : BufTy).Contents (Elt F) → (⟨S1x128, .f32⟩ : BufTy).Contents (Elt F)),
    unary main_v75 main_v76 (broadcastInDim S256x128 ![0, 1] bcast_S1x128_S256x128_0_1 : (⟨S1x128, .f32⟩ : BufTy).Contents (Elt F) → (⟨S256x128, .f32⟩ : BufTy).Contents (Elt F)),
    binary main_v74 main_v76 main_v77 (addf : (⟨S256x128, .f32⟩ : BufTy).Contents (Elt F) → (⟨S256x128, .f32⟩ : BufTy).Contents (Elt F) → (⟨S256x128, .f32⟩ : BufTy).Contents (Elt F)) ]

/-- Operations 98 to 108. -/
abbrev seg7 : List (HloOp τ sig (Elt F)) :=
  [ nullary main_cst_13 (constant S_ .f32 0x00000000#32),
    unary main_cst_13 main_v78 (broadcastInDim S256x128 ![] bcast_S_S256x128 : (⟨S_, .f32⟩ : BufTy).Contents (Elt F) → (⟨S256x128, .f32⟩ : BufTy).Contents (Elt F)),
    binary main_v77 main_v78 main_v79 (cmpf .ogt : (⟨S256x128, .f32⟩ : BufTy).Contents (Elt F) → (⟨S256x128, .f32⟩ : BufTy).Contents (Elt F) → (⟨S256x128, .i1⟩ : BufTy).Contents (Elt F)),
    nullary main_cst_14 (constant S_ .f32 0x3D4CCCCD#32),
    unary main_cst_14 main_v80 (broadcastInDim S256x128 ![] bcast_S_S256x128 : (⟨S_, .f32⟩ : BufTy).Contents (Elt F) → (⟨S256x128, .f32⟩ : BufTy).Contents (Elt F)),
    binary main_v80 main_v77 main_v81 (mulf : (⟨S256x128, .f32⟩ : BufTy).Contents (Elt F) → (⟨S256x128, .f32⟩ : BufTy).Contents (Elt F) → (⟨S256x128, .f32⟩ : BufTy).Contents (Elt F)),
    TRef.ternary (TRef.of (T := ⟨S256x128, .i1⟩) main_v79) (TRef.of (T := ⟨S256x128, .f32⟩) main_v77) (TRef.of (T := ⟨S256x128, .f32⟩) main_v81) (TRef.of (T := ⟨S256x128, .f32⟩) main_v82) select,
    binary main_v82 main_arg16 main_v83 ((fun l r => Host.dotGeneral dot_S256x128_S128x258_S256x258_1_0_0_1_n_n none l r) : (⟨S256x128, .f32⟩ : BufTy).Contents (Elt F) → (⟨S128x258, .f32⟩ : BufTy).Contents (Elt F) → (⟨S256x258, .f32⟩ : BufTy).Contents (Elt F)),
    unary main_arg17 main_v84 (broadcastInDim S1x258 ![1] bcast_S258_S1x258_1 : (⟨S258, .f32⟩ : BufTy).Contents (Elt F) → (⟨S1x258, .f32⟩ : BufTy).Contents (Elt F)),
    unary main_v84 main_v85 (broadcastInDim S256x258 ![0, 1] bcast_S1x258_S256x258_0_1 : (⟨S1x258, .f32⟩ : BufTy).Contents (Elt F) → (⟨S256x258, .f32⟩ : BufTy).Contents (Elt F)),
    binary main_v83 main_v85 main_v86 (addf : (⟨S256x258, .f32⟩ : BufTy).Contents (Elt F) → (⟨S256x258, .f32⟩ : BufTy).Contents (Elt F) → (⟨S256x258, .f32⟩ : BufTy).Contents (Elt F)) ]

/-- Operations 109 to 127. -/
abbrev seg8 : List (HloOp τ sig (Elt F)) :=
  [ nullary main_cst_15 (constant S_ .f32 0x00000000#32),
    unary main_cst_15 main_v87 (broadcastInDim S256x258 ![] bcast_S_S256x258 : (⟨S_, .f32⟩ : BufTy).Contents (Elt F) → (⟨S256x258, .f32⟩ : BufTy).Contents (Elt F)),
    binary main_v86 main_v87 main_v88 (cmpf .ogt : (⟨S256x258, .f32⟩ : BufTy).Contents (Elt F) → (⟨S256x258, .f32⟩ : BufTy).Contents (Elt F) → (⟨S256x258, .i1⟩ : BufTy).Contents (Elt F)),
    nullary main_cst_16 (constant S_ .f32 0x3D4CCCCD#32),
    unary main_cst_16 main_v89 (broadcastInDim S256x258 ![] bcast_S_S256x258 : (⟨S_, .f32⟩ : BufTy).Contents (Elt F) → (⟨S256x258, .f32⟩ : BufTy).Contents (Elt F)),
    binary main_v89 main_v86 main_v90 (mulf : (⟨S256x258, .f32⟩ : BufTy).Contents (Elt F) → (⟨S256x258, .f32⟩ : BufTy).Contents (Elt F) → (⟨S256x258, .f32⟩ : BufTy).Contents (Elt F)),
    TRef.ternary (TRef.of (T := ⟨S256x258, .i1⟩) main_v88) (TRef.of (T := ⟨S256x258, .f32⟩) main_v86) (TRef.of (T := ⟨S256x258, .f32⟩) main_v90) (TRef.of (T := ⟨S256x258, .f32⟩) main_v91) select,
    binary main_v91 main_arg18 main_v92 ((fun l r => Host.dotGeneral dot_S256x258_S258x1_S256x1_1_0_0_1_n_n none l r) : (⟨S256x258, .f32⟩ : BufTy).Contents (Elt F) → (⟨S258x1, .f32⟩ : BufTy).Contents (Elt F) → (⟨S256x1, .f32⟩ : BufTy).Contents (Elt F)),
    unary main_arg19 main_v93 (broadcastInDim S1x1 ![1] bcast_S1_S1x1_1 : (⟨S1, .f32⟩ : BufTy).Contents (Elt F) → (⟨S1x1, .f32⟩ : BufTy).Contents (Elt F)),
    unary main_v93 main_v94 (broadcastInDim S256x1 ![0, 1] bcast_S1x1_S256x1_0_1 : (⟨S1x1, .f32⟩ : BufTy).Contents (Elt F) → (⟨S256x1, .f32⟩ : BufTy).Contents (Elt F)),
    binary main_v92 main_v94 main_v95 (addf : (⟨S256x1, .f32⟩ : BufTy).Contents (Elt F) → (⟨S256x1, .f32⟩ : BufTy).Contents (Elt F) → (⟨S256x1, .f32⟩ : BufTy).Contents (Elt F)),
    unary main_v95 main_v96 (Host.negf : (⟨S256x1, .f32⟩ : BufTy).Contents (Elt F) → (⟨S256x1, .f32⟩ : BufTy).Contents (Elt F)),
    unary main_v96 main_v97 (Host.exp : (⟨S256x1, .f32⟩ : BufTy).Contents (Elt F) → (⟨S256x1, .f32⟩ : BufTy).Contents (Elt F)),
    nullary main_cst_17 (constant S_ .f32 0x3F800000#32),
    unary main_cst_17 main_v98 (broadcastInDim S256x1 ![] bcast_S_S256x1 : (⟨S_, .f32⟩ : BufTy).Contents (Elt F) → (⟨S256x1, .f32⟩ : BufTy).Contents (Elt F)),
    binary main_v98 main_v97 main_v99 (addf : (⟨S256x1, .f32⟩ : BufTy).Contents (Elt F) → (⟨S256x1, .f32⟩ : BufTy).Contents (Elt F) → (⟨S256x1, .f32⟩ : BufTy).Contents (Elt F)),
    nullary main_cst_18 (constant S_ .f32 0x3F800000#32),
    unary main_cst_18 main_v100 (broadcastInDim S256x1 ![] bcast_S_S256x1 : (⟨S_, .f32⟩ : BufTy).Contents (Elt F) → (⟨S256x1, .f32⟩ : BufTy).Contents (Elt F)),
    binary main_v100 main_v99 main_v101 (Host.divf : (⟨S256x1, .f32⟩ : BufTy).Contents (Elt F) → (⟨S256x1, .f32⟩ : BufTy).Contents (Elt F) → (⟨S256x1, .f32⟩ : BufTy).Contents (Elt F)) ]

theorem ops_eq : (ops : List (HloOp τ sig (Elt F))) = seg1 ++ (seg2 ++ (seg3 ++ (seg4 ++ (seg5 ++ (seg6 ++ (seg7 ++ (seg8))))))) := rfl

/-- The buffers' contents after each segment. -/
abbrev W0 (V : Valuation τ sig (Elt F)) : Valuation τ sig (Elt F) := V
abbrev W1 (V : Valuation τ sig (Elt F)) : Valuation τ sig (Elt F) := after seg1 (W0 V)
abbrev W2 (V : Valuation τ sig (Elt F)) : Valuation τ sig (Elt F) := after seg2 (W1 V)
abbrev W3 (V : Valuation τ sig (Elt F)) : Valuation τ sig (Elt F) := after seg3 (W2 V)
abbrev W4 (V : Valuation τ sig (Elt F)) : Valuation τ sig (Elt F) := after seg4 (W3 V)
abbrev W5 (V : Valuation τ sig (Elt F)) : Valuation τ sig (Elt F) := after seg5 (W4 V)
abbrev W6 (V : Valuation τ sig (Elt F)) : Valuation τ sig (Elt F) := after seg6 (W5 V)
abbrev W7 (V : Valuation τ sig (Elt F)) : Valuation τ sig (Elt F) := after seg7 (W6 V)
abbrev W8 (V : Valuation τ sig (Elt F)) : Valuation τ sig (Elt F) := after seg8 (W7 V)

theorem after_eq (V : Valuation τ sig (Elt F)) : after ops V = W8 V := by
  rw [ops_eq]; simp only [StableHlo.after_append]

/-! ### Segment 1 -/

set_option maxRecDepth 8192 in
set_option maxHeartbeats 4000000 in
theorem seg1_main_v22 (W : Valuation τ sig (Elt F)) (a0 : (⟨S100000x64, .f32⟩ : BufTy).Contents (Elt F)) (a1 : (⟨S2x1600000, .i32⟩ : BufTy).Contents (Elt F)) (a3 : (⟨S1600000, .f32⟩ : BufTy).Contents (Elt F)) (a4 : (⟨S64x128, .f32⟩ : BufTy).Contents (Elt F)) (a5 : (⟨S128, .f32⟩ : BufTy).Contents (Elt F)) (a6 : (⟨S64x128, .f32⟩ : BufTy).Contents (Elt F))
    (h0 : W (Proc.devRef .tc main_arg0) = a0) (h1 : W (Proc.devRef .tc main_arg1) = a1) (h3 : W (Proc.devRef .tc main_arg3) = a3) (h4 : W (Proc.devRef .tc main_arg4) = a4) (h5 : W (Proc.devRef .tc main_arg5) = a5) (h6 : W (Proc.devRef .tc main_arg6) = a6) :
    after seg1 W (Proc.devRef .tc main_v22) = Cert.ReferenceIdeal.Read.val_main_v22 (F := F) a0 a1 a3 a4 a5 a6 := by
  after_results_simp
  try simp only [h0, h1, h3, h4, h5, h6]
  simp only [Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_cst, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_c_0, Cert.ReferenceIdeal.Read.val_main_v5, Cert.ReferenceIdeal.Read.val_main_v4, Cert.ReferenceIdeal.Read.val_main_c, Cert.ReferenceIdeal.Read.val_main_v3, Cert.ReferenceIdeal.Read.val_main_v2, Cert.ReferenceIdeal.Read.val_main_v1, Cert.ReferenceIdeal.Read.val_main_v0]
  try simp only [TRef.ofBuf, TRef.toBuf, cast_eq]
  try rfl

theorem L1_main_v22 (V : Valuation τ sig (Elt F)) : W1 V (Proc.devRef .tc main_v22) = Cert.ReferenceIdeal.Read.val_main_v22 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) :=
  seg1_main_v22 (W0 V) (V (Proc.devRef .tc main_arg0)) (V (Proc.devRef .tc main_arg1)) (V (Proc.devRef .tc main_arg3)) (V (Proc.devRef .tc main_arg4)) (V (Proc.devRef .tc main_arg5)) (V (Proc.devRef .tc main_arg6)) rfl rfl rfl rfl rfl rfl

set_option maxRecDepth 8192 in
set_option maxHeartbeats 4000000 in
theorem seg1_main_v1 (W : Valuation τ sig (Elt F)) (a1 : (⟨S2x1600000, .i32⟩ : BufTy).Contents (Elt F))
    (h1 : W (Proc.devRef .tc main_arg1) = a1) :
    after seg1 W (Proc.devRef .tc main_v1) = Cert.ReferenceIdeal.Read.val_main_v1 (F := F) a1 := by
  after_results_simp
  try simp only [h1]
  simp only [Cert.ReferenceIdeal.Read.val_main_v1, Cert.ReferenceIdeal.Read.val_main_v0]
  try simp only [TRef.ofBuf, TRef.toBuf, cast_eq]
  try rfl

theorem L1_main_v1 (V : Valuation τ sig (Elt F)) : W1 V (Proc.devRef .tc main_v1) = Cert.ReferenceIdeal.Read.val_main_v1 (F := F) (V (Proc.devRef .tc main_arg1)) :=
  seg1_main_v1 (W0 V) (V (Proc.devRef .tc main_arg1)) rfl

set_option maxRecDepth 8192 in
set_option maxHeartbeats 4000000 in
theorem seg1_main_v3 (W : Valuation τ sig (Elt F)) (a1 : (⟨S2x1600000, .i32⟩ : BufTy).Contents (Elt F))
    (h1 : W (Proc.devRef .tc main_arg1) = a1) :
    after seg1 W (Proc.devRef .tc main_v3) = Cert.ReferenceIdeal.Read.val_main_v3 (F := F) a1 := by
  after_results_simp
  try simp only [h1]
  simp only [Cert.ReferenceIdeal.Read.val_main_v3, Cert.ReferenceIdeal.Read.val_main_v2]
  try simp only [TRef.ofBuf, TRef.toBuf, cast_eq]
  try rfl

theorem L1_main_v3 (V : Valuation τ sig (Elt F)) : W1 V (Proc.devRef .tc main_v3) = Cert.ReferenceIdeal.Read.val_main_v3 (F := F) (V (Proc.devRef .tc main_arg1)) :=
  seg1_main_v3 (W0 V) (V (Proc.devRef .tc main_arg1)) rfl

/-! ### Segment 2 -/

set_option maxRecDepth 8192 in
set_option maxHeartbeats 4000000 in
theorem keep2_main_v1 (W : Valuation τ sig (Elt F)) : after seg2 W (Proc.devRef .tc main_v1) = W (Proc.devRef .tc main_v1) := by
  refine after_of_forall_not_mem (b := Proc.devRef .tc main_v1) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem L2_main_v1 (V : Valuation τ sig (Elt F)) : W2 V (Proc.devRef .tc main_v1) = Cert.ReferenceIdeal.Read.val_main_v1 (F := F) (V (Proc.devRef .tc main_arg1)) :=
  (keep2_main_v1 (W1 V)).trans (L1_main_v1 V)

set_option maxRecDepth 8192 in
set_option maxHeartbeats 4000000 in
theorem seg2_main_v27 (W : Valuation τ sig (Elt F)) (a0 : (⟨S100000x64, .f32⟩ : BufTy).Contents (Elt F)) (a1 : (⟨S2x1600000, .i32⟩ : BufTy).Contents (Elt F)) (a3 : (⟨S1600000, .f32⟩ : BufTy).Contents (Elt F)) (a4 : (⟨S64x128, .f32⟩ : BufTy).Contents (Elt F)) (a5 : (⟨S128, .f32⟩ : BufTy).Contents (Elt F)) (a6 : (⟨S64x128, .f32⟩ : BufTy).Contents (Elt F))
    (h_main_v22 : W (Proc.devRef .tc main_v22) = Cert.ReferenceIdeal.Read.val_main_v22 (F := F) a0 a1 a3 a4 a5 a6) :
    after seg2 W (Proc.devRef .tc main_v27) = Cert.ReferenceIdeal.Read.val_main_v27 (F := F) a0 a1 a3 a4 a5 a6 := by
  after_results_simp
  try simp only [h_main_v22]
  simp only [Cert.ReferenceIdeal.Read.val_main_v27, Cert.ReferenceIdeal.Read.val_main_v26, Cert.ReferenceIdeal.Read.val_main_v25, Cert.ReferenceIdeal.Read.val_main_cst_2, Cert.ReferenceIdeal.Read.val_main_v24, Cert.ReferenceIdeal.Read.val_main_v23, Cert.ReferenceIdeal.Read.val_main_cst_1]
  try simp only [TRef.ofBuf, TRef.toBuf, cast_eq]
  try rfl

theorem L2_main_v27 (V : Valuation τ sig (Elt F)) : W2 V (Proc.devRef .tc main_v27) = Cert.ReferenceIdeal.Read.val_main_v27 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) :=
  seg2_main_v27 (W1 V) (V (Proc.devRef .tc main_arg0)) (V (Proc.devRef .tc main_arg1)) (V (Proc.devRef .tc main_arg3)) (V (Proc.devRef .tc main_arg4)) (V (Proc.devRef .tc main_arg5)) (V (Proc.devRef .tc main_arg6)) (L1_main_v22 V)

set_option maxRecDepth 8192 in
set_option maxHeartbeats 4000000 in
theorem keep2_main_v3 (W : Valuation τ sig (Elt F)) : after seg2 W (Proc.devRef .tc main_v3) = W (Proc.devRef .tc main_v3) := by
  refine after_of_forall_not_mem (b := Proc.devRef .tc main_v3) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem L2_main_v3 (V : Valuation τ sig (Elt F)) : W2 V (Proc.devRef .tc main_v3) = Cert.ReferenceIdeal.Read.val_main_v3 (F := F) (V (Proc.devRef .tc main_arg1)) :=
  (keep2_main_v3 (W1 V)).trans (L1_main_v3 V)

/-! ### Segment 3 -/

set_option maxRecDepth 8192 in
set_option maxHeartbeats 4000000 in
theorem seg3_main_v46 (W : Valuation τ sig (Elt F)) (a0 : (⟨S100000x64, .f32⟩ : BufTy).Contents (Elt F)) (a1 : (⟨S2x1600000, .i32⟩ : BufTy).Contents (Elt F)) (a3 : (⟨S1600000, .f32⟩ : BufTy).Contents (Elt F)) (a4 : (⟨S64x128, .f32⟩ : BufTy).Contents (Elt F)) (a5 : (⟨S128, .f32⟩ : BufTy).Contents (Elt F)) (a6 : (⟨S64x128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F))
    (h3 : W (Proc.devRef .tc main_arg3) = a3) (h7 : W (Proc.devRef .tc main_arg7) = a7) (h8 : W (Proc.devRef .tc main_arg8) = a8) (h9 : W (Proc.devRef .tc main_arg9) = a9) (h_main_v3 : W (Proc.devRef .tc main_v3) = Cert.ReferenceIdeal.Read.val_main_v3 (F := F) a1) (h_main_v27 : W (Proc.devRef .tc main_v27) = Cert.ReferenceIdeal.Read.val_main_v27 (F := F) a0 a1 a3 a4 a5 a6) (h_main_v1 : W (Proc.devRef .tc main_v1) = Cert.ReferenceIdeal.Read.val_main_v1 (F := F) a1) :
    after seg3 W (Proc.devRef .tc main_v46) = Cert.ReferenceIdeal.Read.val_main_v46 (F := F) a0 a1 a3 a4 a5 a6 a7 a8 a9 := by
  after_results_simp
  try simp only [h3, h7, h8, h9, h_main_v3, h_main_v27, h_main_v1]
  simp only [Cert.ReferenceIdeal.Read.val_main_v46, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_v38, Cert.ReferenceIdeal.Read.val_main_cst_5, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_c_4, Cert.ReferenceIdeal.Read.val_main_v29, Cert.ReferenceIdeal.Read.val_main_v28, Cert.ReferenceIdeal.Read.val_main_c_3]
  try simp only [TRef.ofBuf, TRef.toBuf, cast_eq]
  try rfl

set_option maxRecDepth 8192 in
set_option maxHeartbeats 4000000 in
theorem keep1_main_arg3 (W : Valuation τ sig (Elt F)) : after seg1 W (Proc.devRef .tc main_arg3) = W (Proc.devRef .tc main_arg3) := by
  refine after_of_forall_not_mem (b := Proc.devRef .tc main_arg3) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_3 (V : Valuation τ sig (Elt F)) : W1 V (Proc.devRef .tc main_arg3) = V (Proc.devRef .tc main_arg3) :=
  keep1_main_arg3 (W0 V)

set_option maxRecDepth 8192 in
set_option maxHeartbeats 4000000 in
theorem keep2_main_arg3 (W : Valuation τ sig (Elt F)) : after seg2 W (Proc.devRef .tc main_arg3) = W (Proc.devRef .tc main_arg3) := by
  refine after_of_forall_not_mem (b := Proc.devRef .tc main_arg3) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_3 (V : Valuation τ sig (Elt F)) : W2 V (Proc.devRef .tc main_arg3) = V (Proc.devRef .tc main_arg3) :=
  (keep2_main_arg3 (W1 V)).trans (A1_3 V)

set_option maxRecDepth 8192 in
set_option maxHeartbeats 4000000 in
theorem keep1_main_arg7 (W : Valuation τ sig (Elt F)) : after seg1 W (Proc.devRef .tc main_arg7) = W (Proc.devRef .tc main_arg7) := by
  refine after_of_forall_not_mem (b := Proc.devRef .tc main_arg7) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_7 (V : Valuation τ sig (Elt F)) : W1 V (Proc.devRef .tc main_arg7) = V (Proc.devRef .tc main_arg7) :=
  keep1_main_arg7 (W0 V)

set_option maxRecDepth 8192 in
set_option maxHeartbeats 4000000 in
theorem keep2_main_arg7 (W : Valuation τ sig (Elt F)) : after seg2 W (Proc.devRef .tc main_arg7) = W (Proc.devRef .tc main_arg7) := by
  refine after_of_forall_not_mem (b := Proc.devRef .tc main_arg7) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_7 (V : Valuation τ sig (Elt F)) : W2 V (Proc.devRef .tc main_arg7) = V (Proc.devRef .tc main_arg7) :=
  (keep2_main_arg7 (W1 V)).trans (A1_7 V)

set_option maxRecDepth 8192 in
set_option maxHeartbeats 4000000 in
theorem keep1_main_arg8 (W : Valuation τ sig (Elt F)) : after seg1 W (Proc.devRef .tc main_arg8) = W (Proc.devRef .tc main_arg8) := by
  refine after_of_forall_not_mem (b := Proc.devRef .tc main_arg8) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_8 (V : Valuation τ sig (Elt F)) : W1 V (Proc.devRef .tc main_arg8) = V (Proc.devRef .tc main_arg8) :=
  keep1_main_arg8 (W0 V)

set_option maxRecDepth 8192 in
set_option maxHeartbeats 4000000 in
theorem keep2_main_arg8 (W : Valuation τ sig (Elt F)) : after seg2 W (Proc.devRef .tc main_arg8) = W (Proc.devRef .tc main_arg8) := by
  refine after_of_forall_not_mem (b := Proc.devRef .tc main_arg8) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_8 (V : Valuation τ sig (Elt F)) : W2 V (Proc.devRef .tc main_arg8) = V (Proc.devRef .tc main_arg8) :=
  (keep2_main_arg8 (W1 V)).trans (A1_8 V)

set_option maxRecDepth 8192 in
set_option maxHeartbeats 4000000 in
theorem keep1_main_arg9 (W : Valuation τ sig (Elt F)) : after seg1 W (Proc.devRef .tc main_arg9) = W (Proc.devRef .tc main_arg9) := by
  refine after_of_forall_not_mem (b := Proc.devRef .tc main_arg9) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_9 (V : Valuation τ sig (Elt F)) : W1 V (Proc.devRef .tc main_arg9) = V (Proc.devRef .tc main_arg9) :=
  keep1_main_arg9 (W0 V)

set_option maxRecDepth 8192 in
set_option maxHeartbeats 4000000 in
theorem keep2_main_arg9 (W : Valuation τ sig (Elt F)) : after seg2 W (Proc.devRef .tc main_arg9) = W (Proc.devRef .tc main_arg9) := by
  refine after_of_forall_not_mem (b := Proc.devRef .tc main_arg9) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_9 (V : Valuation τ sig (Elt F)) : W2 V (Proc.devRef .tc main_arg9) = V (Proc.devRef .tc main_arg9) :=
  (keep2_main_arg9 (W1 V)).trans (A1_9 V)

theorem L3_main_v46 (V : Valuation τ sig (Elt F)) : W3 V (Proc.devRef .tc main_v46) = Cert.ReferenceIdeal.Read.val_main_v46 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  seg3_main_v46 (W2 V) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (A2_3 V) (A2_7 V) (A2_8 V) (A2_9 V) (L2_main_v3 V) (L2_main_v27 V) (L2_main_v1 V)

/-! ### Segment 4 -/

set_option maxRecDepth 8192 in
set_option maxHeartbeats 4000000 in
theorem seg4_main_v52 (W : Valuation τ sig (Elt F)) (a0 : (⟨S100000x64, .f32⟩ : BufTy).Contents (Elt F)) (a1 : (⟨S2x1600000, .i32⟩ : BufTy).Contents (Elt F)) (a3 : (⟨S1600000, .f32⟩ : BufTy).Contents (Elt F)) (a4 : (⟨S64x128, .f32⟩ : BufTy).Contents (Elt F)) (a5 : (⟨S128, .f32⟩ : BufTy).Contents (Elt F)) (a6 : (⟨S64x128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F))
    (h0 : W (Proc.devRef .tc main_arg0) = a0) (h_main_v46 : W (Proc.devRef .tc main_v46) = Cert.ReferenceIdeal.Read.val_main_v46 (F := F) a0 a1 a3 a4 a5 a6 a7 a8 a9) :
    after seg4 W (Proc.devRef .tc main_v52) = Cert.ReferenceIdeal.Read.val_main_v52 (F := F) a0 a1 a3 a4 a5 a6 a7 a8 a9 := by
  after_results
  try rw [h0]
  try rw [h_main_v46]
  simp only [Cert.ReferenceIdeal.Read.val_main_v52, Cert.ReferenceIdeal.Read.val_main_v51, Cert.ReferenceIdeal.Read.val_main_v50, Cert.ReferenceIdeal.Read.val_main_v49, Cert.ReferenceIdeal.Read.val_main_cst_7, Cert.ReferenceIdeal.Read.val_main_v48, Cert.ReferenceIdeal.Read.val_main_v47, Cert.ReferenceIdeal.Read.val_main_cst_6]
  try simp only [TRef.ofBuf, TRef.toBuf, cast_eq]
  try rfl

set_option maxRecDepth 8192 in
set_option maxHeartbeats 4000000 in
theorem keep1_main_arg0 (W : Valuation τ sig (Elt F)) : after seg1 W (Proc.devRef .tc main_arg0) = W (Proc.devRef .tc main_arg0) := by
  refine after_of_forall_not_mem (b := Proc.devRef .tc main_arg0) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_0 (V : Valuation τ sig (Elt F)) : W1 V (Proc.devRef .tc main_arg0) = V (Proc.devRef .tc main_arg0) :=
  keep1_main_arg0 (W0 V)

set_option maxRecDepth 8192 in
set_option maxHeartbeats 4000000 in
theorem keep2_main_arg0 (W : Valuation τ sig (Elt F)) : after seg2 W (Proc.devRef .tc main_arg0) = W (Proc.devRef .tc main_arg0) := by
  refine after_of_forall_not_mem (b := Proc.devRef .tc main_arg0) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_0 (V : Valuation τ sig (Elt F)) : W2 V (Proc.devRef .tc main_arg0) = V (Proc.devRef .tc main_arg0) :=
  (keep2_main_arg0 (W1 V)).trans (A1_0 V)

set_option maxRecDepth 8192 in
set_option maxHeartbeats 4000000 in
theorem keep3_main_arg0 (W : Valuation τ sig (Elt F)) : after seg3 W (Proc.devRef .tc main_arg0) = W (Proc.devRef .tc main_arg0) := by
  refine after_of_forall_not_mem (b := Proc.devRef .tc main_arg0) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_0 (V : Valuation τ sig (Elt F)) : W3 V (Proc.devRef .tc main_arg0) = V (Proc.devRef .tc main_arg0) :=
  (keep3_main_arg0 (W2 V)).trans (A2_0 V)

theorem L4_main_v52 (V : Valuation τ sig (Elt F)) : W4 V (Proc.devRef .tc main_v52) = Cert.ReferenceIdeal.Read.val_main_v52 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  seg4_main_v52 (W3 V) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (A3_0 V) (L3_main_v46 V)

/-! ### Segment 5 -/

set_option maxRecDepth 8192 in
set_option maxHeartbeats 4000000 in
theorem seg5_main_v70 (W : Valuation τ sig (Elt F)) (a0 : (⟨S100000x64, .f32⟩ : BufTy).Contents (Elt F)) (a1 : (⟨S2x1600000, .i32⟩ : BufTy).Contents (Elt F)) (a3 : (⟨S1600000, .f32⟩ : BufTy).Contents (Elt F)) (a4 : (⟨S64x128, .f32⟩ : BufTy).Contents (Elt F)) (a5 : (⟨S128, .f32⟩ : BufTy).Contents (Elt F)) (a6 : (⟨S64x128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F)) (a10 : (⟨S192x128, .f32⟩ : BufTy).Contents (Elt F)) (a11 : (⟨S128, .f32⟩ : BufTy).Contents (Elt F)) (a12 : (⟨S192x128, .f32⟩ : BufTy).Contents (Elt F)) (a13 : (⟨S128, .f32⟩ : BufTy).Contents (Elt F))
    (h10 : W (Proc.devRef .tc main_arg10) = a10) (h11 : W (Proc.devRef .tc main_arg11) = a11) (h12 : W (Proc.devRef .tc main_arg12) = a12) (h13 : W (Proc.devRef .tc main_arg13) = a13) (h_main_v52 : W (Proc.devRef .tc main_v52) = Cert.ReferenceIdeal.Read.val_main_v52 (F := F) a0 a1 a3 a4 a5 a6 a7 a8 a9) :
    after seg5 W (Proc.devRef .tc main_v70) = Cert.ReferenceIdeal.Read.val_main_v70 (F := F) a0 a1 a3 a4 a5 a6 a7 a8 a9 a10 a11 a12 a13 := by
  after_results_simp
  try simp only [h10, h11, h12, h13, h_main_v52]
  simp only [Cert.ReferenceIdeal.Read.val_main_v70, Cert.ReferenceIdeal.Read.val_main_v69, Cert.ReferenceIdeal.Read.val_main_v68, Cert.ReferenceIdeal.Read.val_main_v67, Cert.ReferenceIdeal.Read.val_main_v66, Cert.ReferenceIdeal.Read.val_main_v65, Cert.ReferenceIdeal.Read.val_main_v64, Cert.ReferenceIdeal.Read.val_main_v63, Cert.ReferenceIdeal.Read.val_main_cst_11, Cert.ReferenceIdeal.Read.val_main_v62, Cert.ReferenceIdeal.Read.val_main_v61, Cert.ReferenceIdeal.Read.val_main_cst_10, Cert.ReferenceIdeal.Read.val_main_v60, Cert.ReferenceIdeal.Read.val_main_v59, Cert.ReferenceIdeal.Read.val_main_v58, Cert.ReferenceIdeal.Read.val_main_v57, Cert.ReferenceIdeal.Read.val_main_call2_v4, Cert.ReferenceIdeal.Read.val_main_call2_v3, Cert.ReferenceIdeal.Read.val_main_call2_v2, Cert.ReferenceIdeal.Read.val_main_call2_v1, Cert.ReferenceIdeal.Read.val_main_call2_v0, Cert.ReferenceIdeal.Read.val_main_cst_9, Cert.ReferenceIdeal.Read.val_main_cst_8, Cert.ReferenceIdeal.Read.val_main_v56, Cert.ReferenceIdeal.Read.val_main_v55, Cert.ReferenceIdeal.Read.val_main_v54, Cert.ReferenceIdeal.Read.val_main_v53]
  try simp only [TRef.ofBuf, TRef.toBuf, cast_eq]
  try rfl

set_option maxRecDepth 8192 in
set_option maxHeartbeats 4000000 in
theorem keep1_main_arg10 (W : Valuation τ sig (Elt F)) : after seg1 W (Proc.devRef .tc main_arg10) = W (Proc.devRef .tc main_arg10) := by
  refine after_of_forall_not_mem (b := Proc.devRef .tc main_arg10) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_10 (V : Valuation τ sig (Elt F)) : W1 V (Proc.devRef .tc main_arg10) = V (Proc.devRef .tc main_arg10) :=
  keep1_main_arg10 (W0 V)

set_option maxRecDepth 8192 in
set_option maxHeartbeats 4000000 in
theorem keep2_main_arg10 (W : Valuation τ sig (Elt F)) : after seg2 W (Proc.devRef .tc main_arg10) = W (Proc.devRef .tc main_arg10) := by
  refine after_of_forall_not_mem (b := Proc.devRef .tc main_arg10) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_10 (V : Valuation τ sig (Elt F)) : W2 V (Proc.devRef .tc main_arg10) = V (Proc.devRef .tc main_arg10) :=
  (keep2_main_arg10 (W1 V)).trans (A1_10 V)

set_option maxRecDepth 8192 in
set_option maxHeartbeats 4000000 in
theorem keep3_main_arg10 (W : Valuation τ sig (Elt F)) : after seg3 W (Proc.devRef .tc main_arg10) = W (Proc.devRef .tc main_arg10) := by
  refine after_of_forall_not_mem (b := Proc.devRef .tc main_arg10) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_10 (V : Valuation τ sig (Elt F)) : W3 V (Proc.devRef .tc main_arg10) = V (Proc.devRef .tc main_arg10) :=
  (keep3_main_arg10 (W2 V)).trans (A2_10 V)

set_option maxRecDepth 8192 in
set_option maxHeartbeats 4000000 in
theorem keep4_main_arg10 (W : Valuation τ sig (Elt F)) : after seg4 W (Proc.devRef .tc main_arg10) = W (Proc.devRef .tc main_arg10) := by
  refine after_of_forall_not_mem (b := Proc.devRef .tc main_arg10) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_10 (V : Valuation τ sig (Elt F)) : W4 V (Proc.devRef .tc main_arg10) = V (Proc.devRef .tc main_arg10) :=
  (keep4_main_arg10 (W3 V)).trans (A3_10 V)

set_option maxRecDepth 8192 in
set_option maxHeartbeats 4000000 in
theorem keep1_main_arg11 (W : Valuation τ sig (Elt F)) : after seg1 W (Proc.devRef .tc main_arg11) = W (Proc.devRef .tc main_arg11) := by
  refine after_of_forall_not_mem (b := Proc.devRef .tc main_arg11) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_11 (V : Valuation τ sig (Elt F)) : W1 V (Proc.devRef .tc main_arg11) = V (Proc.devRef .tc main_arg11) :=
  keep1_main_arg11 (W0 V)

set_option maxRecDepth 8192 in
set_option maxHeartbeats 4000000 in
theorem keep2_main_arg11 (W : Valuation τ sig (Elt F)) : after seg2 W (Proc.devRef .tc main_arg11) = W (Proc.devRef .tc main_arg11) := by
  refine after_of_forall_not_mem (b := Proc.devRef .tc main_arg11) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_11 (V : Valuation τ sig (Elt F)) : W2 V (Proc.devRef .tc main_arg11) = V (Proc.devRef .tc main_arg11) :=
  (keep2_main_arg11 (W1 V)).trans (A1_11 V)

set_option maxRecDepth 8192 in
set_option maxHeartbeats 4000000 in
theorem keep3_main_arg11 (W : Valuation τ sig (Elt F)) : after seg3 W (Proc.devRef .tc main_arg11) = W (Proc.devRef .tc main_arg11) := by
  refine after_of_forall_not_mem (b := Proc.devRef .tc main_arg11) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_11 (V : Valuation τ sig (Elt F)) : W3 V (Proc.devRef .tc main_arg11) = V (Proc.devRef .tc main_arg11) :=
  (keep3_main_arg11 (W2 V)).trans (A2_11 V)

set_option maxRecDepth 8192 in
set_option maxHeartbeats 4000000 in
theorem keep4_main_arg11 (W : Valuation τ sig (Elt F)) : after seg4 W (Proc.devRef .tc main_arg11) = W (Proc.devRef .tc main_arg11) := by
  refine after_of_forall_not_mem (b := Proc.devRef .tc main_arg11) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_11 (V : Valuation τ sig (Elt F)) : W4 V (Proc.devRef .tc main_arg11) = V (Proc.devRef .tc main_arg11) :=
  (keep4_main_arg11 (W3 V)).trans (A3_11 V)

set_option maxRecDepth 8192 in
set_option maxHeartbeats 4000000 in
theorem keep1_main_arg12 (W : Valuation τ sig (Elt F)) : after seg1 W (Proc.devRef .tc main_arg12) = W (Proc.devRef .tc main_arg12) := by
  refine after_of_forall_not_mem (b := Proc.devRef .tc main_arg12) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_12 (V : Valuation τ sig (Elt F)) : W1 V (Proc.devRef .tc main_arg12) = V (Proc.devRef .tc main_arg12) :=
  keep1_main_arg12 (W0 V)

set_option maxRecDepth 8192 in
set_option maxHeartbeats 4000000 in
theorem keep2_main_arg12 (W : Valuation τ sig (Elt F)) : after seg2 W (Proc.devRef .tc main_arg12) = W (Proc.devRef .tc main_arg12) := by
  refine after_of_forall_not_mem (b := Proc.devRef .tc main_arg12) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_12 (V : Valuation τ sig (Elt F)) : W2 V (Proc.devRef .tc main_arg12) = V (Proc.devRef .tc main_arg12) :=
  (keep2_main_arg12 (W1 V)).trans (A1_12 V)

set_option maxRecDepth 8192 in
set_option maxHeartbeats 4000000 in
theorem keep3_main_arg12 (W : Valuation τ sig (Elt F)) : after seg3 W (Proc.devRef .tc main_arg12) = W (Proc.devRef .tc main_arg12) := by
  refine after_of_forall_not_mem (b := Proc.devRef .tc main_arg12) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_12 (V : Valuation τ sig (Elt F)) : W3 V (Proc.devRef .tc main_arg12) = V (Proc.devRef .tc main_arg12) :=
  (keep3_main_arg12 (W2 V)).trans (A2_12 V)

set_option maxRecDepth 8192 in
set_option maxHeartbeats 4000000 in
theorem keep4_main_arg12 (W : Valuation τ sig (Elt F)) : after seg4 W (Proc.devRef .tc main_arg12) = W (Proc.devRef .tc main_arg12) := by
  refine after_of_forall_not_mem (b := Proc.devRef .tc main_arg12) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_12 (V : Valuation τ sig (Elt F)) : W4 V (Proc.devRef .tc main_arg12) = V (Proc.devRef .tc main_arg12) :=
  (keep4_main_arg12 (W3 V)).trans (A3_12 V)

set_option maxRecDepth 8192 in
set_option maxHeartbeats 4000000 in
theorem keep1_main_arg13 (W : Valuation τ sig (Elt F)) : after seg1 W (Proc.devRef .tc main_arg13) = W (Proc.devRef .tc main_arg13) := by
  refine after_of_forall_not_mem (b := Proc.devRef .tc main_arg13) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_13 (V : Valuation τ sig (Elt F)) : W1 V (Proc.devRef .tc main_arg13) = V (Proc.devRef .tc main_arg13) :=
  keep1_main_arg13 (W0 V)

set_option maxRecDepth 8192 in
set_option maxHeartbeats 4000000 in
theorem keep2_main_arg13 (W : Valuation τ sig (Elt F)) : after seg2 W (Proc.devRef .tc main_arg13) = W (Proc.devRef .tc main_arg13) := by
  refine after_of_forall_not_mem (b := Proc.devRef .tc main_arg13) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_13 (V : Valuation τ sig (Elt F)) : W2 V (Proc.devRef .tc main_arg13) = V (Proc.devRef .tc main_arg13) :=
  (keep2_main_arg13 (W1 V)).trans (A1_13 V)

set_option maxRecDepth 8192 in
set_option maxHeartbeats 4000000 in
theorem keep3_main_arg13 (W : Valuation τ sig (Elt F)) : after seg3 W (Proc.devRef .tc main_arg13) = W (Proc.devRef .tc main_arg13) := by
  refine after_of_forall_not_mem (b := Proc.devRef .tc main_arg13) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_13 (V : Valuation τ sig (Elt F)) : W3 V (Proc.devRef .tc main_arg13) = V (Proc.devRef .tc main_arg13) :=
  (keep3_main_arg13 (W2 V)).trans (A2_13 V)

set_option maxRecDepth 8192 in
set_option maxHeartbeats 4000000 in
theorem keep4_main_arg13 (W : Valuation τ sig (Elt F)) : after seg4 W (Proc.devRef .tc main_arg13) = W (Proc.devRef .tc main_arg13) := by
  refine after_of_forall_not_mem (b := Proc.devRef .tc main_arg13) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_13 (V : Valuation τ sig (Elt F)) : W4 V (Proc.devRef .tc main_arg13) = V (Proc.devRef .tc main_arg13) :=
  (keep4_main_arg13 (W3 V)).trans (A3_13 V)

theorem L5_main_v70 (V : Valuation τ sig (Elt F)) : W5 V (Proc.devRef .tc main_v70) = Cert.ReferenceIdeal.Read.val_main_v70 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  seg5_main_v70 (W4 V) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (A4_10 V) (A4_11 V) (A4_12 V) (A4_13 V) (L4_main_v52 V)

/-! ### Segment 6 -/

set_option maxRecDepth 8192 in
set_option maxHeartbeats 4000000 in
theorem seg6_main_v77 (W : Valuation τ sig (Elt F)) (a0 : (⟨S100000x64, .f32⟩ : BufTy).Contents (Elt F)) (a1 : (⟨S2x1600000, .i32⟩ : BufTy).Contents (Elt F)) (a2 : (⟨S100000, .i32⟩ : BufTy).Contents (Elt F)) (a3 : (⟨S1600000, .f32⟩ : BufTy).Contents (Elt F)) (a4 : (⟨S64x128, .f32⟩ : BufTy).Contents (Elt F)) (a5 : (⟨S128, .f32⟩ : BufTy).Contents (Elt F)) (a6 : (⟨S64x128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F)) (a10 : (⟨S192x128, .f32⟩ : BufTy).Contents (Elt F)) (a11 : (⟨S128, .f32⟩ : BufTy).Contents (Elt F)) (a12 : (⟨S192x128, .f32⟩ : BufTy).Contents (Elt F)) (a13 : (⟨S128, .f32⟩ : BufTy).Contents (Elt F)) (a14 : (⟨S128x128, .f32⟩ : BufTy).Contents (Elt F)) (a15 : (⟨S128, .f32⟩ : BufTy).Contents (Elt F))
    (h2 : W (Proc.devRef .tc main_arg2) = a2) (h14 : W (Proc.devRef .tc main_arg14) = a14) (h15 : W (Proc.devRef .tc main_arg15) = a15) (h_main_v70 : W (Proc.devRef .tc main_v70) = Cert.ReferenceIdeal.Read.val_main_v70 (F := F) a0 a1 a3 a4 a5 a6 a7 a8 a9 a10 a11 a12 a13) :
    after seg6 W (Proc.devRef .tc main_v77) = Cert.ReferenceIdeal.Read.val_main_v77 (F := F) a0 a1 a2 a3 a4 a5 a6 a7 a8 a9 a10 a11 a12 a13 a14 a15 := by
  after_results_simp
  try simp only [h2, h14, h15, h_main_v70]
  simp only [Cert.ReferenceIdeal.Read.val_main_v77, Cert.ReferenceIdeal.Read.val_main_v76, Cert.ReferenceIdeal.Read.val_main_v75, Cert.ReferenceIdeal.Read.val_main_v74, Cert.ReferenceIdeal.Read.val_main_v73, Cert.ReferenceIdeal.Read.val_main_v72, Cert.ReferenceIdeal.Read.val_main_v71, Cert.ReferenceIdeal.Read.val_main_cst_12]
  try simp only [TRef.ofBuf, TRef.toBuf, cast_eq]
  try rfl

set_option maxRecDepth 8192 in
set_option maxHeartbeats 4000000 in
theorem keep1_main_arg2 (W : Valuation τ sig (Elt F)) : after seg1 W (Proc.devRef .tc main_arg2) = W (Proc.devRef .tc main_arg2) := by
  refine after_of_forall_not_mem (b := Proc.devRef .tc main_arg2) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_2 (V : Valuation τ sig (Elt F)) : W1 V (Proc.devRef .tc main_arg2) = V (Proc.devRef .tc main_arg2) :=
  keep1_main_arg2 (W0 V)

set_option maxRecDepth 8192 in
set_option maxHeartbeats 4000000 in
theorem keep2_main_arg2 (W : Valuation τ sig (Elt F)) : after seg2 W (Proc.devRef .tc main_arg2) = W (Proc.devRef .tc main_arg2) := by
  refine after_of_forall_not_mem (b := Proc.devRef .tc main_arg2) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_2 (V : Valuation τ sig (Elt F)) : W2 V (Proc.devRef .tc main_arg2) = V (Proc.devRef .tc main_arg2) :=
  (keep2_main_arg2 (W1 V)).trans (A1_2 V)

set_option maxRecDepth 8192 in
set_option maxHeartbeats 4000000 in
theorem keep3_main_arg2 (W : Valuation τ sig (Elt F)) : after seg3 W (Proc.devRef .tc main_arg2) = W (Proc.devRef .tc main_arg2) := by
  refine after_of_forall_not_mem (b := Proc.devRef .tc main_arg2) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_2 (V : Valuation τ sig (Elt F)) : W3 V (Proc.devRef .tc main_arg2) = V (Proc.devRef .tc main_arg2) :=
  (keep3_main_arg2 (W2 V)).trans (A2_2 V)

set_option maxRecDepth 8192 in
set_option maxHeartbeats 4000000 in
theorem keep4_main_arg2 (W : Valuation τ sig (Elt F)) : after seg4 W (Proc.devRef .tc main_arg2) = W (Proc.devRef .tc main_arg2) := by
  refine after_of_forall_not_mem (b := Proc.devRef .tc main_arg2) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_2 (V : Valuation τ sig (Elt F)) : W4 V (Proc.devRef .tc main_arg2) = V (Proc.devRef .tc main_arg2) :=
  (keep4_main_arg2 (W3 V)).trans (A3_2 V)

set_option maxRecDepth 8192 in
set_option maxHeartbeats 4000000 in
theorem keep5_main_arg2 (W : Valuation τ sig (Elt F)) : after seg5 W (Proc.devRef .tc main_arg2) = W (Proc.devRef .tc main_arg2) := by
  refine after_of_forall_not_mem (b := Proc.devRef .tc main_arg2) _ _ (List.forall_iff_forall_mem.mp ?_)
  simp only [seg5, List.Forall, nullary_writes, unary_writes, binary_writes, ternary_writes, quaternary_writes, reshape_writes, Finset.mem_singleton, TRef.unary, TRef.binary, TRef.ternary]
  repeat' apply And.intro
  all_goals exact devRef_ne_of_ne (by decide)

theorem A5_2 (V : Valuation τ sig (Elt F)) : W5 V (Proc.devRef .tc main_arg2) = V (Proc.devRef .tc main_arg2) :=
  (keep5_main_arg2 (W4 V)).trans (A4_2 V)

set_option maxRecDepth 8192 in
set_option maxHeartbeats 4000000 in
theorem keep1_main_arg14 (W : Valuation τ sig (Elt F)) : after seg1 W (Proc.devRef .tc main_arg14) = W (Proc.devRef .tc main_arg14) := by
  refine after_of_forall_not_mem (b := Proc.devRef .tc main_arg14) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_14 (V : Valuation τ sig (Elt F)) : W1 V (Proc.devRef .tc main_arg14) = V (Proc.devRef .tc main_arg14) :=
  keep1_main_arg14 (W0 V)

set_option maxRecDepth 8192 in
set_option maxHeartbeats 4000000 in
theorem keep2_main_arg14 (W : Valuation τ sig (Elt F)) : after seg2 W (Proc.devRef .tc main_arg14) = W (Proc.devRef .tc main_arg14) := by
  refine after_of_forall_not_mem (b := Proc.devRef .tc main_arg14) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_14 (V : Valuation τ sig (Elt F)) : W2 V (Proc.devRef .tc main_arg14) = V (Proc.devRef .tc main_arg14) :=
  (keep2_main_arg14 (W1 V)).trans (A1_14 V)

set_option maxRecDepth 8192 in
set_option maxHeartbeats 4000000 in
theorem keep3_main_arg14 (W : Valuation τ sig (Elt F)) : after seg3 W (Proc.devRef .tc main_arg14) = W (Proc.devRef .tc main_arg14) := by
  refine after_of_forall_not_mem (b := Proc.devRef .tc main_arg14) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_14 (V : Valuation τ sig (Elt F)) : W3 V (Proc.devRef .tc main_arg14) = V (Proc.devRef .tc main_arg14) :=
  (keep3_main_arg14 (W2 V)).trans (A2_14 V)

set_option maxRecDepth 8192 in
set_option maxHeartbeats 4000000 in
theorem keep4_main_arg14 (W : Valuation τ sig (Elt F)) : after seg4 W (Proc.devRef .tc main_arg14) = W (Proc.devRef .tc main_arg14) := by
  refine after_of_forall_not_mem (b := Proc.devRef .tc main_arg14) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_14 (V : Valuation τ sig (Elt F)) : W4 V (Proc.devRef .tc main_arg14) = V (Proc.devRef .tc main_arg14) :=
  (keep4_main_arg14 (W3 V)).trans (A3_14 V)

set_option maxRecDepth 8192 in
set_option maxHeartbeats 4000000 in
theorem keep5_main_arg14 (W : Valuation τ sig (Elt F)) : after seg5 W (Proc.devRef .tc main_arg14) = W (Proc.devRef .tc main_arg14) := by
  refine after_of_forall_not_mem (b := Proc.devRef .tc main_arg14) _ _ (List.forall_iff_forall_mem.mp ?_)
  simp only [seg5, List.Forall, nullary_writes, unary_writes, binary_writes, ternary_writes, quaternary_writes, reshape_writes, Finset.mem_singleton, TRef.unary, TRef.binary, TRef.ternary]
  repeat' apply And.intro
  all_goals exact devRef_ne_of_ne (by decide)

theorem A5_14 (V : Valuation τ sig (Elt F)) : W5 V (Proc.devRef .tc main_arg14) = V (Proc.devRef .tc main_arg14) :=
  (keep5_main_arg14 (W4 V)).trans (A4_14 V)

set_option maxRecDepth 8192 in
set_option maxHeartbeats 4000000 in
theorem keep1_main_arg15 (W : Valuation τ sig (Elt F)) : after seg1 W (Proc.devRef .tc main_arg15) = W (Proc.devRef .tc main_arg15) := by
  refine after_of_forall_not_mem (b := Proc.devRef .tc main_arg15) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_15 (V : Valuation τ sig (Elt F)) : W1 V (Proc.devRef .tc main_arg15) = V (Proc.devRef .tc main_arg15) :=
  keep1_main_arg15 (W0 V)

set_option maxRecDepth 8192 in
set_option maxHeartbeats 4000000 in
theorem keep2_main_arg15 (W : Valuation τ sig (Elt F)) : after seg2 W (Proc.devRef .tc main_arg15) = W (Proc.devRef .tc main_arg15) := by
  refine after_of_forall_not_mem (b := Proc.devRef .tc main_arg15) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_15 (V : Valuation τ sig (Elt F)) : W2 V (Proc.devRef .tc main_arg15) = V (Proc.devRef .tc main_arg15) :=
  (keep2_main_arg15 (W1 V)).trans (A1_15 V)

set_option maxRecDepth 8192 in
set_option maxHeartbeats 4000000 in
theorem keep3_main_arg15 (W : Valuation τ sig (Elt F)) : after seg3 W (Proc.devRef .tc main_arg15) = W (Proc.devRef .tc main_arg15) := by
  refine after_of_forall_not_mem (b := Proc.devRef .tc main_arg15) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_15 (V : Valuation τ sig (Elt F)) : W3 V (Proc.devRef .tc main_arg15) = V (Proc.devRef .tc main_arg15) :=
  (keep3_main_arg15 (W2 V)).trans (A2_15 V)

set_option maxRecDepth 8192 in
set_option maxHeartbeats 4000000 in
theorem keep4_main_arg15 (W : Valuation τ sig (Elt F)) : after seg4 W (Proc.devRef .tc main_arg15) = W (Proc.devRef .tc main_arg15) := by
  refine after_of_forall_not_mem (b := Proc.devRef .tc main_arg15) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_15 (V : Valuation τ sig (Elt F)) : W4 V (Proc.devRef .tc main_arg15) = V (Proc.devRef .tc main_arg15) :=
  (keep4_main_arg15 (W3 V)).trans (A3_15 V)

set_option maxRecDepth 8192 in
set_option maxHeartbeats 4000000 in
theorem keep5_main_arg15 (W : Valuation τ sig (Elt F)) : after seg5 W (Proc.devRef .tc main_arg15) = W (Proc.devRef .tc main_arg15) := by
  refine after_of_forall_not_mem (b := Proc.devRef .tc main_arg15) _ _ (List.forall_iff_forall_mem.mp ?_)
  simp only [seg5, List.Forall, nullary_writes, unary_writes, binary_writes, ternary_writes, quaternary_writes, reshape_writes, Finset.mem_singleton, TRef.unary, TRef.binary, TRef.ternary]
  repeat' apply And.intro
  all_goals exact devRef_ne_of_ne (by decide)

theorem A5_15 (V : Valuation τ sig (Elt F)) : W5 V (Proc.devRef .tc main_arg15) = V (Proc.devRef .tc main_arg15) :=
  (keep5_main_arg15 (W4 V)).trans (A4_15 V)

theorem L6_main_v77 (V : Valuation τ sig (Elt F)) : W6 V (Proc.devRef .tc main_v77) = Cert.ReferenceIdeal.Read.val_main_v77 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  seg6_main_v77 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (A5_2 V) (A5_14 V) (A5_15 V) (L5_main_v70 V)

/-! ### Segment 7 -/

set_option maxRecDepth 8192 in
set_option maxHeartbeats 4000000 in
theorem seg7_main_v86 (W : Valuation τ sig (Elt F)) (a0 : (⟨S100000x64, .f32⟩ : BufTy).Contents (Elt F)) (a1 : (⟨S2x1600000, .i32⟩ : BufTy).Contents (Elt F)) (a2 : (⟨S100000, .i32⟩ : BufTy).Contents (Elt F)) (a3 : (⟨S1600000, .f32⟩ : BufTy).Contents (Elt F)) (a4 : (⟨S64x128, .f32⟩ : BufTy).Contents (Elt F)) (a5 : (⟨S128, .f32⟩ : BufTy).Contents (Elt F)) (a6 : (⟨S64x128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F)) (a10 : (⟨S192x128, .f32⟩ : BufTy).Contents (Elt F)) (a11 : (⟨S128, .f32⟩ : BufTy).Contents (Elt F)) (a12 : (⟨S192x128, .f32⟩ : BufTy).Contents (Elt F)) (a13 : (⟨S128, .f32⟩ : BufTy).Contents (Elt F)) (a14 : (⟨S128x128, .f32⟩ : BufTy).Contents (Elt F)) (a15 : (⟨S128, .f32⟩ : BufTy).Contents (Elt F)) (a16 : (⟨S128x258, .f32⟩ : BufTy).Contents (Elt F)) (a17 : (⟨S258, .f32⟩ : BufTy).Contents (Elt F))
    (h16 : W (Proc.devRef .tc main_arg16) = a16) (h17 : W (Proc.devRef .tc main_arg17) = a17) (h_main_v77 : W (Proc.devRef .tc main_v77) = Cert.ReferenceIdeal.Read.val_main_v77 (F := F) a0 a1 a2 a3 a4 a5 a6 a7 a8 a9 a10 a11 a12 a13 a14 a15) :
    after seg7 W (Proc.devRef .tc main_v86) = Cert.ReferenceIdeal.Read.val_main_v86 (F := F) a0 a1 a2 a3 a4 a5 a6 a7 a8 a9 a10 a11 a12 a13 a14 a15 a16 a17 := by
  after_results_simp
  try simp only [h16, h17, h_main_v77]
  simp only [Cert.ReferenceIdeal.Read.val_main_v86, Cert.ReferenceIdeal.Read.val_main_v85, Cert.ReferenceIdeal.Read.val_main_v84, Cert.ReferenceIdeal.Read.val_main_v83, Cert.ReferenceIdeal.Read.val_main_v82, Cert.ReferenceIdeal.Read.val_main_v81, Cert.ReferenceIdeal.Read.val_main_v80, Cert.ReferenceIdeal.Read.val_main_cst_14, Cert.ReferenceIdeal.Read.val_main_v79, Cert.ReferenceIdeal.Read.val_main_v78, Cert.ReferenceIdeal.Read.val_main_cst_13]
  try simp only [TRef.ofBuf, TRef.toBuf, cast_eq]
  try rfl

set_option maxRecDepth 8192 in
set_option maxHeartbeats 4000000 in
theorem keep1_main_arg16 (W : Valuation τ sig (Elt F)) : after seg1 W (Proc.devRef .tc main_arg16) = W (Proc.devRef .tc main_arg16) := by
  refine after_of_forall_not_mem (b := Proc.devRef .tc main_arg16) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_16 (V : Valuation τ sig (Elt F)) : W1 V (Proc.devRef .tc main_arg16) = V (Proc.devRef .tc main_arg16) :=
  keep1_main_arg16 (W0 V)

set_option maxRecDepth 8192 in
set_option maxHeartbeats 4000000 in
theorem keep2_main_arg16 (W : Valuation τ sig (Elt F)) : after seg2 W (Proc.devRef .tc main_arg16) = W (Proc.devRef .tc main_arg16) := by
  refine after_of_forall_not_mem (b := Proc.devRef .tc main_arg16) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_16 (V : Valuation τ sig (Elt F)) : W2 V (Proc.devRef .tc main_arg16) = V (Proc.devRef .tc main_arg16) :=
  (keep2_main_arg16 (W1 V)).trans (A1_16 V)

set_option maxRecDepth 8192 in
set_option maxHeartbeats 4000000 in
theorem keep3_main_arg16 (W : Valuation τ sig (Elt F)) : after seg3 W (Proc.devRef .tc main_arg16) = W (Proc.devRef .tc main_arg16) := by
  refine after_of_forall_not_mem (b := Proc.devRef .tc main_arg16) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_16 (V : Valuation τ sig (Elt F)) : W3 V (Proc.devRef .tc main_arg16) = V (Proc.devRef .tc main_arg16) :=
  (keep3_main_arg16 (W2 V)).trans (A2_16 V)

set_option maxRecDepth 8192 in
set_option maxHeartbeats 4000000 in
theorem keep4_main_arg16 (W : Valuation τ sig (Elt F)) : after seg4 W (Proc.devRef .tc main_arg16) = W (Proc.devRef .tc main_arg16) := by
  refine after_of_forall_not_mem (b := Proc.devRef .tc main_arg16) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_16 (V : Valuation τ sig (Elt F)) : W4 V (Proc.devRef .tc main_arg16) = V (Proc.devRef .tc main_arg16) :=
  (keep4_main_arg16 (W3 V)).trans (A3_16 V)

set_option maxRecDepth 8192 in
set_option maxHeartbeats 4000000 in
theorem keep5_main_arg16 (W : Valuation τ sig (Elt F)) : after seg5 W (Proc.devRef .tc main_arg16) = W (Proc.devRef .tc main_arg16) := by
  refine after_of_forall_not_mem (b := Proc.devRef .tc main_arg16) _ _ (List.forall_iff_forall_mem.mp ?_)
  simp only [seg5, List.Forall, nullary_writes, unary_writes, binary_writes, ternary_writes, quaternary_writes, reshape_writes, Finset.mem_singleton, TRef.unary, TRef.binary, TRef.ternary]
  repeat' apply And.intro
  all_goals exact devRef_ne_of_ne (by decide)

theorem A5_16 (V : Valuation τ sig (Elt F)) : W5 V (Proc.devRef .tc main_arg16) = V (Proc.devRef .tc main_arg16) :=
  (keep5_main_arg16 (W4 V)).trans (A4_16 V)

set_option maxRecDepth 8192 in
set_option maxHeartbeats 4000000 in
theorem keep6_main_arg16 (W : Valuation τ sig (Elt F)) : after seg6 W (Proc.devRef .tc main_arg16) = W (Proc.devRef .tc main_arg16) := by
  refine after_of_forall_not_mem (b := Proc.devRef .tc main_arg16) _ _ (List.forall_iff_forall_mem.mp ?_)
  simp only [seg6, List.Forall, nullary_writes, unary_writes, binary_writes, ternary_writes, quaternary_writes, reshape_writes, Finset.mem_singleton, TRef.unary, TRef.binary, TRef.ternary]
  repeat' apply And.intro
  all_goals exact devRef_ne_of_ne (by decide)

theorem A6_16 (V : Valuation τ sig (Elt F)) : W6 V (Proc.devRef .tc main_arg16) = V (Proc.devRef .tc main_arg16) :=
  (keep6_main_arg16 (W5 V)).trans (A5_16 V)

set_option maxRecDepth 8192 in
set_option maxHeartbeats 4000000 in
theorem keep1_main_arg17 (W : Valuation τ sig (Elt F)) : after seg1 W (Proc.devRef .tc main_arg17) = W (Proc.devRef .tc main_arg17) := by
  refine after_of_forall_not_mem (b := Proc.devRef .tc main_arg17) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_17 (V : Valuation τ sig (Elt F)) : W1 V (Proc.devRef .tc main_arg17) = V (Proc.devRef .tc main_arg17) :=
  keep1_main_arg17 (W0 V)

set_option maxRecDepth 8192 in
set_option maxHeartbeats 4000000 in
theorem keep2_main_arg17 (W : Valuation τ sig (Elt F)) : after seg2 W (Proc.devRef .tc main_arg17) = W (Proc.devRef .tc main_arg17) := by
  refine after_of_forall_not_mem (b := Proc.devRef .tc main_arg17) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_17 (V : Valuation τ sig (Elt F)) : W2 V (Proc.devRef .tc main_arg17) = V (Proc.devRef .tc main_arg17) :=
  (keep2_main_arg17 (W1 V)).trans (A1_17 V)

set_option maxRecDepth 8192 in
set_option maxHeartbeats 4000000 in
theorem keep3_main_arg17 (W : Valuation τ sig (Elt F)) : after seg3 W (Proc.devRef .tc main_arg17) = W (Proc.devRef .tc main_arg17) := by
  refine after_of_forall_not_mem (b := Proc.devRef .tc main_arg17) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_17 (V : Valuation τ sig (Elt F)) : W3 V (Proc.devRef .tc main_arg17) = V (Proc.devRef .tc main_arg17) :=
  (keep3_main_arg17 (W2 V)).trans (A2_17 V)

set_option maxRecDepth 8192 in
set_option maxHeartbeats 4000000 in
theorem keep4_main_arg17 (W : Valuation τ sig (Elt F)) : after seg4 W (Proc.devRef .tc main_arg17) = W (Proc.devRef .tc main_arg17) := by
  refine after_of_forall_not_mem (b := Proc.devRef .tc main_arg17) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_17 (V : Valuation τ sig (Elt F)) : W4 V (Proc.devRef .tc main_arg17) = V (Proc.devRef .tc main_arg17) :=
  (keep4_main_arg17 (W3 V)).trans (A3_17 V)

set_option maxRecDepth 8192 in
set_option maxHeartbeats 4000000 in
theorem keep5_main_arg17 (W : Valuation τ sig (Elt F)) : after seg5 W (Proc.devRef .tc main_arg17) = W (Proc.devRef .tc main_arg17) := by
  refine after_of_forall_not_mem (b := Proc.devRef .tc main_arg17) _ _ (List.forall_iff_forall_mem.mp ?_)
  simp only [seg5, List.Forall, nullary_writes, unary_writes, binary_writes, ternary_writes, quaternary_writes, reshape_writes, Finset.mem_singleton, TRef.unary, TRef.binary, TRef.ternary]
  repeat' apply And.intro
  all_goals exact devRef_ne_of_ne (by decide)

theorem A5_17 (V : Valuation τ sig (Elt F)) : W5 V (Proc.devRef .tc main_arg17) = V (Proc.devRef .tc main_arg17) :=
  (keep5_main_arg17 (W4 V)).trans (A4_17 V)

set_option maxRecDepth 8192 in
set_option maxHeartbeats 4000000 in
theorem keep6_main_arg17 (W : Valuation τ sig (Elt F)) : after seg6 W (Proc.devRef .tc main_arg17) = W (Proc.devRef .tc main_arg17) := by
  refine after_of_forall_not_mem (b := Proc.devRef .tc main_arg17) _ _ (List.forall_iff_forall_mem.mp ?_)
  simp only [seg6, List.Forall, nullary_writes, unary_writes, binary_writes, ternary_writes, quaternary_writes, reshape_writes, Finset.mem_singleton, TRef.unary, TRef.binary, TRef.ternary]
  repeat' apply And.intro
  all_goals exact devRef_ne_of_ne (by decide)

theorem A6_17 (V : Valuation τ sig (Elt F)) : W6 V (Proc.devRef .tc main_arg17) = V (Proc.devRef .tc main_arg17) :=
  (keep6_main_arg17 (W5 V)).trans (A5_17 V)

theorem L7_main_v86 (V : Valuation τ sig (Elt F)) : W7 V (Proc.devRef .tc main_v86) = Cert.ReferenceIdeal.Read.val_main_v86 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  seg7_main_v86 (W6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (A6_16 V) (A6_17 V) (L6_main_v77 V)

/-! ### Segment 8 -/

set_option maxRecDepth 8192 in
set_option maxHeartbeats 4000000 in
theorem seg8_main_v101 (W : Valuation τ sig (Elt F)) (a0 : (⟨S100000x64, .f32⟩ : BufTy).Contents (Elt F)) (a1 : (⟨S2x1600000, .i32⟩ : BufTy).Contents (Elt F)) (a2 : (⟨S100000, .i32⟩ : BufTy).Contents (Elt F)) (a3 : (⟨S1600000, .f32⟩ : BufTy).Contents (Elt F)) (a4 : (⟨S64x128, .f32⟩ : BufTy).Contents (Elt F)) (a5 : (⟨S128, .f32⟩ : BufTy).Contents (Elt F)) (a6 : (⟨S64x128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F)) (a10 : (⟨S192x128, .f32⟩ : BufTy).Contents (Elt F)) (a11 : (⟨S128, .f32⟩ : BufTy).Contents (Elt F)) (a12 : (⟨S192x128, .f32⟩ : BufTy).Contents (Elt F)) (a13 : (⟨S128, .f32⟩ : BufTy).Contents (Elt F)) (a14 : (⟨S128x128, .f32⟩ : BufTy).Contents (Elt F)) (a15 : (⟨S128, .f32⟩ : BufTy).Contents (Elt F)) (a16 : (⟨S128x258, .f32⟩ : BufTy).Contents (Elt F)) (a17 : (⟨S258, .f32⟩ : BufTy).Contents (Elt F)) (a18 : (⟨S258x1, .f32⟩ : BufTy).Contents (Elt F)) (a19 : (⟨S1, .f32⟩ : BufTy).Contents (Elt F))
    (h18 : W (Proc.devRef .tc main_arg18) = a18) (h19 : W (Proc.devRef .tc main_arg19) = a19) (h_main_v86 : W (Proc.devRef .tc main_v86) = Cert.ReferenceIdeal.Read.val_main_v86 (F := F) a0 a1 a2 a3 a4 a5 a6 a7 a8 a9 a10 a11 a12 a13 a14 a15 a16 a17) :
    after seg8 W (Proc.devRef .tc main_v101) = Cert.ReferenceIdeal.Read.val_main_v101 (F := F) a0 a1 a2 a3 a4 a5 a6 a7 a8 a9 a10 a11 a12 a13 a14 a15 a16 a17 a18 a19 := by
  after_results_simp
  try simp only [h18, h19, h_main_v86]
  simp only [Cert.ReferenceIdeal.Read.val_main_v101, Cert.ReferenceIdeal.Read.val_main_v100, Cert.ReferenceIdeal.Read.val_main_cst_18, Cert.ReferenceIdeal.Read.val_main_v99, Cert.ReferenceIdeal.Read.val_main_v98, Cert.ReferenceIdeal.Read.val_main_cst_17, Cert.ReferenceIdeal.Read.val_main_v97, Cert.ReferenceIdeal.Read.val_main_v96, Cert.ReferenceIdeal.Read.val_main_v95, Cert.ReferenceIdeal.Read.val_main_v94, Cert.ReferenceIdeal.Read.val_main_v93, Cert.ReferenceIdeal.Read.val_main_v92, Cert.ReferenceIdeal.Read.val_main_v91, Cert.ReferenceIdeal.Read.val_main_v90, Cert.ReferenceIdeal.Read.val_main_v89, Cert.ReferenceIdeal.Read.val_main_cst_16, Cert.ReferenceIdeal.Read.val_main_v88, Cert.ReferenceIdeal.Read.val_main_v87, Cert.ReferenceIdeal.Read.val_main_cst_15]
  try simp only [TRef.ofBuf, TRef.toBuf, cast_eq]
  try rfl

set_option maxRecDepth 8192 in
set_option maxHeartbeats 4000000 in
theorem keep1_main_arg18 (W : Valuation τ sig (Elt F)) : after seg1 W (Proc.devRef .tc main_arg18) = W (Proc.devRef .tc main_arg18) := by
  refine after_of_forall_not_mem (b := Proc.devRef .tc main_arg18) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_18 (V : Valuation τ sig (Elt F)) : W1 V (Proc.devRef .tc main_arg18) = V (Proc.devRef .tc main_arg18) :=
  keep1_main_arg18 (W0 V)

set_option maxRecDepth 8192 in
set_option maxHeartbeats 4000000 in
theorem keep2_main_arg18 (W : Valuation τ sig (Elt F)) : after seg2 W (Proc.devRef .tc main_arg18) = W (Proc.devRef .tc main_arg18) := by
  refine after_of_forall_not_mem (b := Proc.devRef .tc main_arg18) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_18 (V : Valuation τ sig (Elt F)) : W2 V (Proc.devRef .tc main_arg18) = V (Proc.devRef .tc main_arg18) :=
  (keep2_main_arg18 (W1 V)).trans (A1_18 V)

set_option maxRecDepth 8192 in
set_option maxHeartbeats 4000000 in
theorem keep3_main_arg18 (W : Valuation τ sig (Elt F)) : after seg3 W (Proc.devRef .tc main_arg18) = W (Proc.devRef .tc main_arg18) := by
  refine after_of_forall_not_mem (b := Proc.devRef .tc main_arg18) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_18 (V : Valuation τ sig (Elt F)) : W3 V (Proc.devRef .tc main_arg18) = V (Proc.devRef .tc main_arg18) :=
  (keep3_main_arg18 (W2 V)).trans (A2_18 V)

set_option maxRecDepth 8192 in
set_option maxHeartbeats 4000000 in
theorem keep4_main_arg18 (W : Valuation τ sig (Elt F)) : after seg4 W (Proc.devRef .tc main_arg18) = W (Proc.devRef .tc main_arg18) := by
  refine after_of_forall_not_mem (b := Proc.devRef .tc main_arg18) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_18 (V : Valuation τ sig (Elt F)) : W4 V (Proc.devRef .tc main_arg18) = V (Proc.devRef .tc main_arg18) :=
  (keep4_main_arg18 (W3 V)).trans (A3_18 V)

set_option maxRecDepth 8192 in
set_option maxHeartbeats 4000000 in
theorem keep5_main_arg18 (W : Valuation τ sig (Elt F)) : after seg5 W (Proc.devRef .tc main_arg18) = W (Proc.devRef .tc main_arg18) := by
  refine after_of_forall_not_mem (b := Proc.devRef .tc main_arg18) _ _ (List.forall_iff_forall_mem.mp ?_)
  simp only [seg5, List.Forall, nullary_writes, unary_writes, binary_writes, ternary_writes, quaternary_writes, reshape_writes, Finset.mem_singleton, TRef.unary, TRef.binary, TRef.ternary]
  repeat' apply And.intro
  all_goals exact devRef_ne_of_ne (by decide)

theorem A5_18 (V : Valuation τ sig (Elt F)) : W5 V (Proc.devRef .tc main_arg18) = V (Proc.devRef .tc main_arg18) :=
  (keep5_main_arg18 (W4 V)).trans (A4_18 V)

set_option maxRecDepth 8192 in
set_option maxHeartbeats 4000000 in
theorem keep6_main_arg18 (W : Valuation τ sig (Elt F)) : after seg6 W (Proc.devRef .tc main_arg18) = W (Proc.devRef .tc main_arg18) := by
  refine after_of_forall_not_mem (b := Proc.devRef .tc main_arg18) _ _ (List.forall_iff_forall_mem.mp ?_)
  simp only [seg6, List.Forall, nullary_writes, unary_writes, binary_writes, ternary_writes, quaternary_writes, reshape_writes, Finset.mem_singleton, TRef.unary, TRef.binary, TRef.ternary]
  repeat' apply And.intro
  all_goals exact devRef_ne_of_ne (by decide)

theorem A6_18 (V : Valuation τ sig (Elt F)) : W6 V (Proc.devRef .tc main_arg18) = V (Proc.devRef .tc main_arg18) :=
  (keep6_main_arg18 (W5 V)).trans (A5_18 V)

set_option maxRecDepth 8192 in
set_option maxHeartbeats 4000000 in
theorem keep7_main_arg18 (W : Valuation τ sig (Elt F)) : after seg7 W (Proc.devRef .tc main_arg18) = W (Proc.devRef .tc main_arg18) := by
  refine after_of_forall_not_mem (b := Proc.devRef .tc main_arg18) _ _ (List.forall_iff_forall_mem.mp ?_)
  simp only [seg7, List.Forall, nullary_writes, unary_writes, binary_writes, ternary_writes, quaternary_writes, reshape_writes, Finset.mem_singleton, TRef.unary, TRef.binary, TRef.ternary]
  repeat' apply And.intro
  all_goals exact devRef_ne_of_ne (by decide)

theorem A7_18 (V : Valuation τ sig (Elt F)) : W7 V (Proc.devRef .tc main_arg18) = V (Proc.devRef .tc main_arg18) :=
  (keep7_main_arg18 (W6 V)).trans (A6_18 V)

set_option maxRecDepth 8192 in
set_option maxHeartbeats 4000000 in
theorem keep1_main_arg19 (W : Valuation τ sig (Elt F)) : after seg1 W (Proc.devRef .tc main_arg19) = W (Proc.devRef .tc main_arg19) := by
  refine after_of_forall_not_mem (b := Proc.devRef .tc main_arg19) _ _ (List.forall_iff_forall_mem.mp ?_)
  simp only [seg1, List.Forall, nullary_writes, unary_writes, binary_writes, ternary_writes, quaternary_writes, reshape_writes, Finset.mem_singleton, TRef.unary, TRef.binary, TRef.ternary]
  repeat' apply And.intro
  all_goals exact devRef_ne_of_ne (by decide)

theorem A1_19 (V : Valuation τ sig (Elt F)) : W1 V (Proc.devRef .tc main_arg19) = V (Proc.devRef .tc main_arg19) :=
  keep1_main_arg19 (W0 V)

set_option maxRecDepth 8192 in
set_option maxHeartbeats 4000000 in
theorem keep2_main_arg19 (W : Valuation τ sig (Elt F)) : after seg2 W (Proc.devRef .tc main_arg19) = W (Proc.devRef .tc main_arg19) := by
  refine after_of_forall_not_mem (b := Proc.devRef .tc main_arg19) _ _ (List.forall_iff_forall_mem.mp ?_)
  simp only [seg2, List.Forall, nullary_writes, unary_writes, binary_writes, ternary_writes, quaternary_writes, reshape_writes, Finset.mem_singleton, TRef.unary, TRef.binary, TRef.ternary]
  repeat' apply And.intro
  all_goals exact devRef_ne_of_ne (by decide)

theorem A2_19 (V : Valuation τ sig (Elt F)) : W2 V (Proc.devRef .tc main_arg19) = V (Proc.devRef .tc main_arg19) :=
  (keep2_main_arg19 (W1 V)).trans (A1_19 V)

set_option maxRecDepth 8192 in
set_option maxHeartbeats 4000000 in
theorem keep3_main_arg19 (W : Valuation τ sig (Elt F)) : after seg3 W (Proc.devRef .tc main_arg19) = W (Proc.devRef .tc main_arg19) := by
  refine after_of_forall_not_mem (b := Proc.devRef .tc main_arg19) _ _ (List.forall_iff_forall_mem.mp ?_)
  simp only [seg3, List.Forall, nullary_writes, unary_writes, binary_writes, ternary_writes, quaternary_writes, reshape_writes, Finset.mem_singleton, TRef.unary, TRef.binary, TRef.ternary]
  repeat' apply And.intro
  all_goals exact devRef_ne_of_ne (by decide)

theorem A3_19 (V : Valuation τ sig (Elt F)) : W3 V (Proc.devRef .tc main_arg19) = V (Proc.devRef .tc main_arg19) :=
  (keep3_main_arg19 (W2 V)).trans (A2_19 V)

set_option maxRecDepth 8192 in
set_option maxHeartbeats 4000000 in
theorem keep4_main_arg19 (W : Valuation τ sig (Elt F)) : after seg4 W (Proc.devRef .tc main_arg19) = W (Proc.devRef .tc main_arg19) := by
  refine after_of_forall_not_mem (b := Proc.devRef .tc main_arg19) _ _ (List.forall_iff_forall_mem.mp ?_)
  simp only [seg4, List.Forall, nullary_writes, unary_writes, binary_writes, ternary_writes, quaternary_writes, reshape_writes, Finset.mem_singleton, TRef.unary, TRef.binary, TRef.ternary]
  repeat' apply And.intro
  all_goals exact devRef_ne_of_ne (by decide)

theorem A4_19 (V : Valuation τ sig (Elt F)) : W4 V (Proc.devRef .tc main_arg19) = V (Proc.devRef .tc main_arg19) :=
  (keep4_main_arg19 (W3 V)).trans (A3_19 V)

set_option maxRecDepth 8192 in
set_option maxHeartbeats 4000000 in
theorem keep5_main_arg19 (W : Valuation τ sig (Elt F)) : after seg5 W (Proc.devRef .tc main_arg19) = W (Proc.devRef .tc main_arg19) := by
  refine after_of_forall_not_mem (b := Proc.devRef .tc main_arg19) _ _ (List.forall_iff_forall_mem.mp ?_)
  simp only [seg5, List.Forall, nullary_writes, unary_writes, binary_writes, ternary_writes, quaternary_writes, reshape_writes, Finset.mem_singleton, TRef.unary, TRef.binary, TRef.ternary]
  repeat' apply And.intro
  all_goals exact devRef_ne_of_ne (by decide)

theorem A5_19 (V : Valuation τ sig (Elt F)) : W5 V (Proc.devRef .tc main_arg19) = V (Proc.devRef .tc main_arg19) :=
  (keep5_main_arg19 (W4 V)).trans (A4_19 V)

set_option maxRecDepth 8192 in
set_option maxHeartbeats 4000000 in
theorem keep6_main_arg19 (W : Valuation τ sig (Elt F)) : after seg6 W (Proc.devRef .tc main_arg19) = W (Proc.devRef .tc main_arg19) := by
  refine after_of_forall_not_mem (b := Proc.devRef .tc main_arg19) _ _ (List.forall_iff_forall_mem.mp ?_)
  simp only [seg6, List.Forall, nullary_writes, unary_writes, binary_writes, ternary_writes, quaternary_writes, reshape_writes, Finset.mem_singleton, TRef.unary, TRef.binary, TRef.ternary]
  repeat' apply And.intro
  all_goals exact devRef_ne_of_ne (by decide)

theorem A6_19 (V : Valuation τ sig (Elt F)) : W6 V (Proc.devRef .tc main_arg19) = V (Proc.devRef .tc main_arg19) :=
  (keep6_main_arg19 (W5 V)).trans (A5_19 V)

set_option maxRecDepth 8192 in
set_option maxHeartbeats 4000000 in
theorem keep7_main_arg19 (W : Valuation τ sig (Elt F)) : after seg7 W (Proc.devRef .tc main_arg19) = W (Proc.devRef .tc main_arg19) := by
  refine after_of_forall_not_mem (b := Proc.devRef .tc main_arg19) _ _ (List.forall_iff_forall_mem.mp ?_)
  simp only [seg7, List.Forall, nullary_writes, unary_writes, binary_writes, ternary_writes, quaternary_writes, reshape_writes, Finset.mem_singleton, TRef.unary, TRef.binary, TRef.ternary]
  repeat' apply And.intro
  all_goals exact devRef_ne_of_ne (by decide)

theorem A7_19 (V : Valuation τ sig (Elt F)) : W7 V (Proc.devRef .tc main_arg19) = V (Proc.devRef .tc main_arg19) :=
  (keep7_main_arg19 (W6 V)).trans (A6_19 V)

theorem L8_main_v101 (V : Valuation τ sig (Elt F)) : W8 V (Proc.devRef .tc main_v101) = Cert.ReferenceIdeal.Read.val_main_v101 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  seg8_main_v101 (W7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (A7_18 V) (A7_19 V) (L7_main_v86 V)

/-! ## The result and the arguments after all the operations -/

/-- After all the operations the result buffer holds the last stage of the contents the arguments' buffers started with. -/
theorem after_main_v101 (V : Valuation τ sig (Elt F)) :
    after ops V (Proc.devRef .tc main_v101) = Cert.ReferenceIdeal.Read.val_main_v101 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_eq]; exact L8_main_v101 V

/-! No operation writes an argument: after all of them each argument's buffer holds what it held. -/

set_option maxRecDepth 8192 in
set_option maxHeartbeats 4000000 in
theorem kept_arg0 (V : Valuation τ sig (Elt F)) : after ops V (Proc.devRef .tc main_arg0) = V (Proc.devRef .tc main_arg0) := by
  refine after_of_forall_not_mem (b := Proc.devRef .tc main_arg0) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg1 (V : Valuation τ sig (Elt F)) : after ops V (Proc.devRef .tc main_arg1) = V (Proc.devRef .tc main_arg1) := by
  refine after_of_forall_not_mem (b := Proc.devRef .tc main_arg1) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg2 (V : Valuation τ sig (Elt F)) : after ops V (Proc.devRef .tc main_arg2) = V (Proc.devRef .tc main_arg2) := by
  refine after_of_forall_not_mem (b := Proc.devRef .tc main_arg2) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg3 (V : Valuation τ sig (Elt F)) : after ops V (Proc.devRef .tc main_arg3) = V (Proc.devRef .tc main_arg3) := by
  refine after_of_forall_not_mem (b := Proc.devRef .tc main_arg3) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg4 (V : Valuation τ sig (Elt F)) : after ops V (Proc.devRef .tc main_arg4) = V (Proc.devRef .tc main_arg4) := by
  refine after_of_forall_not_mem (b := Proc.devRef .tc main_arg4) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg5 (V : Valuation τ sig (Elt F)) : after ops V (Proc.devRef .tc main_arg5) = V (Proc.devRef .tc main_arg5) := by
  refine after_of_forall_not_mem (b := Proc.devRef .tc main_arg5) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg6 (V : Valuation τ sig (Elt F)) : after ops V (Proc.devRef .tc main_arg6) = V (Proc.devRef .tc main_arg6) := by
  refine after_of_forall_not_mem (b := Proc.devRef .tc main_arg6) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg7 (V : Valuation τ sig (Elt F)) : after ops V (Proc.devRef .tc main_arg7) = V (Proc.devRef .tc main_arg7) := by
  refine after_of_forall_not_mem (b := Proc.devRef .tc main_arg7) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg8 (V : Valuation τ sig (Elt F)) : after ops V (Proc.devRef .tc main_arg8) = V (Proc.devRef .tc main_arg8) := by
  refine after_of_forall_not_mem (b := Proc.devRef .tc main_arg8) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg9 (V : Valuation τ sig (Elt F)) : after ops V (Proc.devRef .tc main_arg9) = V (Proc.devRef .tc main_arg9) := by
  refine after_of_forall_not_mem (b := Proc.devRef .tc main_arg9) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg10 (V : Valuation τ sig (Elt F)) : after ops V (Proc.devRef .tc main_arg10) = V (Proc.devRef .tc main_arg10) := by
  refine after_of_forall_not_mem (b := Proc.devRef .tc main_arg10) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg11 (V : Valuation τ sig (Elt F)) : after ops V (Proc.devRef .tc main_arg11) = V (Proc.devRef .tc main_arg11) := by
  refine after_of_forall_not_mem (b := Proc.devRef .tc main_arg11) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg12 (V : Valuation τ sig (Elt F)) : after ops V (Proc.devRef .tc main_arg12) = V (Proc.devRef .tc main_arg12) := by
  refine after_of_forall_not_mem (b := Proc.devRef .tc main_arg12) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg13 (V : Valuation τ sig (Elt F)) : after ops V (Proc.devRef .tc main_arg13) = V (Proc.devRef .tc main_arg13) := by
  refine after_of_forall_not_mem (b := Proc.devRef .tc main_arg13) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg14 (V : Valuation τ sig (Elt F)) : after ops V (Proc.devRef .tc main_arg14) = V (Proc.devRef .tc main_arg14) := by
  refine after_of_forall_not_mem (b := Proc.devRef .tc main_arg14) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg15 (V : Valuation τ sig (Elt F)) : after ops V (Proc.devRef .tc main_arg15) = V (Proc.devRef .tc main_arg15) := by
  refine after_of_forall_not_mem (b := Proc.devRef .tc main_arg15) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg16 (V : Valuation τ sig (Elt F)) : after ops V (Proc.devRef .tc main_arg16) = V (Proc.devRef .tc main_arg16) := by
  refine after_of_forall_not_mem (b := Proc.devRef .tc main_arg16) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg17 (V : Valuation τ sig (Elt F)) : after ops V (Proc.devRef .tc main_arg17) = V (Proc.devRef .tc main_arg17) := by
  refine after_of_forall_not_mem (b := Proc.devRef .tc main_arg17) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg18 (V : Valuation τ sig (Elt F)) : after ops V (Proc.devRef .tc main_arg18) = V (Proc.devRef .tc main_arg18) := by
  refine after_of_forall_not_mem (b := Proc.devRef .tc main_arg18) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

set_option maxRecDepth 8192 in
set_option maxHeartbeats 4000000 in
theorem kept_arg19 (V : Valuation τ sig (Elt F)) : after ops V (Proc.devRef .tc main_arg19) = V (Proc.devRef .tc main_arg19) := by
  refine after_of_forall_not_mem (b := Proc.devRef .tc main_arg19) _ _ (List.forall_iff_forall_mem.mp ?_)
  simp only [ops, List.Forall, nullary_writes, unary_writes, binary_writes, ternary_writes, quaternary_writes, reshape_writes, Finset.mem_singleton, TRef.unary, TRef.binary, TRef.ternary]
  repeat' apply And.intro
  all_goals exact devRef_ne_of_ne (by decide)

/-- On every device, for any float values, from any memory with zero counters: every weakly fair execution of
    @main terminates with the result at the operations' value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = res_main_v101 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v101).trans (after_main_v101 _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _),
      (h c main_arg17).trans (kept_arg17 _),
      (h c main_arg18).trans (kept_arg18 _),
      (h c main_arg19).trans (kept_arg19 _)⟩)
    (run_seq scopedRefs_eq scopedSems_eq defs main (fun _ => ops) main_eq (fun _ => ops_sub) m ρ)

end Cert.ReferenceIdeal.Value

end
-- ==== Proof.RefFrame.lean ====
/-
  The reference program is a straight line of host operations: every weakly fair execution ends with each result
  at the operations' composed term of the launch arguments, and no operation writes an argument.  Dropping the
  statement about the result leaves the reference's frame.
-/
import proofs.«401727_j32504312496833_2_alg».proof.Defs
import proofs.«401727_j32504312496833_2_alg».proof.Proof.RunP
import proofs.«401727_j32504312496833_2_alg».proof.Proof.Gen.ReferenceIdeal
import proofs.«401727_j32504312496833_2_alg».proof.Proof.Gen.Pre_finite_inputs

noncomputable section

namespace Cert.Proof.RefFrame

open Idealize.ShloMosaic Idealize.SL.Sem

/-- The reference runs, faults nowhere, and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RefConv.lean ====
/-
  The reference's two graph convolution layers, entry by entry: each is the layer of the network over its own
  aggregated messages.

  At an entry (n, q) the reference's value is the select of "the sum is positive" between the sum and the slope
  times the sum, where the sum is ((row n of the aggregated messages · column q of the first weight) + bias q)
  + (row n of the features · column q of the second weight), the bias read through its two broadcasts at q.
  That is the network's layer at (n, q) with the same association, so nothing but the index bookkeeping is left.
-/
import proofs.«401727_j32504312496833_2_alg».proof.Proof.ReadP
import proofs.«401727_j32504312496833_2_alg».proof.Proof.Spec
import Idealize.ShloMosaic.Lib.Pipeline.Value
import Idealize.ShloMosaic.Lib.ValueIdx
import Idealize.ShloMosaic.PureOps.Ideal.Laws

noncomputable section

namespace Cert.Proof.RefConv

open Cert.ReferenceIdeal Cert.ReferenceIdeal.Read Idealize.ShloMosaic Idealize.ShloMosaic.ValueIdx Idealize.ShloMosaic.TcCoe

/-- The reference's first hidden layer is the first layer of the network over its aggregated messages. -/
theorem ref_h1 (x0 : (⟨S100000x64, .f32⟩ : BufTy).Contents (Elt Ideal)) (x1 : (⟨S2x1600000, .i32⟩ : BufTy).Contents (Elt Ideal)) (x3 : (⟨S1600000, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) :
    val_main_v27 (F := Ideal) x0 x1 x3 x4 x5 x6 = Spec.conv (val_main_v16 (F := Ideal) x0 x1 x3) x0 x4 x6 (fun q => x5 (ix1 q)) := by
  funext i
  -- an entry is a row n and a column q
  obtain ⟨n, q, rfl⟩ : ∃ (n : Fin 100000) (q : Fin 128), i = ix2 n q := ⟨i 0, i 1, eq_ix2 i⟩
  -- the two products' operands sit at (n, k) and (k, q); the bias, through both broadcasts, at q
  have el : ∀ k : Fin 64, lidx_main_v17 (ix2 n q) k = ix2 n k := fun k =>
    funext fun a => Fin.ext (by match a with | ⟨0, _⟩ => rfl | ⟨1, _⟩ => rfl)
  have er : ∀ k : Fin 64, ridx_main_v17 (ix2 n q) k = ix2 k q := fun k =>
    funext fun a => Fin.ext (by match a with | ⟨0, _⟩ => rfl | ⟨1, _⟩ => rfl)
  have el' : ∀ k : Fin 64, lidx_main_v21 (ix2 n q) k = ix2 n k := fun k =>
    funext fun a => Fin.ext (by match a with | ⟨0, _⟩ => rfl | ⟨1, _⟩ => rfl)
  have er' : ∀ k : Fin 64, ridx_main_v21 (ix2 n q) k = ix2 k q := fun k =>
    funext fun a => Fin.ext (by match a with | ⟨0, _⟩ => rfl | ⟨1, _⟩ => rfl)
  have eb : idx_main_v18 (idx_main_v19 (ix2 n q)) = ix1 q :=
    funext fun a => Fin.ext (by match a with | ⟨0, _⟩ => rfl)
  -- the entry of the reference, operation by operation down to the arguments
  rw [Spec.conv_ix2, val_main_v27_apply, val_main_v24_apply, val_main_v26_apply, val_main_v22_apply, val_main_v23_apply,
    val_main_v25_apply, val_main_cst_1_apply, val_main_cst_2_apply, val_main_v20_apply, val_main_v21_apply,
    val_main_v17_apply, val_main_v19_apply, val_main_v18_apply]
  -- the aggregated messages stay one unopened matrix
  generalize val_main_v16 (F := Ideal) x0 x1 x3 = agg
  simp only [el, er, el', er', eb, Ideal.addf_def, Ideal.mulf_def, Ideal.ofBits_def]
  rfl

/-- The reference's second hidden layer is the second layer of the network over its aggregated messages. -/
theorem ref_h2 (x0 : (⟨S100000x64, .f32⟩ : BufTy).Contents (Elt Ideal)) (x1 : (⟨S2x1600000, .i32⟩ : BufTy).Contents (Elt Ideal)) (x3 : (⟨S1600000, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v51 (F := Ideal) x0 x1 x3 x4 x5 x6 x7 x8 x9
      = Spec.conv (val_main_v40 (F := Ideal) x0 x1 x3 x4 x5 x6) (val_main_v27 (F := Ideal) x0 x1 x3 x4 x5 x6) x7 x9 (fun q => x8 (ix1 q)) := by
  funext i
  -- an entry is a row n and a column q
  obtain ⟨n, q, rfl⟩ : ∃ (n : Fin 100000) (q : Fin 128), i = ix2 n q := ⟨i 0, i 1, eq_ix2 i⟩
  -- the two products' operands sit at (n, k) and (k, q); the bias, through both broadcasts, at q
  have el : ∀ k : Fin 128, lidx_main_v41 (ix2 n q) k = ix2 n k := fun k =>
    funext fun a => Fin.ext (by match a with | ⟨0, _⟩ => rfl | ⟨1, _⟩ => rfl)
  have er : ∀ k : Fin 128, ridx_main_v41 (ix2 n q) k = ix2 k q := fun k =>
    funext fun a => Fin.ext (by match a with | ⟨0, _⟩ => rfl | ⟨1, _⟩ => rfl)
  have el' : ∀ k : Fin 128, lidx_main_v45 (ix2 n q) k = ix2 n k := fun k =>
    funext fun a => Fin.ext (by match a with | ⟨0, _⟩ => rfl | ⟨1, _⟩ => rfl)
  have er' : ∀ k : Fin 128, ridx_main_v45 (ix2 n q) k = ix2 k q := fun k =>
    funext fun a => Fin.ext (by match a with | ⟨0, _⟩ => rfl | ⟨1, _⟩ => rfl)
  have eb : idx_main_v42 (idx_main_v43 (ix2 n q)) = ix1 q :=
    funext fun a => Fin.ext (by match a with | ⟨0, _⟩ => rfl)
  -- the entry of the reference, operation by operation down to the arguments
  rw [Spec.conv_ix2, val_main_v51_apply, val_main_v48_apply, val_main_v50_apply, val_main_v46_apply, val_main_v47_apply,
    val_main_v49_apply, val_main_cst_6_apply, val_main_cst_7_apply, val_main_v44_apply, val_main_v45_apply,
    val_main_v41_apply, val_main_v43_apply, val_main_v42_apply]
  -- the aggregated messages and the first hidden layer stay two unopened matrices
  generalize val_main_v40 (F := Ideal) x0 x1 x3 x4 x5 x6 = agg
  generalize val_main_v27 (F := Ideal) x0 x1 x3 x4 x5 x6 = h
  simp only [el, er, el', er', eb, Ideal.addf_def, Ideal.mulf_def, Ideal.ofBits_def]
  rfl

end Cert.Proof.RefConv

end
-- ==== Proof.RefGate.lean ====
/-
  The reference's gate, entry by entry: the product of the joined row [hidden, input] with a 192-row weight matrix
  is the sum of the hidden part against its first 128 rows and the input part against its last 64.
-/
import proofs.«401727_j32504312496833_2_alg».proof.Proof.ReadP
import proofs.«401727_j32504312496833_2_alg».proof.Proof.Spec
import Idealize.ShloMosaic.Lib.Pipeline.Value
import Idealize.ShloMosaic.Lib.ValueIdx
import Idealize.ShloMosaic.Lib.IdealHost
import Idealize.ShloMosaic.PureOps.Ideal.Laws
import Mathlib.Algebra.BigOperators.Fin

noncomputable section

namespace Cert.Proof.RefGate

open Cert.ReferenceIdeal Cert.ReferenceIdeal.Read Idealize.ShloMosaic Idealize.ShloMosaic.ValueIdx Idealize.ShloMosaic.TcCoe

/-- The joined row read in its first 128 columns is the hidden row. -/
theorem concat_left {α : Type} (h : S100000x128.Idx → α) (x : S100000x64.Idx → α) (n : Fin 100000) (k : Fin 128) :
    concatenate S100000x192 1 [⟨S100000x128, h⟩, ⟨S100000x64, x⟩] Gen.concatenates_S100000x128_S100000x64_S100000x192_d1
        (ix2 n (⟨k.val, by omega⟩ : Fin 192)) = h (ix2 n k) :=
  concatenate_pair_apply_left 1 h x Gen.concatenates_S100000x128_S100000x64_S100000x192_d1 _ rfl (ix2 n k)
    (fun b => match b with | ⟨0, _⟩ => rfl | ⟨1, _⟩ => rfl)

/-- The joined row read in its last 64 columns is the input row. -/
theorem concat_right {α : Type} (h : S100000x128.Idx → α) (x : S100000x64.Idx → α) (n : Fin 100000) (k : Fin 64) :
    concatenate S100000x192 1 [⟨S100000x128, h⟩, ⟨S100000x64, x⟩] Gen.concatenates_S100000x128_S100000x64_S100000x192_d1
        (ix2 n (⟨128 + k.val, by omega⟩ : Fin 192)) = x (ix2 n k) :=
  concatenate_pair_apply_right 1 h x Gen.concatenates_S100000x128_S100000x64_S100000x192_d1 _ rfl rfl (ix2 n k)
    (fun b => match b with | ⟨0, _⟩ => fun _ => rfl | ⟨1, _⟩ => fun hb => absurd rfl hb)
    (by show k.val + 128 = 128 + k.val; omega)

/-- A sum of 192 terms is the sum of its first 128 and its last 64. -/
theorem sum_split {M : Type} [AddCommMonoid M] (f : Fin 192 → M) :
    ∑ k : Fin 192, f k = (∑ k : Fin 128, f ⟨k.val, by omega⟩) + ∑ k : Fin 64, f ⟨128 + k.val, by omega⟩ :=
  Fin.sum_univ_add (a := 128) (b := 64) f

/-- Row `n` of the joined matrix against column `q` of a 192-row weight matrix: the hidden row against the first
    128 rows plus the input row against the last 64. -/
theorem joined_dot (h : S100000x128.Idx → EReal) (x : S100000x64.Idx → EReal) (w : S192x128.Idx → EReal)
    (n : Fin 100000) (q : Fin 128) :
    ∑ k : Fin 192, concatenate S100000x192 1 [⟨S100000x128, h⟩, ⟨S100000x64, x⟩]
        Gen.concatenates_S100000x128_S100000x64_S100000x192_d1 (ix2 n k) * w (ix2 k q)
      = (∑ k : Fin 128, h (ix2 n k) * Spec.topRows w (ix2 k q)) + ∑ k : Fin 64, x (ix2 n k) * Spec.botRows w (ix2 k q) := by
  rw [sum_split]
  congr 1
  · exact Finset.sum_congr rfl (fun k _ => by rw [concat_left]; rfl)
  · exact Finset.sum_congr rfl (fun k _ => by rw [concat_right]; rfl)

/-- The reference's gate is the network's gate of its second hidden layer. -/
theorem ref_gate (x0 : (⟨S100000x64, .f32⟩ : BufTy).Contents (Elt Ideal)) (x1 : (⟨S2x1600000, .i32⟩ : BufTy).Contents (Elt Ideal)) (x3 : (⟨S1600000, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S192x128, .f32⟩ : BufTy).Contents (Elt Ideal)) (x11 : (⟨S128, .f32⟩ : BufTy).Contents (Elt Ideal)) (x12 : (⟨S192x128, .f32⟩ : BufTy).Contents (Elt Ideal)) (x13 : (⟨S128, .f32⟩ : BufTy).Contents (Elt Ideal)) :
    val_main_v70 (F := Ideal) x0 x1 x3 x4 x5 x6 x7 x8 x9 x10 x11 x12 x13
      = Spec.gate (val_main_v51 (F := Ideal) x0 x1 x3 x4 x5 x6 x7 x8 x9) x0 (Spec.topRows x10) (Spec.botRows x10) (Spec.topRows x12) (Spec.botRows x12)
          (fun q => x11 (ix1 q)) (fun q => x13 (ix1 q)) := by
  funext i
  obtain ⟨n, q, rfl⟩ : ∃ (n : Fin 100000) (q : Fin 128), i = ix2 n q := ⟨i 0, i 1, eq_ix2 i⟩
  -- the index functions of the two products and of the two bias broadcasts, at the entry (n, q)
  have el53 : ∀ k : Fin 192, lidx_main_v53 (ix2 n q) k = ix2 n k := fun k =>
    funext fun a => Fin.ext (by match a with | ⟨0, _⟩ => rfl | ⟨1, _⟩ => rfl)
  have er53 : ∀ k : Fin 192, ridx_main_v53 (ix2 n q) k = ix2 k q := fun k =>
    funext fun a => Fin.ext (by match a with | ⟨0, _⟩ => rfl | ⟨1, _⟩ => rfl)
  have el65 : ∀ k : Fin 192, lidx_main_v65 (ix2 n q) k = ix2 n k := fun k =>
    funext fun a => Fin.ext (by match a with | ⟨0, _⟩ => rfl | ⟨1, _⟩ => rfl)
  have er65 : ∀ k : Fin 192, ridx_main_v65 (ix2 n q) k = ix2 k q := fun k =>
    funext fun a => Fin.ext (by match a with | ⟨0, _⟩ => rfl | ⟨1, _⟩ => rfl)
  have eb55 : idx_main_v54 (idx_main_v55 (ix2 n q)) = ix1 q :=
    funext fun a => Fin.ext (by match a with | ⟨0, _⟩ => rfl)
  have eb67 : idx_main_v66 (idx_main_v67 (ix2 n q)) = ix1 q :=
    funext fun a => Fin.ext (by match a with | ⟨0, _⟩ => rfl)
  rw [val_main_v70_apply, val_main_v64_apply, val_main_v63_apply, val_main_cst_11_apply, val_main_v62_apply,
    val_main_v61_apply, val_main_cst_10_apply, val_main_v60_apply, val_main_v59_apply, val_main_v58_apply,
    val_main_v57_apply, val_main_call2_v4_apply, val_main_call2_v3_apply, val_main_cst_9_apply,
    val_main_call2_v2_apply, val_main_call2_v1_apply, val_main_call2_v0_apply, val_main_cst_8_apply,
    val_main_v56_apply, val_main_v53_apply, val_main_v55_apply, val_main_v54_apply,
    val_main_v69_apply, val_main_v68_apply, val_main_v65_apply, val_main_v67_apply, val_main_v66_apply]
  simp only [el53, er53, el65, er65, eb55, eb67]
  unfold val_main_v52
  generalize val_main_v51 (F := Ideal) x0 x1 x3 x4 x5 x6 x7 x8 x9 = h
  rw [joined_dot h x0 x10 n q, joined_dot h x0 x12 n q, Spec.gate_ix2]
  unfold Spec.gateAt Spec.proj Ideal.logistic
  simp only [Ideal.mulf_def, Ideal.hostDivf_def, Ideal.ofBits_def, Ideal.addf_def, Ideal.hostUnary_exp_def,
    Ideal.hostNegf_def, Ideal.negf_def, Ideal.minimumf_def, Ideal.maximumf_def, Ideal.hostUnary_tanh_def,
    Ideal.ofBits_one_f32]

end Cert.Proof.RefGate

end
-- ==== Proof.LibScatterRows.lean ====
/-
  A scatter of rows by a signed row number. The operand has shape `G × D`, the scatter indices `N × 1`, the updates
  `N × D`; the update's axis 1 is the window axis, the operand's axis 0 is the inserted one and the one the single
  index component addresses, and the index vector lies along axis 1 of the scatter indices. Then update `(n, q')`
  lands at operand element `(g, q)` exactly when the `n`-th index, read as a signed integer, is `g` and `q' = q`;
  an index below `0` or at least `G` lands nowhere. Hence the updates that land at `(g, q)` are the `(n, q)` with
  `n` among the rows whose index is `g`, and an accumulating scatter adds, at `(g, q)`, the sum of those.
-/
import Idealize.ShloMosaic.PureOps.Ideal
import Idealize.ShloMosaic.Lib.ValueIdx

namespace Cert.Lib.ScatterRows

open Idealize.ShloMosaic Idealize.ShloMosaic.ValueIdx Finset

variable {G N D w : ℕ}

/-- The place in the scatter indices where update `j` reads its one start component: row `j 0`, column `0`. -/
theorem siIdx_eq (d : ScatterDims ⟨2, ![G, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (j : (⟨2, ![N, D]⟩ : Shape).Idx) (c : Fin d.scatterDimsToOperandDims.length) :
    d.siIdx j c = ix2 (j 0) 0 := by
  obtain ⟨uw, iw, sd, iv, wf⟩ := d
  simp only at huw hiw hsd hiv
  subst huw hiw hsd hiv
  have hc : c.val = 0 := by have := c.isLt; simpa using this
  funext b
  match b with
  | ⟨0, _⟩ => rfl
  | ⟨1, _⟩ => exact Fin.ext hc

/-- On operand axis 0 the window starts at the signed value of row `j 0`'s index. -/
theorem start_zero (d : ScatterDims ⟨2, ![G, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (j : (⟨2, ![N, D]⟩ : Shape).Idx) (idx : IVec ⟨2, ![N, 1]⟩ w) :
    d.start j idx 0 = (idx (ix2 (j 0) 0)).toInt := by
  have h0 : (0 : Fin (Shape.rank ⟨2, ![G, D]⟩)) ∈ d.scatterDimsToOperandDims := by
    rw [hsd]; exact List.mem_singleton_self _
  unfold ScatterDims.start
  rw [dif_pos h0, siIdx_eq d huw hiw hsd hiv]
  rfl

/-- On operand axis 1, which no index component addresses, the window starts at `0`. -/
theorem start_one (d : ScatterDims ⟨2, ![G, D]⟩ ⟨2, ![N, 1]⟩ ⟨2, ![N, D]⟩)
    (hsd : d.scatterDimsToOperandDims = [0])
    (j : (⟨2, ![N, D]⟩ : Shape).Idx) (idx : IVec ⟨2, ![N, 1]⟩ w) :
    d.start j idx 1 = 0 := by
  have h1 : (1 : Fin (Shape.rank ⟨2, ![G, D]⟩)) ∉ d.scatterDimsToOperandDims := by
    rw [hsd]; show (1 : Fin 2) ∉ [(0 : Fin 2)]; decide
  unfold ScatterDims.start
  rw [dif_neg h1]

/-- Operand axis 0 is inserted: the window coordinate there is `0`. -/
theorem window_zero (d : ScatterDims ⟨2, ![G, D]⟩ ⟨2, ![N, 1]⟩ ⟨2, ![N, D]⟩)
    (hiw : d.insertedWindowDims = [0]) (j : (⟨2, ![N, D]⟩ : Shape).Idx) :
    d.window j 0 = 0 := by
  have h0 : (0 : Fin (Shape.rank ⟨2, ![G, D]⟩)) ∉ d.sKept := by
    show _ ∉ Shape.kept _ d.insertedWindowDims
    rw [hiw, show Shape.kept ⟨2, ![G, D]⟩ [0] = [1] from rfl]
    show (0 : Fin 2) ∉ [(1 : Fin 2)]; decide
  unfold ScatterDims.window
  rw [dif_neg h0]

/-- On operand axis 1 the window coordinate is the update's coordinate on its axis 1. -/
theorem window_one (d : ScatterDims ⟨2, ![G, D]⟩ ⟨2, ![N, 1]⟩ ⟨2, ![N, D]⟩)
    (huw : d.updateWindowDims = [1]) (hiw : d.insertedWindowDims = [0])
    (j : (⟨2, ![N, D]⟩ : Shape).Idx) :
    d.window j 1 = (j 1).val := by
  obtain ⟨uw, iw, sd, iv, wf⟩ := d
  simp only at huw hiw
  subst huw hiw
  rfl

/-- Update `(n, q')` lands at operand element `(g, q)` exactly when row `n`'s index, read signed, is `g` and
    `q' = q`. -/
theorem resultIdx?_eq_some_iff (d : ScatterDims ⟨2, ![G, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (n : Fin N) (q' : Fin D) (idx : IVec ⟨2, ![N, 1]⟩ w) (g : Fin G) (q : Fin D) :
    d.resultIdx? (ix2 n q') idx = some (ix2 g q) ↔ (idx (ix2 n 0)).toInt = (g.val : ℤ) ∧ q' = q := by
  have hs0 : d.start (ix2 n q') idx 0 = (idx (ix2 n 0)).toInt := start_zero d huw hiw hsd hiv (ix2 n q') idx
  have hs1 : d.start (ix2 n q') idx 1 = 0 := start_one d hsd _ idx
  have hw0 : d.window (ix2 n q') 0 = 0 := window_zero d hiw _
  have hw1 : d.window (ix2 n q') 1 = q'.val := window_one d huw hiw _
  have hg := g.isLt
  have hq' := q'.isLt
  unfold ScatterDims.resultIdx?
  split
  next h =>
    -- the update lands inside the operand: compare the two coordinates
    have h0 : 0 ≤ d.start (ix2 n q') idx 0 + (d.window (ix2 n q') 0 : ℤ) := (h 0).1
    rw [hs0, hw0] at h0
    rw [Option.some.injEq]
    constructor
    · intro hf
      have e0 : (d.start (ix2 n q') idx 0 + (d.window (ix2 n q') 0 : ℤ)).toNat = g.val :=
        congrArg Fin.val (congrFun hf 0)
      have e1 : (d.start (ix2 n q') idx 1 + (d.window (ix2 n q') 1 : ℤ)).toNat = q.val :=
        congrArg Fin.val (congrFun hf 1)
      rw [hs0, hw0] at e0
      rw [hs1, hw1] at e1
      exact ⟨by omega, Fin.ext (by omega)⟩
    · rintro ⟨ht, rfl⟩
      funext a
      match a with
      | ⟨0, _⟩ =>
        apply Fin.ext
        show (d.start (ix2 n q') idx 0 + (d.window (ix2 n q') 0 : ℤ)).toNat = g.val
        rw [hs0, hw0]; omega
      | ⟨1, _⟩ =>
        apply Fin.ext
        show (d.start (ix2 n q') idx 1 + (d.window (ix2 n q') 1 : ℤ)).toNat = q'.val
        rw [hs1, hw1]; omega
  next h =>
    -- the update is dropped: then the index cannot be a row number of the operand
    constructor
    · intro hh; cases hh
    · rintro ⟨ht, rfl⟩
      exfalso; apply h
      intro a
      match a with
      | ⟨0, _⟩ =>
        show 0 ≤ d.start (ix2 n q') idx 0 + (d.window (ix2 n q') 0 : ℤ) ∧
          d.start (ix2 n q') idx 0 + (d.window (ix2 n q') 0 : ℤ) < (G : ℤ)
        rw [hs0, hw0]; omega
      | ⟨1, _⟩ =>
        show 0 ≤ d.start (ix2 n q') idx 1 + (d.window (ix2 n q') 1 : ℤ) ∧
          d.start (ix2 n q') idx 1 + (d.window (ix2 n q') 1 : ℤ) < (D : ℤ)
        rw [hs1, hw1]; omega

/-- The sum of the updates that land at `(g, q)` is the sum, over the rows `n` whose index is `g`, of update
    `(n, q)`. -/
theorem sum_resultIdx?_filter {M : Type*} [AddCommMonoid M] (d : ScatterDims ⟨2, ![G, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (idx : IVec ⟨2, ![N, 1]⟩ w) (g : Fin G) (q : Fin D) (upd : (⟨2, ![N, D]⟩ : Shape).Idx → M)
    [DecidablePred fun j : (⟨2, ![N, D]⟩ : Shape).Idx => d.resultIdx? j idx = some (ix2 g q)] :
    ∑ j ∈ univ.filter (fun j => d.resultIdx? j idx = some (ix2 g q)), upd j =
      ∑ n ∈ univ.filter (fun n : Fin N => (idx (ix2 n 0)).toInt = (g.val : ℤ)), upd (ix2 n q) := by
  rw [Finset.sum_filter, Finset.sum_filter, sum_idx2]
  refine Finset.sum_congr rfl (fun n _ => ?_)
  by_cases ht : (idx (ix2 n 0)).toInt = (g.val : ℤ)
  · -- row n is selected: of its D updates only the one in column q lands at (g, q)
    rw [if_pos ht, Finset.sum_eq_single q]
    · rw [if_pos ((resultIdx?_eq_some_iff d huw hiw hsd hiv n q idx g q).2 ⟨ht, rfl⟩)]
    · intro b _ hb
      rw [if_neg (fun h => hb ((resultIdx?_eq_some_iff d huw hiw hsd hiv n b idx g q).1 h).2)]
    · intro h; exact absurd (Finset.mem_univ q) h
  · -- row n is not selected: none of its updates lands at (g, q)
    rw [if_neg ht]
    refine Finset.sum_eq_zero (fun b _ => ?_)
    rw [if_neg (fun h => ht ((resultIdx?_eq_some_iff d huw hiw hsd hiv n b idx g q).1 h).1)]

/-- The accumulating scatter over the extended reals, read at `(g, q)`: the operand's element plus the sum of update
    `(n, q)` over the rows `n` whose index is `g`. -/
theorem hostScatterAdd_rows (d : ScatterDims ⟨2, ![G, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (x : (⟨2, ![G, D]⟩ : Shape).Idx → EReal) (idx : IVec ⟨2, ![N, 1]⟩ w)
    (upd : (⟨2, ![N, D]⟩ : Shape).Idx → EReal) (g : Fin G) (q : Fin D) :
    Ideal.hostScatterAdd d x idx upd (ix2 g q) =
      x (ix2 g q) + ∑ n ∈ univ.filter (fun n : Fin N => (idx (ix2 n 0)).toInt = (g.val : ℤ)), upd (ix2 n q) := by
  unfold Ideal.hostScatterAdd
  rw [sum_resultIdx?_filter d huw hiw hsd hiv]

end Cert.Lib.ScatterRows
-- ==== Proof.RefPool.lean ====
/-
  The reference's pooling, entry by entry: a scatter-add of the gate's rows by graph id into 256 zero rows adds, at
  row g, the rows of the nodes whose id is g; an id outside 0 … 255 lands nowhere.

  The scatter's operand is the zero matrix, its index column holds node n's graph id at row n, and its updates are
  the gate's rows. The scatter's dimension numbers make it a scatter of rows by a signed row number, so entry (g, q)
  of the result is 0 plus the sum of the gate's entries (n, q) over the nodes n whose id, read signed, is g.
-/
import proofs.«401727_j32504312496833_2_alg».proof.Proof.ReadP
import proofs.«401727_j32504312496833_2_alg».proof.Proof.Spec
import proofs.«401727_j32504312496833_2_alg».proof.Proof.LibScatterRows
import Idealize.ShloMosaic.Lib.Pipeline.Value
import Idealize.ShloMosaic.Lib.ValueIdx
import Idealize.ShloMosaic.PureOps.Ideal.Laws

noncomputable section

namespace Cert.Proof.RefPool

open Cert.ReferenceIdeal Cert.ReferenceIdeal.Read Idealize.ShloMosaic Idealize.ShloMosaic.ValueIdx Idealize.ShloMosaic.TcCoe

/-- The index column holds node `n`'s graph id at row `n`. -/
theorem idx_main_v72_ix2 (n : Fin 100000) : idx_main_v72 (ix2 n (0 : Fin 1)) = ix1 n :=
  funext fun a => Fin.ext (by match a with | ⟨0, _⟩ => rfl)

/-- The reference's pooled matrix is the network's pooling of its gate. -/
theorem ref_pool (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S1600000, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S192x128, .f32⟩ : BufTy).Contents (Elt Ideal)) (x11 : (⟨S128, .f32⟩ : BufTy).Contents (Elt Ideal)) (x12 : (⟨S192x128, .f32⟩ : BufTy).Contents (Elt Ideal)) (x13 : (⟨S128, .f32⟩ : BufTy).Contents (Elt Ideal)) :
    val_main_v73 (F := Ideal) x0 x1 x2 x3 x4 x5 x6 x7 x8 x9 x10 x11 x12 x13
      = Spec.pool (fun n => x2 (ix1 n)) (val_main_v70 (F := Ideal) x0 x1 x3 x4 x5 x6 x7 x8 x9 x10 x11 x12 x13) := by
  funext i
  obtain ⟨g, q, rfl⟩ : ∃ (g : Fin 256) (q : Fin 128), i = ix2 g q := ⟨i 0, i 1, eq_ix2 i⟩
  rw [Spec.pool_ix2]
  unfold val_main_v73 Spec.poolAt
  -- the gate stays one opaque matrix
  generalize val_main_v70 (F := Ideal) x0 x1 x3 x4 x5 x6 x7 x8 x9 x10 x11 x12 x13 = G
  show Ideal.hostScatterAdd scatter_S256x128_S100000x1_S100000x128_1_0_0_1 (val_main_v71 (F := Ideal))
      (val_main_v72 (F := Ideal) x2) G (ix2 g q) = _
  -- entry (g, q): the operand's zero plus the gate's entries (n, q) over the rows whose id is g
  rw [Cert.Lib.ScatterRows.hostScatterAdd_rows _ rfl rfl rfl rfl, val_main_v71_apply, val_main_cst_12_apply,
    Ideal.ofBits_def, Ideal.ofBits_zero_f32, zero_add]
  -- the index column at row n is node n's graph id
  simp only [val_main_v72_apply, idx_main_v72_ix2]

end Cert.Proof.RefPool

end
-- ==== Proof.RefMlp.lean ====
/-
  The reference's head, entry by entry: two leaky dense layers and a logistic one, the logistic spelt as
  1 / (1 + exp (-z)).
-/
import proofs.«401727_j32504312496833_2_alg».proof.Proof.ReadP
import proofs.«401727_j32504312496833_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.Proof.RefMlp

open Cert.ReferenceIdeal Cert.ReferenceIdeal.Read Idealize.ShloMosaic Idealize.ShloMosaic.ValueIdx Idealize.ShloMosaic.TcCoe

/-! ## Where each contraction and each bias row is read

At the entry in row `n` and column `q` a contraction reads row `n` of its left factor and column `q` of its
right factor, and the bias, broadcast first to one row and then down the rows, is read at `q`. -/

theorem left1 (n : Fin 256) (q k : Fin 128) : lidx_main_v74 (ix2 n q) k = ix2 n k :=
  funext fun a => Fin.ext (by match a with | ⟨0, _⟩ => rfl | ⟨1, _⟩ => rfl)
theorem right1 (n : Fin 256) (q k : Fin 128) : ridx_main_v74 (ix2 n q) k = ix2 k q :=
  funext fun a => Fin.ext (by match a with | ⟨0, _⟩ => rfl | ⟨1, _⟩ => rfl)
theorem bias1 (n : Fin 256) (q : Fin 128) : idx_main_v75 (idx_main_v76 (ix2 n q)) = ix1 q :=
  funext fun a => Fin.ext (by match a with | ⟨0, _⟩ => rfl)

theorem left2 (n : Fin 256) (q : Fin 258) (k : Fin 128) : lidx_main_v83 (ix2 n q) k = ix2 n k :=
  funext fun a => Fin.ext (by match a with | ⟨0, _⟩ => rfl | ⟨1, _⟩ => rfl)
theorem right2 (n : Fin 256) (q : Fin 258) (k : Fin 128) : ridx_main_v83 (ix2 n q) k = ix2 k q :=
  funext fun a => Fin.ext (by match a with | ⟨0, _⟩ => rfl | ⟨1, _⟩ => rfl)
theorem bias2 (n : Fin 256) (q : Fin 258) : idx_main_v84 (idx_main_v85 (ix2 n q)) = ix1 q :=
  funext fun a => Fin.ext (by match a with | ⟨0, _⟩ => rfl)

theorem left3 (g : Fin 256) (o : Fin 1) (k : Fin 258) : lidx_main_v92 (ix2 g o) k = ix2 g k :=
  funext fun a => Fin.ext (by match a with | ⟨0, _⟩ => rfl | ⟨1, _⟩ => rfl)
theorem right3 (g : Fin 256) (o : Fin 1) (k : Fin 258) : ridx_main_v92 (ix2 g o) k = ix2 k o :=
  funext fun a => Fin.ext (by match a with | ⟨0, _⟩ => rfl | ⟨1, _⟩ => rfl)
/-- The last bias has one entry, so its only index is the column `o`. -/
theorem bias3 (g : Fin 256) (o : Fin 1) : idx_main_v93 (idx_main_v94 (ix2 g o)) = ix1 o :=
  funext fun a => Fin.ext (by match a with | ⟨0, _⟩ => show 0 = o.val; omega)

/-! ## The two leaky layers -/

section Layers

variable (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S1600000, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S192x128, .f32⟩ : BufTy).Contents (Elt Ideal)) (x11 : (⟨S128, .f32⟩ : BufTy).Contents (Elt Ideal)) (x12 : (⟨S192x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x258, .f32⟩ : BufTy).Contents (Elt Ideal)) (x17 : (⟨S258, .f32⟩ : BufTy).Contents (Elt Ideal))

/-- The first layer: the select on `z > 0` between `z` and the slope times `z` is the leaky unit of
    `z = pooled[n,:]·Wf1[:,q] + bf1[q]`. -/
theorem layer1 :
    val_main_v82 (F := Ideal) x0 x1 x2 x3 x4 x5 x6 x7 x8 x9 x10 x11 x12 x13 x14 x15
      = fun j : (⟨2, ![256, 128]⟩ : Shape).Idx =>
          Spec.leaky (Spec.dense (val_main_v73 (F := Ideal) x0 x1 x2 x3 x4 x5 x6 x7 x8 x9 x10 x11 x12 x13) x14 (fun q => x15 (ix1 q)) (j 0) (j 1)) := by
  funext j
  obtain ⟨n, q, rfl⟩ : ∃ (n : Fin 256) (q : Fin 128), j = ix2 n q := ⟨j 0, j 1, eq_ix2 j⟩
  rw [val_main_v82_apply, val_main_v79_apply, val_main_v81_apply, val_main_v78_apply, val_main_v80_apply,
    val_main_cst_13_apply, val_main_cst_14_apply, val_main_v77_apply, val_main_v76_apply, val_main_v75_apply,
    val_main_v74_apply]
  simp only [left1, right1, bias1, Ideal.ofBits_def, Ideal.addf_def, Ideal.mulf_def]
  rfl

/-- The second layer, over the first layer's matrix: `z = f1[n,:]·Wf2[:,q] + bf2[q]`. -/
theorem layer2 :
    val_main_v91 (F := Ideal) x0 x1 x2 x3 x4 x5 x6 x7 x8 x9 x10 x11 x12 x13 x14 x15 x16 x17
      = fun i : (⟨2, ![256, 258]⟩ : Shape).Idx =>
          Spec.leaky (Spec.dense (r := 256) (val_main_v82 (F := Ideal) x0 x1 x2 x3 x4 x5 x6 x7 x8 x9 x10 x11 x12 x13 x14 x15) x16 (fun q => x17 (ix1 q)) (i 0) (i 1)) := by
  funext i
  obtain ⟨n, q, rfl⟩ : ∃ (n : Fin 256) (q : Fin 258), i = ix2 n q := ⟨i 0, i 1, eq_ix2 i⟩
  rw [val_main_v91_apply, val_main_v88_apply, val_main_v90_apply, val_main_v87_apply, val_main_v89_apply,
    val_main_cst_15_apply, val_main_cst_16_apply, val_main_v86_apply, val_main_v85_apply, val_main_v84_apply,
    val_main_v83_apply]
  simp only [left2, right2, bias2, Ideal.ofBits_def, Ideal.addf_def, Ideal.mulf_def]
  rfl

end Layers

/-! ## The head -/

/-- The reference's result is the network's head of its pooled matrix. -/
theorem ref_mlp (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S1600000, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S192x128, .f32⟩ : BufTy).Contents (Elt Ideal)) (x11 : (⟨S128, .f32⟩ : BufTy).Contents (Elt Ideal)) (x12 : (⟨S192x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x258, .f32⟩ : BufTy).Contents (Elt Ideal)) (x17 : (⟨S258, .f32⟩ : BufTy).Contents (Elt Ideal)) (x18 : (⟨S258x1, .f32⟩ : BufTy).Contents (Elt Ideal)) (x19 : (⟨S1, .f32⟩ : BufTy).Contents (Elt Ideal)) :
    val_main_v101 (F := Ideal) x0 x1 x2 x3 x4 x5 x6 x7 x8 x9 x10 x11 x12 x13 x14 x15 x16 x17 x18 x19
      = Spec.mlp (val_main_v73 (F := Ideal) x0 x1 x2 x3 x4 x5 x6 x7 x8 x9 x10 x11 x12 x13) x14 (fun q => x15 (ix1 q)) x16 (fun q => x17 (ix1 q)) x18 (fun q => x19 (ix1 q)) := by
  funext i
  obtain ⟨g, o, rfl⟩ : ∃ (g : Fin 256) (o : Fin 1), i = ix2 g o := ⟨i 0, i 1, eq_ix2 i⟩
  -- the quotient of 1 by 1 + exp (-z), with z = f2[g,:]·Wout[:,o] + bout[o]
  rw [val_main_v101_apply, val_main_v100_apply, val_main_cst_18_apply, val_main_v99_apply, val_main_v98_apply,
    val_main_cst_17_apply, val_main_v97_apply, val_main_v96_apply, val_main_v95_apply, val_main_v94_apply,
    val_main_v93_apply, val_main_v92_apply, layer2, layer1]
  -- the pooled matrix enters only through its entries: from here on it is an arbitrary matrix
  generalize val_main_v73 (F := Ideal) x0 x1 x2 x3 x4 x5 x6 x7 x8 x9 x10 x11 x12 x13 = p
  -- both words 1.0 are the extended real 1, which makes the quotient the logistic function of z
  simp only [left3, right3, bias3, Ideal.ofBits_def, Ideal.ofBits_one_f32, Ideal.addf_def]
  rfl

end Cert.Proof.RefMlp

end
-- ==== Proof.RefValue.lean ====
/-
  The reference's result as the network of its arguments, with the reference's own message aggregation.
-/
import proofs.«401727_j32504312496833_2_alg».proof.Proof.ReadP
import proofs.«401727_j32504312496833_2_alg».proof.Proof.Spec
import proofs.«401727_j32504312496833_2_alg».proof.Proof.RefConv
import proofs.«401727_j32504312496833_2_alg».proof.Proof.RefGate
import proofs.«401727_j32504312496833_2_alg».proof.Proof.RefPool
import proofs.«401727_j32504312496833_2_alg».proof.Proof.RefMlp
import Idealize.ShloMosaic.Lib.Pipeline.Value
import Idealize.ShloMosaic.Lib.ValueIdx
import Idealize.ShloMosaic.PureOps.Ideal.Laws

noncomputable section

namespace Cert.Proof.RefValue

open Cert.ReferenceIdeal Cert.ReferenceIdeal.Read Idealize.ShloMosaic Idealize.ShloMosaic.ValueIdx Idealize.ShloMosaic.TcCoe

variable {F : FTy → Type} [FloatOps F]

/-- The reference's second aggregation as a map of the first hidden layer. -/
def agg2 (h : (⟨S100000x128, .f32⟩ : BufTy).Contents (Elt F)) (x1 : (⟨S2x1600000, .i32⟩ : BufTy).Contents (Elt F))
    (x3 : (⟨S1600000, .f32⟩ : BufTy).Contents (Elt F)) : (⟨S100000x128, .f32⟩ : BufTy).Contents (Elt F) :=
  Host.scatterAdd scatter_S100000x128_S1600000x1_S1600000x128_1_0_0_1 (val_main_v38 (F := F)) (val_main_v39 (F := F) x1)
    (mulf (Host.gather gather_S100000x128_S1600000x1_S1600000x128_1_0_n_n_0_1_1128 h (val_main_v33 (F := F) x1)) (val_main_v36 (F := F) x3))

/-- The reference aggregates its second layer's messages out of its first hidden layer by that map. -/
theorem val_main_v40_eq (x0 : (⟨S100000x64, .f32⟩ : BufTy).Contents (Elt F)) (x1 : (⟨S2x1600000, .i32⟩ : BufTy).Contents (Elt F)) (x3 : (⟨S1600000, .f32⟩ : BufTy).Contents (Elt F)) (x4 : (⟨S64x128, .f32⟩ : BufTy).Contents (Elt F)) (x5 : (⟨S128, .f32⟩ : BufTy).Contents (Elt F)) (x6 : (⟨S64x128, .f32⟩ : BufTy).Contents (Elt F)) :
    val_main_v40 (F := F) x0 x1 x3 x4 x5 x6 = agg2 (val_main_v27 (F := F) x0 x1 x3 x4 x5 x6) x1 x3 := by
  -- the scatter-add's updates are the gathered rows of the first hidden layer times the broadcast weights:
  -- the map's own text at that layer
  unfold val_main_v40 val_main_v37 val_main_v34
  rfl

/-- The reference's result is the network of its arguments. -/
theorem ref_value (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S1600000, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S192x128, .f32⟩ : BufTy).Contents (Elt Ideal)) (x11 : (⟨S128, .f32⟩ : BufTy).Contents (Elt Ideal)) (x12 : (⟨S192x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x258, .f32⟩ : BufTy).Contents (Elt Ideal)) (x17 : (⟨S258, .f32⟩ : BufTy).Contents (Elt Ideal)) (x18 : (⟨S258x1, .f32⟩ : BufTy).Contents (Elt Ideal)) (x19 : (⟨S1, .f32⟩ : BufTy).Contents (Elt Ideal)) :
    val_main_v101 (F := Ideal) x0 x1 x2 x3 x4 x5 x6 x7 x8 x9 x10 x11 x12 x13 x14 x15 x16 x17 x18 x19
      = Spec.net (val_main_v16 (F := Ideal) x0 x1 x3) (fun h => agg2 (F := Ideal) h x1 x3)
          x0 (fun n => x2 (ix1 n)) x4 x6 (fun q => x5 (ix1 q)) x7 x9 (fun q => x8 (ix1 q)) x10 x12 (fun q => x11 (ix1 q)) (fun q => x13 (ix1 q)) x14 (fun q => x15 (ix1 q)) x16 (fun q => x17 (ix1 q)) x18 (fun q => x19 (ix1 q)) := by
  rw [RefMlp.ref_mlp, RefPool.ref_pool, RefGate.ref_gate, RefConv.ref_h2, val_main_v40_eq, RefConv.ref_h1]
  rfl

end Cert.Proof.RefValue

end
-- ==== Proof.AggBridge.lean ====
/-
  The two programs aggregate messages by the same host operations; the kernel program only passes the gathered
  rows through a change of float format and back, which is the identity on the extended reals.
-/
import proofs.«401727_j32504312496833_2_alg».proof.Proof.KAgg
import proofs.«401727_j32504312496833_2_alg».proof.Proof.RefValue

noncomputable section

namespace Cert.Proof.AggBridge

open Idealize.ShloMosaic Idealize.ShloMosaic.TcCoe Cert.ReferenceIdeal.Read

/-! Both programs read the edge list in the same way: row 0 holds the source ids, row 1 the destination ids;
    a negative source id is wrapped by the node count; each id vector is then laid out as a column. The two
    texts differ only in the names of their shape literals and in the proofs of the shape side conditions,
    so every equation below holds by unfolding the two sides' own definitions: the gather and the scatter
    themselves are never opened, only their operands are compared. -/

/-- The source ids, wrapped and laid out as a column, are the first layer's gather indices of the reference. -/
theorem srcCol_eq₁ (x1 : (⟨Cert.ReferenceIdeal.S2x1600000, .i32⟩ : BufTy).Contents (Elt Ideal)) :
    KAgg.srcCol (F := Ideal) x1 = val_main_v9 (F := Ideal) x1 := rfl

/-- The destination ids as a column are the first layer's scatter indices of the reference. -/
theorem dstCol_eq₁ (x1 : (⟨Cert.ReferenceIdeal.S2x1600000, .i32⟩ : BufTy).Contents (Elt Ideal)) :
    KAgg.dstCol (F := Ideal) x1 = val_main_v15 (F := Ideal) x1 := rfl

/-- The reference rebuilds the same source column for its second layer. -/
theorem srcCol_eq₂ (x1 : (⟨Cert.ReferenceIdeal.S2x1600000, .i32⟩ : BufTy).Contents (Elt Ideal)) :
    KAgg.srcCol (F := Ideal) x1 = val_main_v33 (F := Ideal) x1 := rfl

/-- The reference rebuilds the same destination column for its second layer. -/
theorem dstCol_eq₂ (x1 : (⟨Cert.ReferenceIdeal.S2x1600000, .i32⟩ : BufTy).Contents (Elt Ideal)) :
    KAgg.dstCol (F := Ideal) x1 = val_main_v39 (F := Ideal) x1 := rfl

/-- The first layer's aggregated messages agree. -/
theorem agg1_eq (x0 : (⟨Cert.ReferenceIdeal.S100000x64, .f32⟩ : BufTy).Contents (Elt Ideal)) (x1 : (⟨Cert.ReferenceIdeal.S2x1600000, .i32⟩ : BufTy).Contents (Elt Ideal))
    (x3 : (⟨Cert.ReferenceIdeal.S1600000, .f32⟩ : BufTy).Contents (Elt Ideal)) :
    KAgg.agg1 (F := Ideal) x0 x1 x3 = Cert.ReferenceIdeal.Read.val_main_v16 (F := Ideal) x0 x1 x3 := by
  -- the same scatter-add, into the same zeros, by the same destination column ...
  unfold KAgg.agg1 val_main_v16 val_main_v13 val_main_v10
  rw [srcCol_eq₁, dstCol_eq₁]
  -- ... of the same updates: narrowing the features before the gather and widening the gathered rows after
  -- it changes no extended real, and the weight is broadcast along the row in both texts
  rfl

/-- The second layer's aggregation maps agree. -/
theorem agg2_eq (h : (⟨Cert.ReferenceIdeal.S100000x128, .f32⟩ : BufTy).Contents (Elt Ideal)) (x1 : (⟨Cert.ReferenceIdeal.S2x1600000, .i32⟩ : BufTy).Contents (Elt Ideal))
    (x3 : (⟨Cert.ReferenceIdeal.S1600000, .f32⟩ : BufTy).Contents (Elt Ideal)) :
    KAgg.agg2 (F := Ideal) h x1 x3 = RefValue.agg2 (F := Ideal) h x1 x3 := by
  unfold KAgg.agg2 RefValue.agg2
  rw [srcCol_eq₂, dstCol_eq₂]
  -- widening the gathered rows changes no extended real
  rfl

end Cert.Proof.AggBridge

end
-- ==== Proof.lean ====
/-
  The kernel program and the reference compute one network on the extended reals.

  Both programs aggregate each layer's messages by the same host operations (a gather of the source rows, a
  product with the edge weight, a scatter-add by destination).  The kernel program then runs three regions: the
  first graph convolution layer over row blocks; the second layer, the gate and the pooling fused, the pooling
  as a sum over row tiles of one-hot products accumulated in place; and the head.  The reference applies whole
  matrix products, a scatter-add by graph id for the pooling, and spells its logistics as 1 / (1 + exp (-z)).
  Index by index both results are the network `Spec.net` of the arguments: the differences are the order of a
  sum of three terms, the split of a 192-term sum into 128 + 64, the tiling of a sum over nodes, changes of
  float format (the identity here) and the spelling of the logistic — nothing that needs an entry to be finite.
  The three frames are the generated ones (the reference's is its run with the result dropped), and the ideal
  pass rewrote nothing, so `preserves` is trivial.
-/
import proofs.«401727_j32504312496833_2_alg».proof.Defs
import proofs.«401727_j32504312496833_2_alg».proof.Proof.Gen.Kernel
import proofs.«401727_j32504312496833_2_alg».proof.Proof.Gen.Kernel.Skeleton
import proofs.«401727_j32504312496833_2_alg».proof.Proof.Gen.Kernel.Launch
import proofs.«401727_j32504312496833_2_alg».proof.Proof.Gen.Kernel.Points
import proofs.«401727_j32504312496833_2_alg».proof.Proof.Gen.Kernel.Frame
import proofs.«401727_j32504312496833_2_alg».proof.Proof.Gen.KernelIdeal
import proofs.«401727_j32504312496833_2_alg».proof.Proof.Gen.KernelIdeal.Skeleton
import proofs.«401727_j32504312496833_2_alg».proof.Proof.Gen.KernelIdeal.Launch
import proofs.«401727_j32504312496833_2_alg».proof.Proof.Gen.KernelIdeal.Points
import proofs.«401727_j32504312496833_2_alg».proof.Proof.Gen.KernelIdeal.Frame
import proofs.«401727_j32504312496833_2_alg».proof.Proof.Gen.ReferenceIdeal
import proofs.«401727_j32504312496833_2_alg».proof.Proof.Gen.Pre_finite_inputs
import proofs.«401727_j32504312496833_2_alg».proof.Proof.KernelRun
import proofs.«401727_j32504312496833_2_alg».proof.Proof.KernelValue
import proofs.«401727_j32504312496833_2_alg».proof.Proof.RefFrame
import proofs.«401727_j32504312496833_2_alg».proof.Proof.RefValue
import proofs.«401727_j32504312496833_2_alg».proof.Proof.AggBridge
import Idealize.ShloMosaic.Adequacy
import Idealize.ShloMosaic.Init

noncomputable section

namespace Cert.Proof

open Idealize.ShloMosaic Idealize.SL.Sem

/-- The two idealized programs, run from memories that agree on the arguments, both end with the network of the
    arguments in their result arrays. -/
theorem algebraic : Cert.algebraic_KernelIdeal_ReferenceIdeal := by
  intro m ρ m' ρ' _ hagree
  refine ⟨fun c => KernelValue.out m c, ?_, ?_⟩
  · exact (θ_run Cert.KernelIdeal.defs _ _).mono
      (fun r h c => ⟨(h c).1.trans (KernelValue.kernel_value m ρ c), (h c).2⟩)
      (Cert.KernelIdeal.RunOut.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    rw [Cert.ReferenceIdeal.Read.val_main_v101_eq, RefValue.ref_value, h0, h1, h2, h3, h4, h5, h6, h7, h8, h9, h10, h11, h12, h13, h14, h15, h16, h17, h18, h19, ← AggBridge.agg1_eq]
    simp only [← AggBridge.agg2_eq]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  RefFrame.frame_ri,
  trivial,
  algebraic⟩

end Cert.Proof

end
